-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S1x2048x64 : Shape := ⟨3, ![1, 2048, 64]⟩
abbrev S1x1x2048x2048 : Shape := ⟨4, ![1, 1, 2048, 2048]⟩
abbrev S2048x2048 : Shape := ⟨2, ![2048, 2048]⟩
abbrev S512x2048 : Shape := ⟨2, ![512, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x64 : S_.BroadcastsInDim S1x2048x64 (![] : Fin 0 → Fin S1x2048x64.rank)
  reducesTo_S1x2048x64_S_d0_1_2 : S1x2048x64.ReducesTo [0, 1, 2] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S512x2048 .f32) (main_arg6 : FVec F S512x2048 .f32) (main_arg7 : FVec F S2048x2048 .f32) (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_v33

def fn {F : FTy → Type} [FloatOps F] (main_arg0 : FVec F S1x2048x2048 .f32) (main_arg1 : FVec F S1x2048x64 .f32) (main_arg2 : FVec F S1x2048x64 .f32) (main_arg3 : FVec F S1x1x2048x2048 .f32) (main_arg4 : FVec F S2048x2048 .f32) (main_arg5 : FVec F S512x2048 .f32) (main_arg6 : FVec F S512x2048 .f32) (main_arg7 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x64 .f32 := Host.absf main_arg1
  let main_cst_0 : FVec F S_ .f32 := constant S_ .f32 0x7F800000#32
  let main_v5 : FVec F S1x2048x64 .f32 := broadcastInDim S1x2048x64 ![] bcast_S_S1x2048x64 main_cst_0
  let main_v6 : IVec S1x2048x64 1 := cmpf .olt main_v4 main_v5
  let main_c_1 : IVec S_ 1 := constantI S_ 1 1#1
  let main_v7 : IVec S_ 1 := (fun x v => Host.reduce IntOp.andi x v reducesTo_S1x2048x64_S_d0_1_2 h_S_) main_v6 main_c_1
  let main_v8 : IVec S_ 1 := andi main_v3 main_v7
  let main_v9 : FVec F S1x2048x64 .f32 := Host.absf main_arg2
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_c_3 : IVec S_ 1 := constantI S_ 1 1#1
  let main_v12 : IVec S_ 1 := (fun x v => Host.reduce IntOp.andi x v reducesTo_S1x2048x64_S_d0_1_2 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_arg4 main_arg5 main_arg6 main_arg7 main_v13 main_v16
-- ==== Kernel.lean ====
abbrev S1x2048x2048 : Shape := ⟨3, ![1, 2048, 2048]⟩
abbrev S1x2048x64 : Shape := ⟨3, ![1, 2048, 64]⟩
abbrev S1x1x2048x2048 : Shape := ⟨4, ![1, 1, 2048, 2048]⟩
abbrev S2048x2048 : Shape := ⟨2, ![2048, 2048]⟩
abbrev S512x2048 : Shape := ⟨2, ![512, 2048]⟩
abbrev S3072x2048 : Shape := ⟨2, ![3072, 2048]⟩
abbrev S2048x3072 : Shape := ⟨2, ![2048, 3072]⟩
abbrev S512x512 : Shape := ⟨2, ![512, 512]⟩
abbrev S2048x512 : Shape := ⟨2, ![2048, 512]⟩
abbrev S2048x32x64 : Shape := ⟨3, ![2048, 32, 64]⟩
abbrev S32x2048x64 : Shape := ⟨3, ![32, 2048, 64]⟩
abbrev S2048x8x64 : Shape := ⟨3, ![2048, 8, 64]⟩
abbrev S8x2048x64 : Shape := ⟨3, ![8, 2048, 64]⟩
abbrev S2048x64 : Shape := ⟨2, ![2048, 64]⟩
abbrev S32x2048x2048 : Shape := ⟨3, ![32, 2048, 2048]⟩
abbrev S1x256x64 : Shape := ⟨3, ![1, 256, 64]⟩
abbrev S256x2048 : Shape := ⟨2, ![256, 2048]⟩
abbrev S256x64 : Shape := ⟨2, ![256, 64]⟩
abbrev S1x256x2048 : Shape := ⟨3, ![1, 256, 2048]⟩
abbrev S256x32 : Shape := ⟨2, ![256, 32]⟩
abbrev S2048x32 : Shape := ⟨2, ![2048, 32]⟩
abbrev S256 : Shape := ⟨1, ![256]⟩
abbrev S256x1 : Shape := ⟨2, ![256, 1]⟩
abbrev S1x32x2048x2048 : Shape := ⟨4, ![1, 32, 2048, 2048]⟩

abbrev nBuf : Space → Nat
  | .hbm => 30
  | .vmem => 30
  | .smem => 0
  | _ => 0

abbrev bufTy : (tb : Table) → Fin (tcTables nBuf tb) → BufTy
  | .hbm, ⟨0, _⟩ => ⟨S1x2048x2048, .f32⟩
  | .hbm, ⟨1, _⟩ => ⟨S1x2048x64, .f32⟩
  | .hbm, ⟨2, _⟩ => ⟨S1x2048x64, .f32⟩
  | .hbm, ⟨3, _⟩ => ⟨S1x1x2048x2048, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S3072x2048, .f32⟩
  | .hbm, ⟨10, _⟩ => ⟨S2048x3072, .f32⟩
  | .hbm, ⟨11, _⟩ => ⟨S2048x2048, .f32⟩
  | .hbm, ⟨12, _⟩ => ⟨S2048x512, .f32⟩
  | .hbm, ⟨13, _⟩ => ⟨S2048x512, .f32⟩
  | .hbm, ⟨14, _⟩ => ⟨S2048x32x64, .f32⟩
  | .hbm, ⟨15, _⟩ => ⟨S32x2048x64, .f32⟩
  | .hbm, ⟨16, _⟩ => ⟨S2048x8x64, .f32⟩
  | .hbm, ⟨17, _⟩ => ⟨S8x2048x64, .f32⟩
  | .hbm, ⟨18, _⟩ => ⟨S2048x8x64, .f32⟩
  | .hbm, ⟨19, _⟩ => ⟨S8x2048x64, .f32⟩
  | .hbm, ⟨20, _⟩ => ⟨S2048x64, .f32⟩
  | .hbm, ⟨21, _⟩ => ⟨S2048x64, .f32⟩
  | .hbm, ⟨22, _⟩ => ⟨S2048x2048, .f32⟩
  | .hbm, ⟨23, _⟩ => ⟨S32x2048x2048, .f32⟩
  | .hbm, ⟨24, _⟩ => ⟨S32x2048x64, .f32⟩
  | .hbm, ⟨25, _⟩ => ⟨S2048x32x64, .f32⟩
  | .hbm, ⟨26, _⟩ => ⟨S2048x2048, .f32⟩
  | .hbm, ⟨27, _⟩ => ⟨S2048x2048, .f32⟩
  | .hbm, ⟨28, _⟩ => ⟨S1x2048x2048, .f32⟩
  | .hbm, ⟨29, _⟩ => ⟨S1x32x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S1x256x64, .f32⟩
  | .local _ .vmem, ⟨7, _⟩ => ⟨S1x256x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S256x2048, .f32⟩
  | .local _ .vmem, ⟨13, _⟩ => ⟨S256x2048, .f32⟩
  | .local _ .vmem, ⟨14, _⟩ => ⟨S2048x64, .f32⟩
  | .local _ .vmem, ⟨15, _⟩ => ⟨S2048x64, .f32⟩
  | .local _ .vmem, ⟨16, _⟩ => ⟨S256x64, .f32⟩
  | .local _ .vmem, ⟨17, _⟩ => ⟨S256x64, .f32⟩
  | .local _ .vmem, ⟨18, _⟩ => ⟨S256x64, .f32⟩
  | .local _ .vmem, ⟨19, _⟩ => ⟨S256x64, .f32⟩
  | .local _ .vmem, ⟨20, _⟩ => ⟨S1x256x2048, .f32⟩
  | .local _ .vmem, ⟨21, _⟩ => ⟨S1x256x2048, .f32⟩
  | .local _ .vmem, ⟨22, _⟩ => ⟨S1x256x64, .f32⟩
  | .local _ .vmem, ⟨23, _⟩ => ⟨S1x256x64, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S512x512, .f32⟩
  | .local _ .vmem, ⟨29, _⟩ => ⟨S512x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2048x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2048x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S1x2048x2048_S2048x2048 : S1x2048x2048.ShapeCasts S2048x2048
  concatenates_S2048x2048_S512x2048_S512x2048_S3072x2048_d0 : Shape.Concatenates [S2048x2048, S512x2048, S512x2048] S3072x2048 0
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S2048x3072_S2048x2048_0_0 : S2048x3072.Slices ![0, 0] S2048x2048
  slices_S2048x3072_S2048x512_0_2048 : S2048x3072.Slices ![0, 2048] S2048x512
  slices_S2048x3072_S2048x512_0_2560 : S2048x3072.Slices ![0, 2560] S2048x512
  shapeCasts_S2048x2048_S2048x32x64 : S2048x2048.ShapeCasts S2048x32x64
  transposes_S2048x32x64_S32x2048x64_1_0_2 : S2048x32x64.Transposes [1, 0, 2] S32x2048x64
  shapeCasts_S2048x512_S2048x8x64 : S2048x512.ShapeCasts S2048x8x64
  transposes_S2048x8x64_S8x2048x64_1_0_2 : S2048x8x64.Transposes [1, 0, 2] S8x2048x64
  shapeCasts_S1x2048x64_S2048x64 : S1x2048x64.ShapeCasts S2048x64
  shapeCasts_S1x1x2048x2048_S2048x2048 : S1x1x2048x2048.ShapeCasts S2048x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S256x64_o0_32_S256x32 : S256x64.Slices ![0, 32] S256x32
  slices_S256x64_o0_0_S256x32 : S256x64.Slices ![0, 0] S256x32
  concatenates_S256x32_S256x32_S256x64_d1 : Shape.Concatenates [S256x32, S256x32] S256x64 1
  slices_S2048x64_o0_32_S2048x32 : S2048x64.Slices ![0, 32] S2048x32
  slices_S2048x64_o0_0_S2048x32 : S2048x64.Slices ![0, 0] S2048x32
  concatenates_S2048x32_S2048x32_S2048x64_d1 : Shape.Concatenates [S2048x32, S2048x32] S2048x64 1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  transposes_S32x2048x64_S2048x32x64_1_0_2 : S32x2048x64.Transposes [1, 0, 2] S2048x32x64
  shapeCasts_S2048x32x64_S2048x2048 : S2048x32x64.ShapeCasts S2048x2048
  bcast_S2048x2048_S1x2048x2048_1_2 : S2048x2048.BroadcastsInDim S1x2048x2048 (![1, 2] : Fin 2 → Fin S1x2048x2048.rank)
  bcast_S32x2048x2048_S1x32x2048x2048_1_2_3 : S32x2048x2048.BroadcastsInDim S1x32x2048x2048 (![1, 2, 3] : Fin 3 → Fin S1x32x2048x2048.rank)
  dot_S512x2048_S512x2048_S512x512_1_1_0_0_n_n_wf : DotDims.WF S512x2048 S512x2048 S512x512 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S3072x2048.size a
  hwx0_1 : ∀ i : grid0.Coords, EltTy.bits .f32 = 32 ∨ (Rect.block (s := S3072x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x3072.size a
  hwx0_2 : ∀ i : grid0.Coords, EltTy.bits .f32 = 32 ∨ (Rect.block (s := S2048x3072) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .f32 = 32 ∨ (Rect.block (s := S32x2048x64) S1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .f32 = 32 ∨ (Rect.block (s := S8x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .f32 = 32 ∨ (Rect.block (s := S8x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S2048x64.size a
  hwx1_4 : ∀ i : grid1.Coords, EltTy.bits .f32 = 32 ∨ (Rect.block (s := S2048x64) S2048x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S2048x64.size a
  hwx1_5 : ∀ i : grid1.Coords, EltTy.bits .f32 = 32 ∨ (Rect.block (s := S2048x64) S2048x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S2048x64.size a
  hwx1_6 : ∀ i : grid1.Coords, EltTy.bits .f32 = 32 ∨ (Rect.block (s := S2048x64) S256x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x64.size a ≤ S2048x64.size a
  hwx1_7 : ∀ i : grid1.Coords, EltTy.bits .f32 = 32 ∨ (Rect.block (s := S2048x64) S256x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256x2048.size a ≤ S32x2048x2048.size a
  hwx1_8 : ∀ i : grid1.Coords, EltTy.bits .f32 = 32 ∨ (Rect.block (s := S32x2048x2048) S1x256x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x256x64.size a ≤ S32x2048x64.size a
  hwx1_9 : ∀ i : grid1.Coords, EltTy.bits .f32 = 32 ∨ (Rect.block (s := S32x2048x64) S1x256x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S2048x2048.size a
  hwx2_0 : ∀ i : grid2.Coords, EltTy.bits .f32 = 32 ∨ (Rect.block (s := S2048x2048) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .f32 = 32 ∨ (Rect.block (s := S2048x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S2048x2048.size a
  hwx2_2 : ∀ i : grid2.Coords, EltTy.bits .f32 = 32 ∨ (Rect.block (s := S2048x2048) S512x512.size (cc2_transform_2 i) (hinb2_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2048x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S2048x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S256x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13) S256x64.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15_0) S1x256x2048.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15_1) S1x256x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v17) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x2048x2048 : Shape := ⟨3, ![1, 2048, 2048]⟩
abbrev S1x2048x64 : Shape := ⟨3, ![1, 2048, 64]⟩
abbrev S1x1x2048x2048 : Shape := ⟨4, ![1, 1, 2048, 2048]⟩
abbrev S2048x2048 : Shape := ⟨2, ![2048, 2048]⟩
abbrev S512x2048 : Shape := ⟨2, ![512, 2048]⟩
abbrev S1x2048x32x64 : Shape := ⟨4, ![1, 2048, 32, 64]⟩
abbrev S1x32x2048x64 : Shape := ⟨4, ![1, 32, 2048, 64]⟩
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x1x2048x64 : Shape := ⟨4, ![1, 1, 2048, 64]⟩
abbrev S1x32x2048x32 : Shape := ⟨4, ![1, 32, 2048, 32]⟩
abbrev S1x8x2048x32 : Shape := ⟨4, ![1, 8, 2048, 32]⟩
abbrev S1x8x4x2048x64 : Shape := ⟨5, ![1, 8, 4, 2048, 64]⟩
abbrev S1x32x2048x2048 : Shape := ⟨4, ![1, 32, 2048, 2048]⟩
abbrev S_ : Shape := ⟨0, ![]⟩
abbrev S1x32x2048 : Shape := ⟨3, ![1, 32, 2048]⟩
abbrev S1x32x2048x1 : Shape := ⟨4, ![1, 32, 2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x64, .f32⟩
  | .hbm, ⟨2, _⟩ => ⟨S1x2048x64, .f32⟩
  | .hbm, ⟨3, _⟩ => ⟨S1x1x2048x2048, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S2048x2048, .f32⟩
  | .hbm, ⟨8, _⟩ => ⟨S1x2048x2048, .f32⟩
  | .hbm, ⟨9, _⟩ => ⟨S1x2048x32x64, .f32⟩
  | .hbm, ⟨10, _⟩ => ⟨S1x32x2048x64, .f32⟩
  | .hbm, ⟨11, _⟩ => ⟨S1x2048x512, .f32⟩
  | .hbm, ⟨12, _⟩ => ⟨S1x2048x8x64, .f32⟩
  | .hbm, ⟨13, _⟩ => ⟨S1x8x2048x64, .f32⟩
  | .hbm, ⟨14, _⟩ => ⟨S1x2048x512, .f32⟩
  | .hbm, ⟨15, _⟩ => ⟨S1x2048x8x64, .f32⟩
  | .hbm, ⟨16, _⟩ => ⟨S1x8x2048x64, .f32⟩
  | .hbm, ⟨17, _⟩ => ⟨S1x1x2048x64, .f32⟩
  | .hbm, ⟨18, _⟩ => ⟨S1x1x2048x64, .f32⟩
  | .hbm, ⟨19, _⟩ => ⟨S1x32x2048x64, .f32⟩
  | .hbm, ⟨20, _⟩ => ⟨S1x32x2048x64, .f32⟩
  | .hbm, ⟨21, _⟩ => ⟨S1x32x2048x32, .f32⟩
  | .hbm, ⟨22, _⟩ => ⟨S1x32x2048x32, .f32⟩
  | .hbm, ⟨23, _⟩ => ⟨S1x32x2048x32, .f32⟩
  | .hbm, ⟨24, _⟩ => ⟨S1x32x2048x64, .f32⟩
  | .hbm, ⟨25, _⟩ => ⟨S1x32x2048x64, .f32⟩
  | .hbm, ⟨26, _⟩ => ⟨S1x32x2048x64, .f32⟩
  | .hbm, ⟨27, _⟩ => ⟨S1x32x2048x64, .f32⟩
  | .hbm, ⟨28, _⟩ => ⟨S1x8x2048x64, .f32⟩
  | .hbm, ⟨29, _⟩ => ⟨S1x8x2048x64, .f32⟩
  | .hbm, ⟨30, _⟩ => ⟨S1x8x2048x32, .f32⟩
  | .hbm, ⟨31, _⟩ => ⟨S1x8x2048x32, .f32⟩
  | .hbm, ⟨32, _⟩ => ⟨S1x8x2048x32, .f32⟩
  | .hbm, ⟨33, _⟩ => ⟨S1x8x2048x64, .f32⟩
  | .hbm, ⟨34, _⟩ => ⟨S1x8x2048x64, .f32⟩
  | .hbm, ⟨35, _⟩ => ⟨S1x8x2048x64, .f32⟩
  | .hbm, ⟨36, _⟩ => ⟨S1x8x2048x64, .f32⟩
  | .hbm, ⟨37, _⟩ => ⟨S1x8x4x2048x64, .f32⟩
  | .hbm, ⟨38, _⟩ => ⟨S1x32x2048x64, .f32⟩
  | .hbm, ⟨39, _⟩ => ⟨S1x8x4x2048x64, .f32⟩
  | .hbm, ⟨40, _⟩ => ⟨S1x32x2048x64, .f32⟩
  | .hbm, ⟨41, _⟩ => ⟨S1x32x2048x2048, .f32⟩
  | .hbm, ⟨42, _⟩ => ⟨S_, .f32⟩
  | .hbm, ⟨43, _⟩ => ⟨S1x32x2048x2048, .f32⟩
  | .hbm, ⟨44, _⟩ => ⟨S1x32x2048x2048, .f32⟩
  | .hbm, ⟨45, _⟩ => ⟨S1x32x2048x2048, .f32⟩
  | .hbm, ⟨46, _⟩ => ⟨S1x32x2048x2048, .f32⟩
  | .hbm, ⟨47, _⟩ => ⟨S_, .f32⟩
  | .hbm, ⟨48, _⟩ => ⟨S1x32x2048, .f32⟩
  | .hbm, ⟨49, _⟩ => ⟨S_, .f32⟩
  | .hbm, ⟨50, _⟩ => ⟨S1x32x2048, .f32⟩
  | .hbm, ⟨51, _⟩ => ⟨S1x32x2048, .f32⟩
  | .hbm, ⟨52, _⟩ => ⟨S1x32x2048x1, .f32⟩
  | .hbm, ⟨53, _⟩ => ⟨S1x32x2048x2048, .f32⟩
  | .hbm, ⟨54, _⟩ => ⟨S1x32x2048x2048, .f32⟩
  | .hbm, ⟨55, _⟩ => ⟨S1x32x2048x2048, .f32⟩
  | .hbm, ⟨56, _⟩ => ⟨S_, .f32⟩
  | .hbm, ⟨57, _⟩ => ⟨S1x32x2048, .f32⟩
  | .hbm, ⟨58, _⟩ => ⟨S1x32x2048x1, .f32⟩
  | .hbm, ⟨59, _⟩ => ⟨S1x32x2048x2048, .f32⟩
  | .hbm, ⟨60, _⟩ => ⟨S1x32x2048x2048, .f32⟩
  | .hbm, ⟨61, _⟩ => ⟨S1x32x2048x64, .f32⟩
  | .hbm, ⟨62, _⟩ => ⟨S1x2048x32x64, .f32⟩
  | .hbm, ⟨63, _⟩ => ⟨S1x2048x2048, .f32⟩
  | .hbm, ⟨64, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]

class Facts₀ : Prop where
  shapeCasts_S1x2048x2048_S1x2048x32x64 : S1x2048x2048.ShapeCasts S1x2048x32x64
  transposes_S1x2048x32x64_S1x32x2048x64_0_2_1_3 : S1x2048x32x64.Transposes [0, 2, 1, 3] S1x32x2048x64
  shapeCasts_S1x2048x512_S1x2048x8x64 : S1x2048x512.ShapeCasts S1x2048x8x64
  transposes_S1x2048x8x64_S1x8x2048x64_0_2_1_3 : S1x2048x8x64.Transposes [0, 2, 1, 3] S1x8x2048x64
  bcast_S1x2048x64_S1x1x2048x64_0_2_3 : S1x2048x64.BroadcastsInDim S1x1x2048x64 (![0, 2, 3] : Fin 3 → Fin S1x1x2048x64.rank)
  bcast_S1x1x2048x64_S1x32x2048x64_0_1_2_3 : S1x1x2048x64.BroadcastsInDim S1x32x2048x64 (![0, 1, 2, 3] : Fin 4 → Fin S1x32x2048x64.rank)
  slices_S1x32x2048x64_S1x32x2048x32_0_0_0_32 : S1x32x2048x64.Slices ![0, 0, 0, 32] S1x32x2048x32
  slices_S1x32x2048x64_S1x32x2048x32_0_0_0_0 : S1x32x2048x64.Slices ![0, 0, 0, 0] S1x32x2048x32
  concatenates_S1x32x2048x32_S1x32x2048x32_S1x32x2048x64_d3 : Shape.Concatenates [S1x32x2048x32, S1x32x2048x32] S1x32x2048x64 3
  bcast_S1x1x2048x64_S1x8x2048x64_0_1_2_3 : S1x1x2048x64.BroadcastsInDim S1x8x2048x64 (![0, 1, 2, 3] : Fin 4 → Fin S1x8x2048x64.rank)
  slices_S1x8x2048x64_S1x8x2048x32_0_0_0_32 : S1x8x2048x64.Slices ![0, 0, 0, 32] S1x8x2048x32
  slices_S1x8x2048x64_S1x8x2048x32_0_0_0_0 : S1x8x2048x64.Slices ![0, 0, 0, 0] S1x8x2048x32
  concatenates_S1x8x2048x32_S1x8x2048x32_S1x8x2048x64_d3 : Shape.Concatenates [S1x8x2048x32, S1x8x2048x32] S1x8x2048x64 3
  bcast_S1x8x2048x64_S1x8x4x2048x64_0_1_3_4 : S1x8x2048x64.BroadcastsInDim S1x8x4x2048x64 (![0, 1, 3, 4] : Fin 4 → Fin S1x8x4x2048x64.rank)
  shapeCasts_S1x8x4x2048x64_S1x32x2048x64 : S1x8x4x2048x64.ShapeCasts S1x32x2048x64
  bcast_S_S1x32x2048x2048 : S_.BroadcastsInDim S1x32x2048x2048 (![] : Fin 0 → Fin S1x32x2048x2048.rank)
  bcast_S1x1x2048x2048_S1x32x2048x2048_0_1_2_3 : S1x1x2048x2048.BroadcastsInDim S1x32x2048x2048 (![0, 1, 2, 3] : Fin 4 → Fin S1x32x2048x2048.rank)
  reducesTo_S1x32x2048x2048_S1x32x2048_d3 : S1x32x2048x2048.ReducesTo [3] S1x32x2048
  h_S_ : 0 < S_.numel
  bcast_S_S1x32x2048 : S_.BroadcastsInDim S1x32x2048 (![] : Fin 0 → Fin S1x32x2048.rank)
  bcast_S1x32x2048_S1x32x2048x1_0_1_2 : S1x32x2048.BroadcastsInDim S1x32x2048x1 (![0, 1, 2] : Fin 3 → Fin S1x32x2048x1.rank)
  bcast_S1x32x2048x1_S1x32x2048x2048_0_1_2_3 : S1x32x2048x1.BroadcastsInDim S1x32x2048x2048 (![0, 1, 2, 3] : Fin 4 → Fin S1x32x2048x2048.rank)
  transposes_S1x32x2048x64_S1x2048x32x64_0_2_1_3 : S1x32x2048x64.Transposes [0, 2, 1, 3] S1x2048x32x64
  shapeCasts_S1x2048x32x64_S1x2048x2048 : S1x2048x32x64.ShapeCasts S1x2048x2048
  dot_S1x2048x2048_S2048x2048_S1x2048x2048_2_1_01_0_n_n_wf : DotDims.WF S1x2048x2048 S2048x2048 S1x2048x2048 [2] [1] [0, 1] [0] [] []
  dot_S1x2048x2048_S512x2048_S1x2048x512_2_1_01_0_n_n_wf : DotDims.WF S1x2048x2048 S512x2048 S1x2048x512 [2] [1] [0, 1] [0] [] []
  dot_S1x32x2048x64_S1x32x2048x64_S1x32x2048x2048_3_3_2_2_01_01_wf : DotDims.WF S1x32x2048x64 S1x32x2048x64 S1x32x2048x2048 [3] [3] [2] [2] [0, 1] [0, 1]
  dot_S1x32x2048x2048_S1x32x2048x64_S1x32x2048x64_3_2_2_3_01_01_wf : DotDims.WF S1x32x2048x2048 S1x32x2048x64 S1x32x2048x64 [3] [2] [2] [3] [0, 1] [0, 1]

variable [Facts₀]

def dot_S1x2048x2048_S2048x2048_S1x2048x2048_2_1_01_0_n_n : DotDims S1x2048x2048 S2048x2048 S1x2048x2048 where
  lhsContracting := [2]
  rhsContracting := [1]
  lhsNonContracting := [0, 1]
  rhsNonContracting := [0]
  lhsBatch := []
  rhsBatch := []
  wf := dot_S1x2048x2048_S2048x2048_S1x2048x2048_2_1_01_0_n_n_wf
def dot_S1x2048x2048_S512x2048_S1x2048x512_2_1_01_0_n_n : DotDims S1x2048x2048 S512x2048 S1x2048x512 where
  lhsContracting := [2]
  rhsContracting := [1]
  lhsNonContracting := [0, 1]
  rhsNonContracting := [0]
  lhsBatch := []
  rhsBatch := []
  wf := dot_S1x2048x2048_S512x2048_S1x2048x512_2_1_01_0_n_n_wf
def dot_S1x32x2048x64_S1x32x2048x64_S1x32x2048x2048_3_3_2_2_01_01 : DotDims S1x32x2048x64 S1x32x2048x64 S1x32x2048x2048 where
  lhsContracting := [3]
  rhsContracting := [3]
  lhsNonContracting := [2]
  rhsNonContracting := [2]
  lhsBatch := [0, 1]
  rhsBatch := [0, 1]
  wf := dot_S1x32x2048x64_S1x32x2048x64_S1x32x2048x2048_3_3_2_2_01_01_wf
def dot_S1x32x2048x2048_S1x32x2048x64_S1x32x2048x64_3_2_2_3_01_01 : DotDims S1x32x2048x2048 S1x32x2048x64 S1x32x2048x64 where
  lhsContracting := [3]
  rhsContracting := [2]
  lhsNonContracting := [2]
  rhsNonContracting := [3]
  lhsBatch := [0, 1]
  rhsBatch := [0, 1]
  wf := dot_S1x32x2048x2048_S1x32x2048x64_S1x32x2048x64_3_2_2_3_01_01_wf

class Facts : Prop extends Facts₀ where

variable [Facts]
-- ==== Proof.K.Body0.lean ====
/-
  Region 0 of @main (the tiled product A·Bᵀ): what the kernel body leaves in its output block from the two input
  blocks, the body's triple, the pipeline's proof data at the region's entry contents `V`, and the body obligation
  at every grid point. Stated at any float family.
-/
import proofs.«169794_j16423954940491_1_alg».proof.Proof.Gen.Kernel.Launch
import proofs.«169794_j16423954940491_1_alg».proof.Proof.Gen.Kernel.Skeleton
import proofs.«169794_j16423954940491_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left factor is in its staging buffer at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row block of the right factor likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×2048 input block and the whole 512×512 output block, as rectangles. -/
abbrev rIn0 : Rect S512x2048 := Rect.unit (s := S512x2048) ![0, 0] S512x2048.size inb_S512x2048_S512x2048_0_0
abbrev rOut0 : Rect S512x512 := Rect.unit (s := S512x512) ![0, 0] S512x512.size inb_S512x512_S512x512_0_0

/-- The output block after the body: the product of the two input blocks, stored whole. -/
def out0_2 (x0 x1 : Vec F S512x2048 .f32) : Vec F S512x512 .f32 :=
  View.canon [⟨rOut0, k0_pay1 (View.ld x0 rIn0) (View.ld x1 rIn0)⟩]

/-- The one store covers the output block. -/
theorem cover0_2 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging buffers: the inputs are read and left as they were, the output ends at the product. -/
theorem sound_kernel0 (c : Dev nD) (E : Set ℕ) (i : grid0.Coords)
    (arg0 : Memref sig .tc .vmem S512x2048 .f32) (harg0 : arg0.IsWhole) (arg1 : Memref sig .tc .vmem S512x2048 .f32) (harg1 : arg1.IsWhole)
    (arg2 : Memref sig .tc .vmem S512x512 .f32) (harg2 : arg2.IsWhole)
    (x0 x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_kernel i arg0 harg0 arg1 harg1 arg2 harg2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body each
    input's buffer at its block and the output's at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of @main (rotary embedding, scaled scores plus mask, row softmax, and the product with the values, for one
  query tile of one head): what the body leaves in its two output blocks from the eight input blocks, the body's triple,
  the pipeline's proof data at the region's entry contents `V`, and the body obligation at every grid point. The cosine
  and the sine table are each read through two windows (whole, for the keys; one tile, for the queries): the proof data
  hold each table's array half and half. Stated at any float family.
-/
import proofs.«169794_j16423954940491_1_alg».proof.Proof.Gen.Kernel.Launch
import proofs.«169794_j16423954940491_1_alg».proof.Proof.Gen.Kernel.Skeleton
import proofs.«169794_j16423954940491_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's block is in its staging buffer at every point, fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's block is in its staging buffer at every point, fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's block is in its staging buffer at every point, fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's block is in its staging buffer at every point, fetched there or kept. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's block is in its staging buffer at every point, fetched there or kept. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's block is in its staging buffer at every point, fetched there or kept. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's block is in its staging buffer at every point, fetched there or kept. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's block is in its staging buffer at every point, fetched there or kept. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole block of each shape the body touches, as a rectangle. -/
abbrev r_S1x256x64 : Rect S1x256x64 := Rect.unit (s := S1x256x64) ![0, 0, 0] S1x256x64.size inb_S1x256x64_S1x256x64_0_0_0
abbrev r_S1x2048x64 : Rect S1x2048x64 := Rect.unit (s := S1x2048x64) ![0, 0, 0] S1x2048x64.size inb_S1x2048x64_S1x2048x64_0_0_0
abbrev r_S256x2048 : Rect S256x2048 := Rect.unit (s := S256x2048) ![0, 0] S256x2048.size inb_S256x2048_S256x2048_0_0
abbrev r_S2048x64 : Rect S2048x64 := Rect.unit (s := S2048x64) ![0, 0] S2048x64.size inb_S2048x64_S2048x64_0_0
abbrev r_S256x64 : Rect S256x64 := Rect.unit (s := S256x64) ![0, 0] S256x64.size inb_S256x64_S256x64_0_0
abbrev r_S1x256x2048 : Rect S1x256x2048 := Rect.unit (s := S1x256x2048) ![0, 0, 0] S1x256x2048.size inb_S1x256x2048_S1x256x2048_0_0_0

/-- The scaled scores of the rotated query tile against the rotated keys (before the mask is added). -/
abbrev scores1 (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) : FVec F S256x2048 .f32 := k1_pay5 (View.ld x0 r_S1x256x64) (View.ld x1 r_S1x2048x64) (View.ld x6 r_S256x64) (View.ld x7 r_S256x64) (View.ld x4 r_S2048x64) (View.ld x5 r_S2048x64)

/-- The probabilities' block after the body: the row softmax of scores plus mask, stored whole. -/
def out1_8 (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) : Vec F S1x256x2048 .f32 :=
  View.canon [⟨r_S1x256x2048, k1_pay2 (scores1 x0 x1 x2 x3 x4 x5 x6 x7) (View.ld x3 r_S256x2048)⟩]

/-- The attention output's block after the body: the probabilities times the values, stored whole. -/
def out1_9 (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) : Vec F S1x256x64 .f32 :=
  View.canon [⟨r_S1x256x64, k1_pay3 (k1_pay4 (View.ld x2 r_S1x2048x64)) (scores1 x0 x1 x2 x3 x4 x5 x6 x7) (View.ld x3 r_S256x2048)⟩]

theorem cover1_8 (p0 : Vec F S1x256x2048 .f32) (y : S1x256x2048.Idx) :
    ∃ pc ∈ ([⟨r_S1x256x2048, p0⟩] : List (View.Piece (Elt F) S1x256x2048 .f32)), y ∈ pc.1.set :=
  View.cover_of_tiled [⟨r_S1x256x2048, p0⟩] S1x256x2048.size (by rfl) y
theorem cover1_9 (p0 : Vec F S1x256x64 .f32) (y : S1x256x64.Idx) :
    ∃ pc ∈ ([⟨r_S1x256x64, p0⟩] : List (View.Piece (Elt F) S1x256x64 .f32)), y ∈ pc.1.set :=
  View.cover_of_tiled [⟨r_S1x256x64, p0⟩] S1x256x64.size (by rfl) y

set_option maxHeartbeats 4000000 in
/-- The body on whole staging buffers: the eight inputs are read and left as they were, the two outputs end at the
    softmax block and at its product with the values. -/
theorem sound_kernel1 (c : Dev nD) (E : Set ℕ) (i : grid1.Coords)
    (arg0 : Memref sig .tc .vmem S1x256x64 .f32) (harg0 : arg0.IsWhole) (arg1 : Memref sig .tc .vmem S1x2048x64 .f32) (harg1 : arg1.IsWhole) (arg2 : Memref sig .tc .vmem S1x2048x64 .f32) (harg2 : arg2.IsWhole) (arg3 : Memref sig .tc .vmem S256x2048 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S256x64 .f32) (harg6 : arg6.IsWhole) (arg7 : Memref sig .tc .vmem S256x64 .f32) (harg7 : arg7.IsWhole) (arg8 : Memref sig .tc .vmem S1x256x2048 .f32) (harg8 : arg8.IsWhole) (arg9 : Memref sig .tc .vmem S1x256x64 .f32) (harg9 : arg9.IsWhole)
    (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7) ∗ owns (c : Thread nD τ) arg9 fullShare (out1_9 x0 x1 x2 x3 x4 x5 x6 x7)) -∗ K ⟨⟩))
      ⊢ wp frame (wpE (defs₀ (F := F)) Variants.none c none) E (cc1_attn_kernel i arg0 harg0 arg1 harg1 arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

/-- The proof data of the region's pipeline on core `c`: the arrays as the region finds them; after the body each
    input's buffer at its block and each output's at the body's result of the eight input blocks; the cosine table's
    array held half by the whole-table window and half by the tile window, and the sine table's likewise. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨4, _⟩ => fullShare.left
    | ⟨5, _⟩ => fullShare.left
    | ⟨6, _⟩ => fullShare.right
    | ⟨7, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 of @main (the tiled product A·Bᵀ): what the kernel body leaves in its output block from the two input
  blocks, the body's triple, the pipeline's proof data at the region's entry contents `V`, and the body obligation
  at every grid point. Stated at any float family.
-/
import proofs.«169794_j16423954940491_1_alg».proof.Proof.Gen.Kernel.Launch
import proofs.«169794_j16423954940491_1_alg».proof.Proof.Gen.Kernel.Skeleton
import proofs.«169794_j16423954940491_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left factor is in its staging buffer at every point, fetched there or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of the right factor likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 512×2048 input block and the whole 512×512 output block, as rectangles. -/
abbrev rIn2 : Rect S512x2048 := Rect.unit (s := S512x2048) ![0, 0] S512x2048.size inb_S512x2048_S512x2048_0_0
abbrev rOut2 : Rect S512x512 := Rect.unit (s := S512x512) ![0, 0] S512x512.size inb_S512x512_S512x512_0_0

/-- The output block after the body: the product of the two input blocks, stored whole. -/
def out2_2 (x0 x1 : Vec F S512x2048 .f32) : Vec F S512x512 .f32 :=
  View.canon [⟨rOut2, k2_pay1 (View.ld x0 rIn2) (View.ld x1 rIn2)⟩]

/-- The one store covers the output block. -/
theorem cover2_2 (p0 : Vec F S512x512 .f32) (y : S512x512.Idx) :
    ∃ pc ∈ ([⟨rOut2, p0⟩] : List (View.Piece (Elt F) S512x512 .f32)), y ∈ pc.1.set :=
  View.cover_of_tiled [⟨rOut2, p0⟩] S512x512.size (by rfl) y

set_option maxHeartbeats 1000000 in
/-- The body on whole staging buffers: the inputs are read and left as they were, the output ends at the product. -/
theorem sound_kernel2 (c : Dev nD) (E : Set ℕ) (i : grid2.Coords)
    (arg0 : Memref sig .tc .vmem S512x2048 .f32) (harg0 : arg0.IsWhole) (arg1 : Memref sig .tc .vmem S512x2048 .f32) (harg1 : arg1.IsWhole)
    (arg2 : Memref sig .tc .vmem S512x512 .f32) (harg2 : arg2.IsWhole)
    (x0 x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__mm_kernel i arg0 harg0 arg1 harg1 arg2 harg2) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body each
    input's buffer at its block and the output's at the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Shared1.lean ====
/-
  Region 1 reads the cosine table through two windows and the sine table through two windows. The core's unscoped
  buffers, each whole at the full share, give the pipeline its arrays when each table's buffer is cut in two half
  shares, one per window; at the exit the halves are joined again and the two output arrays take their new contents.
-/
import proofs.«169794_j16423954940491_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first eight windows are inputs. -/
theorem isIn1 (w : Fin cfg1.W) (hw : w.val < 8) : (cfg1.win w).isOut = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨n + 8, _⟩, h => exact absurd h (by simp)

/-- A window's array is the whole buffer. -/
private theorem set1 (w : Fin cfg1.W) : (cfg1.win w).arr.view.set = Finset.univ := (arr_whole1 w).set_eq_univ

/-- The share each window's array is held at: the full share, but for the two tables' buffers, each held in two halves —
    the left by the whole-table window, the right by the tile window. -/
private theorem share1_0 (c : Dev nD) : (dat1 V c).share 0 = fullShare := rfl
private theorem share1_1 (c : Dev nD) : (dat1 V c).share 1 = fullShare := rfl
private theorem share1_2 (c : Dev nD) : (dat1 V c).share 2 = fullShare := rfl
private theorem share1_3 (c : Dev nD) : (dat1 V c).share 3 = fullShare := rfl
private theorem share1_4 (c : Dev nD) : (dat1 V c).share 4 = fullShare.left := rfl
private theorem share1_5 (c : Dev nD) : (dat1 V c).share 5 = fullShare.left := rfl
private theorem share1_6 (c : Dev nD) : (dat1 V c).share 6 = fullShare.right := rfl
private theorem share1_7 (c : Dev nD) : (dat1 V c).share 7 = fullShare.right := rfl
private theorem share1_8 (c : Dev nD) : (dat1 V c).share 8 = fullShare := rfl
private theorem share1_9 (c : Dev nD) : (dat1 V c).share 9 = fullShare := rfl

/-- Each window's array as a whole buffer at its share, named by the buffer it is. -/
private theorem win1_0_eq (c : Dev nD) (f : Buf (Elt F) ((cfg1.win 0).arr.view.loc (c.tc : Thread nD τ))) :
    ((cfg1.win 0).arr.view.loc (c.tc : Thread nD τ) ↦[(cfg1.win 0).arr.view.set]{(dat1 V c).share 0} f : sProp 𝕄)
      = ((c.tc : Thread nD τ).loc main_v7 ↦{fullShare} f) := by
  rw [set1, share1_0]
private theorem win1_1_eq (c : Dev nD) (f : Buf (Elt F) ((cfg1.win 1).arr.view.loc (c.tc : Thread nD τ))) :
    ((cfg1.win 1).arr.view.loc (c.tc : Thread nD τ) ↦[(cfg1.win 1).arr.view.set]{(dat1 V c).share 1} f : sProp 𝕄)
      = ((c.tc : Thread nD τ).loc main_v9 ↦{fullShare} f) := by
  rw [set1, share1_1]
private theorem win1_2_eq (c : Dev nD) (f : Buf (Elt F) ((cfg1.win 2).arr.view.loc (c.tc : Thread nD τ))) :
    ((cfg1.win 2).arr.view.loc (c.tc : Thread nD τ) ↦[(cfg1.win 2).arr.view.set]{(dat1 V c).share 2} f : sProp 𝕄)
      = ((c.tc : Thread nD τ).loc main_v11 ↦{fullShare} f) := by
  rw [set1, share1_2]
private theorem win1_3_eq (c : Dev nD) (f : Buf (Elt F) ((cfg1.win 3).arr.view.loc (c.tc : Thread nD τ))) :
    ((cfg1.win 3).arr.view.loc (c.tc : Thread nD τ) ↦[(cfg1.win 3).arr.view.set]{(dat1 V c).share 3} f : sProp 𝕄)
      = ((c.tc : Thread nD τ).loc main_v14 ↦{fullShare} f) := by
  rw [set1, share1_3]
private theorem win1_4_eq (c : Dev nD) (f : Buf (Elt F) ((cfg1.win 4).arr.view.loc (c.tc : Thread nD τ))) :
    ((cfg1.win 4).arr.view.loc (c.tc : Thread nD τ) ↦[(cfg1.win 4).arr.view.set]{(dat1 V c).share 4} f : sProp 𝕄)
      = ((c.tc : Thread nD τ).loc main_v12 ↦{fullShare.left} f) := by
  rw [set1, share1_4]
private theorem win1_5_eq (c : Dev nD) (f : Buf (Elt F) ((cfg1.win 5).arr.view.loc (c.tc : Thread nD τ))) :
    ((cfg1.win 5).arr.view.loc (c.tc : Thread nD τ) ↦[(cfg1.win 5).arr.view.set]{(dat1 V c).share 5} f : sProp 𝕄)
      = ((c.tc : Thread nD τ).loc main_v13 ↦{fullShare.left} f) := by
  rw [set1, share1_5]
private theorem win1_6_eq (c : Dev nD) (f : Buf (Elt F) ((cfg1.win 6).arr.view.loc (c.tc : Thread nD τ))) :
    ((cfg1.win 6).arr.view.loc (c.tc : Thread nD τ) ↦[(cfg1.win 6).arr.view.set]{(dat1 V c).share 6} f : sProp 𝕄)
      = ((c.tc : Thread nD τ).loc main_v12 ↦{fullShare.right} f) := by
  rw [set1, share1_6]
private theorem win1_7_eq (c : Dev nD) (f : Buf (Elt F) ((cfg1.win 7).arr.view.loc (c.tc : Thread nD τ))) :
    ((cfg1.win 7).arr.view.loc (c.tc : Thread nD τ) ↦[(cfg1.win 7).arr.view.set]{(dat1 V c).share 7} f : sProp 𝕄)
      = ((c.tc : Thread nD τ).loc main_v13 ↦{fullShare.right} f) := by
  rw [set1, share1_7]
private theorem win1_8_eq (c : Dev nD) (f : Buf (Elt F) ((cfg1.win 8).arr.view.loc (c.tc : Thread nD τ))) :
    ((cfg1.win 8).arr.view.loc (c.tc : Thread nD τ) ↦[(cfg1.win 8).arr.view.set]{(dat1 V c).share 8} f : sProp 𝕄)
      = ((c.tc : Thread nD τ).loc main_v15_0 ↦{fullShare} f) := by
  rw [set1, share1_8]
private theorem win1_9_eq (c : Dev nD) (f : Buf (Elt F) ((cfg1.win 9).arr.view.loc (c.tc : Thread nD τ))) :
    ((cfg1.win 9).arr.view.loc (c.tc : Thread nD τ) ↦[(cfg1.win 9).arr.view.set]{(dat1 V c).share 9} f : sProp 𝕄)
      = ((c.tc : Thread nD τ).loc main_v15_1 ↦{fullShare} f) := by
  rw [set1, share1_9]

/-- The distinct buffers behind region 1's windows, one by one. -/
private theorem arrBufs1_eq (c : Dev nD) (W : (b : Ref sig .tc) → Buf (Elt F) ((c.tc : Thread nD τ).loc b)) :
    (Pipeline.arrBufs spec1 c W : sProp 𝕄)
      = iprop(((c.tc : Thread nD τ).loc main_v7 ↦{fullShare} W main_v7) ∗ ((c.tc : Thread nD τ).loc main_v9 ↦{fullShare} W main_v9)
          ∗ ((c.tc : Thread nD τ).loc main_v11 ↦{fullShare} W main_v11) ∗ ((c.tc : Thread nD τ).loc main_v14 ↦{fullShare} W main_v14)
          ∗ ((c.tc : Thread nD τ).loc main_v12 ↦{fullShare} W main_v12) ∗ ((c.tc : Thread nD τ).loc main_v13 ↦{fullShare} W main_v13)
          ∗ ((c.tc : Thread nD τ).loc main_v15_0 ↦{fullShare} W main_v15_0) ∗ ((c.tc : Thread nD τ).loc main_v15_1 ↦{fullShare} W main_v15_1)) :=
  bigSep_eq_bigSepL_of_eq [main_v7, main_v9, main_v11, main_v14, main_v12, main_v13, main_v15_0, main_v15_1] (by decide) (by decide) _

/-- Region 1's arrays window by window: each the whole buffer, the two tables' buffers at half shares. -/
private theorem arrays1_eq (c : Dev nD) (Fa : (w : Fin cfg1.W) → Buf (Elt F) ((cfg1.win w).arr.view.loc (c.tc : Thread nD τ))) :
    ((dat1 V c).arrays Fa : sProp 𝕄)
      = iprop(((c.tc : Thread nD τ).loc main_v7 ↦{fullShare} Fa 0) ∗ ((c.tc : Thread nD τ).loc main_v9 ↦{fullShare} Fa 1)
          ∗ ((c.tc : Thread nD τ).loc main_v11 ↦{fullShare} Fa 2) ∗ ((c.tc : Thread nD τ).loc main_v14 ↦{fullShare} Fa 3)
          ∗ ((c.tc : Thread nD τ).loc main_v12 ↦{fullShare.left} Fa 4) ∗ ((c.tc : Thread nD τ).loc main_v13 ↦{fullShare.left} Fa 5)
          ∗ ((c.tc : Thread nD τ).loc main_v12 ↦{fullShare.right} Fa 6) ∗ ((c.tc : Thread nD τ).loc main_v13 ↦{fullShare.right} Fa 7)
          ∗ ((c.tc : Thread nD τ).loc main_v15_0 ↦{fullShare} Fa 8) ∗ ((c.tc : Thread nD τ).loc main_v15_1 ↦{fullShare} Fa 9)) := by
  unfold Dat.arrays
  exact (bigSep_W1 _).trans (congrArg₂ BIBase.sep (win1_0_eq V c _) (congrArg₂ BIBase.sep (win1_1_eq V c _) (congrArg₂ BIBase.sep (win1_2_eq V c _) (congrArg₂ BIBase.sep (win1_3_eq V c _) (congrArg₂ BIBase.sep (win1_4_eq V c _) (congrArg₂ BIBase.sep (win1_5_eq V c _) (congrArg₂ BIBase.sep (win1_6_eq V c _) (congrArg₂ BIBase.sep (win1_7_eq V c _) (congrArg₂ BIBase.sep (win1_8_eq V c _) (win1_9_eq V c _))))))))))

/-- ENTRY: the core's unscoped buffers at contents `V c` are region 1's arrays at the proof data's entry contents
    (the two tables' buffers cut in half shares) and the unscoped rest. -/
theorem arrays1_of_unscopedBufs (c : Dev nD) :
    (unscopedBufs c (V c) : sProp 𝕄) ⊢ iprop((dat1 V c).arrays (dat1 V c).A ∗ Pipeline.unscopedRest spec1 c (V c)) := by
  rw [show (unscopedBufs c (V c) : sProp 𝕄) = iprop(Pipeline.arrBufs spec1 c (V c) ∗ Pipeline.unscopedRest spec1 c (V c)) from
    Pipeline.unscopedBufs_split₀ cfgs 1 winFacts₀1.arr_unscoped c (V c)]
  refine sep_mono ?_ .rfl
  rw [arrBufs1_eq, arrays1_eq]
  iintro ⟨H7, H9, H11, H14, H12, H13, H150, H151⟩
  ihave H12 := (pointsTo_share (PosShare.mem_left_op_right fullShare)).1 $$ H12
  icases H12 with ⟨H12l, H12r⟩
  ihave H13 := (pointsTo_share (PosShare.mem_left_op_right fullShare)).1 $$ H13
  icases H13 with ⟨H13l, H13r⟩
  isplitl [H7]; · iexact H7
  isplitl [H9]; · iexact H9
  isplitl [H11]; · iexact H11
  isplitl [H14]; · iexact H14
  isplitl [H12l]; · iexact H12l
  isplitl [H13l]; · iexact H13l
  isplitl [H12r]; · iexact H12r
  isplitl [H13r]; · iexact H13r
  isplitl [H150]; · iexact H150
  iexact H151

/-- EXIT: region 1's arrays at contents `F` — the inputs' as entered, the outputs' anything — and the unscoped rest are
    the core's unscoped buffers at any valuation that has the two output arrays at `F` and agrees with `V c` elsewhere. -/
theorem unscopedBufs_of_arrays1 (c : Dev nD) (V' : (b : Ref sig .tc) → Buf (Elt F) ((c : Thread nD τ).loc b))
    (Fa : (w : Fin cfg1.W) → Buf (Elt F) ((cfg1.win w).arr.view.loc (c.tc : Thread nD τ)))
    (h8 : Fa 8 = V' main_v15_0) (h9 : Fa 9 = V' main_v15_1)
    (hin : ∀ w : Fin cfg1.W, w.val < 8 → Fa w = V c (Pipeline.arrRef spec1 w))
    (hrest : ∀ b : Ref sig .tc, b ≠ main_v15_0 → b ≠ main_v15_1 → V' b = V c b) :
    iprop((dat1 V c).arrays Fa ∗ Pipeline.unscopedRest spec1 c (V c)) ⊢ (unscopedBufs c V' : sProp 𝕄) := by
  rw [show (unscopedBufs c V' : sProp 𝕄) = iprop(Pipeline.arrBufs spec1 c V' ∗ Pipeline.unscopedRest spec1 c V') from
    Pipeline.unscopedBufs_split₀ cfgs 1 winFacts₀1.arr_unscoped c V']
  refine sep_mono ?_ (Entails.of_eq ?_)
  · have e0 : Fa 0 = V c main_v7 := hin 0 (by decide)
    have e1 : Fa 1 = V c main_v9 := hin 1 (by decide)
    have e2 : Fa 2 = V c main_v11 := hin 2 (by decide)
    have e3 : Fa 3 = V c main_v14 := hin 3 (by decide)
    have e4 : Fa 4 = V c main_v12 := hin 4 (by decide)
    have e5 : Fa 5 = V c main_v13 := hin 5 (by decide)
    have e6 : Fa 6 = V c main_v12 := hin 6 (by decide)
    have e7 : Fa 7 = V c main_v13 := hin 7 (by decide)
    rw [arrBufs1_eq, arrays1_eq, e0, e1, e2, e3, e4, e5, e6, e7, h8, h9,
      hrest main_v7 (by decide) (by decide), hrest main_v9 (by decide) (by decide), hrest main_v11 (by decide) (by decide),
      hrest main_v14 (by decide) (by decide), hrest main_v12 (by decide) (by decide), hrest main_v13 (by decide) (by decide)]
    iintro ⟨H7, H9, H11, H14, H12l, H13l, H12r, H13r, H150, H151⟩
    ihave H12 := (pointsTo_share (PosShare.mem_left_op_right fullShare)).2 $$ [H12l H12r]
    · isplitl [H12l] <;> iassumption
    ihave H13 := (pointsTo_share (PosShare.mem_left_op_right fullShare)).2 $$ [H13l H13r]
    · isplitl [H13l] <;> iassumption
    isplitl [H7]; · iexact H7
    isplitl [H9]; · iexact H9
    isplitl [H11]; · iexact H11
    isplitl [H14]; · iexact H14
    isplitl [H12]; · iexact H12
    isplitl [H13]; · iexact H13
    isplitl [H150]; · iexact H150
    iexact H151
  · unfold Pipeline.unscopedRest
    exact bigSep_congr fun b hb => by
      rw [hrest b (fun h => (Finset.mem_sdiff.mp hb).2 (h ▸ Finset.mem_image.mpr ⟨8, Finset.mem_univ _, rfl⟩))
        (fun h => (Finset.mem_sdiff.mp hb).2 (h ▸ Finset.mem_image.mpr ⟨9, Finset.mem_univ _, rfl⟩))]

end Cert.Kernel.Hand

end
-- ==== Proof.K.Run.lean ====
/-
  The run of @main: the contents of every unscoped buffer at each boundary between a host stretch and a kernel region,
  folded from the launch memory; the three regions as segments over the thread state "every unscoped buffer at the
  boundary's contents, the generator register at some state, nothing owed"; and the launch: every weakly fair execution
  terminates with every unscoped buffer at the last boundary's contents. The frame follows because no host operation
  and no region writes an argument. Stated at any float family.
-/
import proofs.«169794_j16423954940491_1_alg».proof.Proof.K.Body0
import proofs.«169794_j16423954940491_1_alg».proof.Proof.K.Body1
import proofs.«169794_j16423954940491_1_alg».proof.Proof.K.Body2
import proofs.«169794_j16423954940491_1_alg».proof.Proof.K.Shared1
import proofs.«169794_j16423954940491_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit: its two output arrays at what the pipeline leaves, every other buffer as entered. -/
def W4 (c : Dev nD) : Valuation τ sig (Elt F) :=
  Function.update (Function.update (W3 m ρ c) main_v15_0 ((dat1 (E3 m ρ) c).arrAt 8 cfg1.N)) main_v15_1 ((dat1 (E3 m ρ) c).arrAt 9 cfg1.N)
theorem W4_out0 (c : Dev nD) : W4 m ρ c main_v15_0 = (dat1 (E3 m ρ) c).arrAt 8 cfg1.N := by
  unfold W4
  rw [Function.update_of_ne (StableHlo.devRef_ne_of_ne (by decide) : (Proc.devRef .tc main_v15_0 : DevRef τ sig) ≠ Proc.devRef .tc main_v15_1), Function.update_self]
theorem W4_out1 (c : Dev nD) : W4 m ρ c main_v15_1 = (dat1 (E3 m ρ) c).arrAt 9 cfg1.N := by
  unfold W4; rw [Function.update_self]
theorem W4_of_ne (c : Dev nD) (b : Ref sig .tc) (h0 : b ≠ main_v15_0) (h1 : b ≠ main_v15_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v15_1),
    Function.update_of_ne (StableHlo.devRef_ne_of_ne h0 : (Proc.devRef .tc b : DevRef τ sig) ≠ Proc.devRef .tc main_v15_0)]
abbrev X4 : (c : Dev nD) → (b : Ref sig .tc) → Buf (Elt F) ((c : Thread nD τ).loc b) := fun c b => W4 m ρ c b

/-- After the third host stretch (region 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After the last host stretch: the contents the program ends with. -/
abbrev W7 : Dev nD → Valuation τ sig (Elt F) := fun c => StableHlo.after hostOps3 (W6 m ρ c)

/-! ## A buffer no host stretch writes keeps its contents across the stretch -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- An argument that no region has as an output array and no host stretch writes ends as launched. -/
theorem W7_arg (c : Dev nD) (r : Ref sig .tc) (h0 : r ∉ hostOps0_W) (h1 : r ∉ hostOps1_W) (h2 : r ∉ hostOps2_W) (h3 : r ∉ hostOps3_W)
    (hs0 : ∀ w, Pipeline.arrRef spec0 w ≠ r) (hs2 : ∀ w, Pipeline.arrRef spec2 w ≠ r) (ho0 : r ≠ main_v15_0) (ho1 : r ≠ main_v15_1) :
    W7 m ρ c r = m ((c : Thread nD τ).loc r) :=
  (W7_of m ρ c r h3).trans <| (W6_of_ne m ρ c r hs2).trans <| (W5_of m ρ c r h2).trans <| (W4_of_ne m ρ c r ho0 ho1).trans <|
    (W3_of m ρ c r h1).trans <| (W2_of_ne m ρ c r hs0).trans <| (W1_of m ρ c r h0).trans rfl

theorem W7_main_arg0 (c : Dev nD) : W7 m ρ c main_arg0 = m ((c : Thread nD τ).loc main_arg0) :=
  W7_arg m ρ c main_arg0 (by decide) (by decide) (by decide) (by decide) (by decide) (by decide) (by decide) (by decide)
theorem W7_main_arg1 (c : Dev nD) : W7 m ρ c main_arg1 = m ((c : Thread nD τ).loc main_arg1) :=
  W7_arg m ρ c main_arg1 (by decide) (by decide) (by decide) (by decide) (by decide) (by decide) (by decide) (by decide)
theorem W7_main_arg2 (c : Dev nD) : W7 m ρ c main_arg2 = m ((c : Thread nD τ).loc main_arg2) :=
  W7_arg m ρ c main_arg2 (by decide) (by decide) (by decide) (by decide) (by decide) (by decide) (by decide) (by decide)
theorem W7_main_arg3 (c : Dev nD) : W7 m ρ c main_arg3 = m ((c : Thread nD τ).loc main_arg3) :=
  W7_arg m ρ c main_arg3 (by decide) (by decide) (by decide) (by decide) (by decide) (by decide) (by decide) (by decide)
theorem W7_main_arg4 (c : Dev nD) : W7 m ρ c main_arg4 = m ((c : Thread nD τ).loc main_arg4) :=
  W7_arg m ρ c main_arg4 (by decide) (by decide) (by decide) (by decide) (by decide) (by decide) (by decide) (by decide)
theorem W7_main_arg5 (c : Dev nD) : W7 m ρ c main_arg5 = m ((c : Thread nD τ).loc main_arg5) :=
  W7_arg m ρ c main_arg5 (by decide) (by decide) (by decide) (by decide) (by decide) (by decide) (by decide) (by decide)
theorem W7_main_arg6 (c : Dev nD) : W7 m ρ c main_arg6 = m ((c : Thread nD τ).loc main_arg6) :=
  W7_arg m ρ c main_arg6 (by decide) (by decide) (by decide) (by decide) (by decide) (by decide) (by decide) (by decide)
/-- The output weights are an input array of region 2: the pipeline leaves an input array as it found it. -/
theorem W7_main_arg7 (c : Dev nD) : W7 m ρ c main_arg7 = m ((c : Thread nD τ).loc main_arg7) :=
  (W7_of m ρ c main_arg7 (by decide)).trans <| ((W6_arr m ρ c 1).trans (((dat2 (E5 m ρ) c).arrAt_in 1 rfl _).trans (A_eq2 (E5 m ρ) c 1))).trans <|
    (W5_of m ρ c main_arg7 (by decide)).trans <| (W4_of_ne m ρ c main_arg7 (by decide) (by decide)).trans <|
    (W3_of m ρ c main_arg7 (by decide)).trans <| (W2_of_ne m ρ c main_arg7 (by decide)).trans <| (W1_of m ρ c main_arg7 (by decide)).trans rfl

/-! ## The proof data family and the thread state -/

abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. The two tables' arrays
    are each dealt half and half to the two windows that read them, and joined again at the exit. -/
def reg1 : Pipeline.RegionSeg (pcfgs (F := F)) padm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := arrays1_of_unscopedBufs (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E3 m ρ c))
        ⊢ (unscopedBufs c (X4 m ρ c) : sProp 𝕄) :=
      unscopedBufs_of_arrays1 (E3 m ρ) c (X4 m ρ c) ((dat1 (E3 m ρ) c).arrAt · cfg1.N)
      (W4_out0 m ρ c).symm (W4_out1 m ρ c).symm
      (fun w hw => ((dat1 (E3 m ρ) c).arrAt_in w (isIn1 w hw) _).trans (A_eq1 (E3 m ρ) c w))
      (fun b h0 h1 => W4_of_ne m ρ c b h0 h1)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 2 over the thread state: entered from every unscoped buffer at `W5`, left at `W6`. Its arrays are
    split out of the unscoped buffers and put back at the exit contents; the generator register goes into the
    pipeline's invariant and comes out; nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (psegs m ρ) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.Kernel.Hand

end
-- ==== Proof.KI.Body0.lean ====
/-
  Region 0 of @main (the tiled product A·Bᵀ): what the kernel body leaves in its output block from the two input
  blocks, the body's triple, the pipeline's proof data at the region's entry contents `V`, and the body obligation
  at every grid point. Stated at any float family.
-/
import proofs.«169794_j16423954940491_1_alg».proof.Proof.Gen.KernelIdeal.Launch
import proofs.«169794_j16423954940491_1_alg».proof.Proof.Gen.KernelIdeal.Skeleton
import proofs.«169794_j16423954940491_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left factor is in its staging buffer at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row block of the right factor likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×2048 input block and the whole 512×512 output block, as rectangles. -/
abbrev rIn0 : Rect S512x2048 := Rect.unit (s := S512x2048) ![0, 0] S512x2048.size inb_S512x2048_S512x2048_0_0
abbrev rOut0 : Rect S512x512 := Rect.unit (s := S512x512) ![0, 0] S512x512.size inb_S512x512_S512x512_0_0

/-- The output block after the body: the product of the two input blocks, stored whole. -/
def out0_2 (x0 x1 : Vec F S512x2048 .f32) : Vec F S512x512 .f32 :=
  View.canon [⟨rOut0, k0_pay1 (View.ld x0 rIn0) (View.ld x1 rIn0)⟩]

/-- The one store covers the output block. -/
theorem cover0_2 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging buffers: the inputs are read and left as they were, the output ends at the product. -/
theorem sound_kernel0 (c : Dev nD) (E : Set ℕ) (i : grid0.Coords)
    (arg0 : Memref sig .tc .vmem S512x2048 .f32) (harg0 : arg0.IsWhole) (arg1 : Memref sig .tc .vmem S512x2048 .f32) (harg1 : arg1.IsWhole)
    (arg2 : Memref sig .tc .vmem S512x512 .f32) (harg2 : arg2.IsWhole)
    (x0 x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_kernel i arg0 harg0 arg1 harg1 arg2 harg2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body each
    input's buffer at its block and the output's at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of @main (rotary embedding, scaled scores plus mask, row softmax, and the product with the values, for one
  query tile of one head): what the body leaves in its two output blocks from the eight input blocks, the body's triple,
  the pipeline's proof data at the region's entry contents `V`, and the body obligation at every grid point. The cosine
  and the sine table are each read through two windows (whole, for the keys; one tile, for the queries): the proof data
  hold each table's array half and half. Stated at any float family.
-/
import proofs.«169794_j16423954940491_1_alg».proof.Proof.Gen.KernelIdeal.Launch
import proofs.«169794_j16423954940491_1_alg».proof.Proof.Gen.KernelIdeal.Skeleton
import proofs.«169794_j16423954940491_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's block is in its staging buffer at every point, fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's block is in its staging buffer at every point, fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's block is in its staging buffer at every point, fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's block is in its staging buffer at every point, fetched there or kept. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's block is in its staging buffer at every point, fetched there or kept. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's block is in its staging buffer at every point, fetched there or kept. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's block is in its staging buffer at every point, fetched there or kept. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's block is in its staging buffer at every point, fetched there or kept. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole block of each shape the body touches, as a rectangle. -/
abbrev r_S1x256x64 : Rect S1x256x64 := Rect.unit (s := S1x256x64) ![0, 0, 0] S1x256x64.size inb_S1x256x64_S1x256x64_0_0_0
abbrev r_S1x2048x64 : Rect S1x2048x64 := Rect.unit (s := S1x2048x64) ![0, 0, 0] S1x2048x64.size inb_S1x2048x64_S1x2048x64_0_0_0
abbrev r_S256x2048 : Rect S256x2048 := Rect.unit (s := S256x2048) ![0, 0] S256x2048.size inb_S256x2048_S256x2048_0_0
abbrev r_S2048x64 : Rect S2048x64 := Rect.unit (s := S2048x64) ![0, 0] S2048x64.size inb_S2048x64_S2048x64_0_0
abbrev r_S256x64 : Rect S256x64 := Rect.unit (s := S256x64) ![0, 0] S256x64.size inb_S256x64_S256x64_0_0
abbrev r_S1x256x2048 : Rect S1x256x2048 := Rect.unit (s := S1x256x2048) ![0, 0, 0] S1x256x2048.size inb_S1x256x2048_S1x256x2048_0_0_0

/-- The scaled scores of the rotated query tile against the rotated keys (before the mask is added). -/
abbrev scores1 (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) : FVec F S256x2048 .f32 := k1_pay5 (View.ld x0 r_S1x256x64) (View.ld x1 r_S1x2048x64) (View.ld x6 r_S256x64) (View.ld x7 r_S256x64) (View.ld x4 r_S2048x64) (View.ld x5 r_S2048x64)

/-- The probabilities' block after the body: the row softmax of scores plus mask, stored whole. -/
def out1_8 (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) : Vec F S1x256x2048 .f32 :=
  View.canon [⟨r_S1x256x2048, k1_pay2 (scores1 x0 x1 x2 x3 x4 x5 x6 x7) (View.ld x3 r_S256x2048)⟩]

/-- The attention output's block after the body: the probabilities times the values, stored whole. -/
def out1_9 (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) : Vec F S1x256x64 .f32 :=
  View.canon [⟨r_S1x256x64, k1_pay3 (k1_pay4 (View.ld x2 r_S1x2048x64)) (scores1 x0 x1 x2 x3 x4 x5 x6 x7) (View.ld x3 r_S256x2048)⟩]

theorem cover1_8 (p0 : Vec F S1x256x2048 .f32) (y : S1x256x2048.Idx) :
    ∃ pc ∈ ([⟨r_S1x256x2048, p0⟩] : List (View.Piece (Elt F) S1x256x2048 .f32)), y ∈ pc.1.set :=
  View.cover_of_tiled [⟨r_S1x256x2048, p0⟩] S1x256x2048.size (by rfl) y
theorem cover1_9 (p0 : Vec F S1x256x64 .f32) (y : S1x256x64.Idx) :
    ∃ pc ∈ ([⟨r_S1x256x64, p0⟩] : List (View.Piece (Elt F) S1x256x64 .f32)), y ∈ pc.1.set :=
  View.cover_of_tiled [⟨r_S1x256x64, p0⟩] S1x256x64.size (by rfl) y

set_option maxHeartbeats 4000000 in
/-- The body on whole staging buffers: the eight inputs are read and left as they were, the two outputs end at the
    softmax block and at its product with the values. -/
theorem sound_kernel1 (c : Dev nD) (E : Set ℕ) (i : grid1.Coords)
    (arg0 : Memref sig .tc .vmem S1x256x64 .f32) (harg0 : arg0.IsWhole) (arg1 : Memref sig .tc .vmem S1x2048x64 .f32) (harg1 : arg1.IsWhole) (arg2 : Memref sig .tc .vmem S1x2048x64 .f32) (harg2 : arg2.IsWhole) (arg3 : Memref sig .tc .vmem S256x2048 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S256x64 .f32) (harg6 : arg6.IsWhole) (arg7 : Memref sig .tc .vmem S256x64 .f32) (harg7 : arg7.IsWhole) (arg8 : Memref sig .tc .vmem S1x256x2048 .f32) (harg8 : arg8.IsWhole) (arg9 : Memref sig .tc .vmem S1x256x64 .f32) (harg9 : arg9.IsWhole)
    (x0 : Vec F S1x256x64 .f32) (x1 : Vec F S1x2048x64 .f32) (x2 : Vec F S1x2048x64 .f32) (x3 : Vec F S256x2048 .f32) (x4 : Vec F S2048x64 .f32) (x5 : Vec F S2048x64 .f32) (x6 : Vec F S256x64 .f32) (x7 : Vec F S256x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7) ∗ owns (c : Thread nD τ) arg9 fullShare (out1_9 x0 x1 x2 x3 x4 x5 x6 x7)) -∗ K ⟨⟩))
      ⊢ wp frame (wpE (defs₀ (F := F)) Variants.none c none) E (cc1_attn_kernel i arg0 harg0 arg1 harg1 arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

/-- The proof data of the region's pipeline on core `c`: the arrays as the region finds them; after the body each
    input's buffer at its block and each output's at the body's result of the eight input blocks; the cosine table's
    array held half by the whole-table window and half by the tile window, and the sine table's likewise. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨4, _⟩ => fullShare.left
    | ⟨5, _⟩ => fullShare.left
    | ⟨6, _⟩ => fullShare.right
    | ⟨7, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 of @main (the tiled product A·Bᵀ): what the kernel body leaves in its output block from the two input
  blocks, the body's triple, the pipeline's proof data at the region's entry contents `V`, and the body obligation
  at every grid point. Stated at any float family.
-/
import proofs.«169794_j16423954940491_1_alg».proof.Proof.Gen.KernelIdeal.Launch
import proofs.«169794_j16423954940491_1_alg».proof.Proof.Gen.KernelIdeal.Skeleton
import proofs.«169794_j16423954940491_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left factor is in its staging buffer at every point, fetched there or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of the right factor likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 512×2048 input block and the whole 512×512 output block, as rectangles. -/
abbrev rIn2 : Rect S512x2048 := Rect.unit (s := S512x2048) ![0, 0] S512x2048.size inb_S512x2048_S512x2048_0_0
abbrev rOut2 : Rect S512x512 := Rect.unit (s := S512x512) ![0, 0] S512x512.size inb_S512x512_S512x512_0_0

/-- The output block after the body: the product of the two input blocks, stored whole. -/
def out2_2 (x0 x1 : Vec F S512x2048 .f32) : Vec F S512x512 .f32 :=
  View.canon [⟨rOut2, k2_pay1 (View.ld x0 rIn2) (View.ld x1 rIn2)⟩]

/-- The one store covers the output block. -/
theorem cover2_2 (p0 : Vec F S512x512 .f32) (y : S512x512.Idx) :
    ∃ pc ∈ ([⟨rOut2, p0⟩] : List (View.Piece (Elt F) S512x512 .f32)), y ∈ pc.1.set :=
  View.cover_of_tiled [⟨rOut2, p0⟩] S512x512.size (by rfl) y

set_option maxHeartbeats 1000000 in
/-- The body on whole staging buffers: the inputs are read and left as they were, the output ends at the product. -/
theorem sound_kernel2 (c : Dev nD) (E : Set ℕ) (i : grid2.Coords)
    (arg0 : Memref sig .tc .vmem S512x2048 .f32) (harg0 : arg0.IsWhole) (arg1 : Memref sig .tc .vmem S512x2048 .f32) (harg1 : arg1.IsWhole)
    (arg2 : Memref sig .tc .vmem S512x512 .f32) (harg2 : arg2.IsWhole)
    (x0 x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__mm_kernel i arg0 harg0 arg1 harg1 arg2 harg2) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body each
    input's buffer at its block and the output's at the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Shared1.lean ====
/-
  Region 1 reads the cosine table through two windows and the sine table through two windows. The core's unscoped
  buffers, each whole at the full share, give the pipeline its arrays when each table's buffer is cut in two half
  shares, one per window; at the exit the halves are joined again and the two output arrays take their new contents.
-/
import proofs.«169794_j16423954940491_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first eight windows are inputs. -/
theorem isIn1 (w : Fin cfg1.W) (hw : w.val < 8) : (cfg1.win w).isOut = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨n + 8, _⟩, h => exact absurd h (by simp)

/-- A window's array is the whole buffer. -/
private theorem set1 (w : Fin cfg1.W) : (cfg1.win w).arr.view.set = Finset.univ := (arr_whole1 w).set_eq_univ

/-- The share each window's array is held at: the full share, but for the two tables' buffers, each held in two halves —
    the left by the whole-table window, the right by the tile window. -/
private theorem share1_0 (c : Dev nD) : (dat1 V c).share 0 = fullShare := rfl
private theorem share1_1 (c : Dev nD) : (dat1 V c).share 1 = fullShare := rfl
private theorem share1_2 (c : Dev nD) : (dat1 V c).share 2 = fullShare := rfl
private theorem share1_3 (c : Dev nD) : (dat1 V c).share 3 = fullShare := rfl
private theorem share1_4 (c : Dev nD) : (dat1 V c).share 4 = fullShare.left := rfl
private theorem share1_5 (c : Dev nD) : (dat1 V c).share 5 = fullShare.left := rfl
private theorem share1_6 (c : Dev nD) : (dat1 V c).share 6 = fullShare.right := rfl
private theorem share1_7 (c : Dev nD) : (dat1 V c).share 7 = fullShare.right := rfl
private theorem share1_8 (c : Dev nD) : (dat1 V c).share 8 = fullShare := rfl
private theorem share1_9 (c : Dev nD) : (dat1 V c).share 9 = fullShare := rfl

/-- Each window's array as a whole buffer at its share, named by the buffer it is. -/
private theorem win1_0_eq (c : Dev nD) (f : Buf (Elt F) ((cfg1.win 0).arr.view.loc (c.tc : Thread nD τ))) :
    ((cfg1.win 0).arr.view.loc (c.tc : Thread nD τ) ↦[(cfg1.win 0).arr.view.set]{(dat1 V c).share 0} f : sProp 𝕄)
      = ((c.tc : Thread nD τ).loc main_v7 ↦{fullShare} f) := by
  rw [set1, share1_0]
private theorem win1_1_eq (c : Dev nD) (f : Buf (Elt F) ((cfg1.win 1).arr.view.loc (c.tc : Thread nD τ))) :
    ((cfg1.win 1).arr.view.loc (c.tc : Thread nD τ) ↦[(cfg1.win 1).arr.view.set]{(dat1 V c).share 1} f : sProp 𝕄)
      = ((c.tc : Thread nD τ).loc main_v9 ↦{fullShare} f) := by
  rw [set1, share1_1]
private theorem win1_2_eq (c : Dev nD) (f : Buf (Elt F) ((cfg1.win 2).arr.view.loc (c.tc : Thread nD τ))) :
    ((cfg1.win 2).arr.view.loc (c.tc : Thread nD τ) ↦[(cfg1.win 2).arr.view.set]{(dat1 V c).share 2} f : sProp 𝕄)
      = ((c.tc : Thread nD τ).loc main_v11 ↦{fullShare} f) := by
  rw [set1, share1_2]
private theorem win1_3_eq (c : Dev nD) (f : Buf (Elt F) ((cfg1.win 3).arr.view.loc (c.tc : Thread nD τ))) :
    ((cfg1.win 3).arr.view.loc (c.tc : Thread nD τ) ↦[(cfg1.win 3).arr.view.set]{(dat1 V c).share 3} f : sProp 𝕄)
      = ((c.tc : Thread nD τ).loc main_v14 ↦{fullShare} f) := by
  rw [set1, share1_3]
private theorem win1_4_eq (c : Dev nD) (f : Buf (Elt F) ((cfg1.win 4).arr.view.loc (c.tc : Thread nD τ))) :
    ((cfg1.win 4).arr.view.loc (c.tc : Thread nD τ) ↦[(cfg1.win 4).arr.view.set]{(dat1 V c).share 4} f : sProp 𝕄)
      = ((c.tc : Thread nD τ).loc main_v12 ↦{fullShare.left} f) := by
  rw [set1, share1_4]
private theorem win1_5_eq (c : Dev nD) (f : Buf (Elt F) ((cfg1.win 5).arr.view.loc (c.tc : Thread nD τ))) :
    ((cfg1.win 5).arr.view.loc (c.tc : Thread nD τ) ↦[(cfg1.win 5).arr.view.set]{(dat1 V c).share 5} f : sProp 𝕄)
      = ((c.tc : Thread nD τ).loc main_v13 ↦{fullShare.left} f) := by
  rw [set1, share1_5]
private theorem win1_6_eq (c : Dev nD) (f : Buf (Elt F) ((cfg1.win 6).arr.view.loc (c.tc : Thread nD τ))) :
    ((cfg1.win 6).arr.view.loc (c.tc : Thread nD τ) ↦[(cfg1.win 6).arr.view.set]{(dat1 V c).share 6} f : sProp 𝕄)
      = ((c.tc : Thread nD τ).loc main_v12 ↦{fullShare.right} f) := by
  rw [set1, share1_6]
private theorem win1_7_eq (c : Dev nD) (f : Buf (Elt F) ((cfg1.win 7).arr.view.loc (c.tc : Thread nD τ))) :
    ((cfg1.win 7).arr.view.loc (c.tc : Thread nD τ) ↦[(cfg1.win 7).arr.view.set]{(dat1 V c).share 7} f : sProp 𝕄)
      = ((c.tc : Thread nD τ).loc main_v13 ↦{fullShare.right} f) := by
  rw [set1, share1_7]
private theorem win1_8_eq (c : Dev nD) (f : Buf (Elt F) ((cfg1.win 8).arr.view.loc (c.tc : Thread nD τ))) :
    ((cfg1.win 8).arr.view.loc (c.tc : Thread nD τ) ↦[(cfg1.win 8).arr.view.set]{(dat1 V c).share 8} f : sProp 𝕄)
      = ((c.tc : Thread nD τ).loc main_v15_0 ↦{fullShare} f) := by
  rw [set1, share1_8]
private theorem win1_9_eq (c : Dev nD) (f : Buf (Elt F) ((cfg1.win 9).arr.view.loc (c.tc : Thread nD τ))) :
    ((cfg1.win 9).arr.view.loc (c.tc : Thread nD τ) ↦[(cfg1.win 9).arr.view.set]{(dat1 V c).share 9} f : sProp 𝕄)
      = ((c.tc : Thread nD τ).loc main_v15_1 ↦{fullShare} f) := by
  rw [set1, share1_9]

/-- The distinct buffers behind region 1's windows, one by one. -/
private theorem arrBufs1_eq (c : Dev nD) (W : (b : Ref sig .tc) → Buf (Elt F) ((c.tc : Thread nD τ).loc b)) :
    (Pipeline.arrBufs spec1 c W : sProp 𝕄)
      = iprop(((c.tc : Thread nD τ).loc main_v7 ↦{fullShare} W main_v7) ∗ ((c.tc : Thread nD τ).loc main_v9 ↦{fullShare} W main_v9)
          ∗ ((c.tc : Thread nD τ).loc main_v11 ↦{fullShare} W main_v11) ∗ ((c.tc : Thread nD τ).loc main_v14 ↦{fullShare} W main_v14)
          ∗ ((c.tc : Thread nD τ).loc main_v12 ↦{fullShare} W main_v12) ∗ ((c.tc : Thread nD τ).loc main_v13 ↦{fullShare} W main_v13)
          ∗ ((c.tc : Thread nD τ).loc main_v15_0 ↦{fullShare} W main_v15_0) ∗ ((c.tc : Thread nD τ).loc main_v15_1 ↦{fullShare} W main_v15_1)) :=
  bigSep_eq_bigSepL_of_eq [main_v7, main_v9, main_v11, main_v14, main_v12, main_v13, main_v15_0, main_v15_1] (by decide) (by decide) _

/-- Region 1's arrays window by window: each the whole buffer, the two tables' buffers at half shares. -/
private theorem arrays1_eq (c : Dev nD) (Fa : (w : Fin cfg1.W) → Buf (Elt F) ((cfg1.win w).arr.view.loc (c.tc : Thread nD τ))) :
    ((dat1 V c).arrays Fa : sProp 𝕄)
      = iprop(((c.tc : Thread nD τ).loc main_v7 ↦{fullShare} Fa 0) ∗ ((c.tc : Thread nD τ).loc main_v9 ↦{fullShare} Fa 1)
          ∗ ((c.tc : Thread nD τ).loc main_v11 ↦{fullShare} Fa 2) ∗ ((c.tc : Thread nD τ).loc main_v14 ↦{fullShare} Fa 3)
          ∗ ((c.tc : Thread nD τ).loc main_v12 ↦{fullShare.left} Fa 4) ∗ ((c.tc : Thread nD τ).loc main_v13 ↦{fullShare.left} Fa 5)
          ∗ ((c.tc : Thread nD τ).loc main_v12 ↦{fullShare.right} Fa 6) ∗ ((c.tc : Thread nD τ).loc main_v13 ↦{fullShare.right} Fa 7)
          ∗ ((c.tc : Thread nD τ).loc main_v15_0 ↦{fullShare} Fa 8) ∗ ((c.tc : Thread nD τ).loc main_v15_1 ↦{fullShare} Fa 9)) := by
  unfold Dat.arrays
  exact (bigSep_W1 _).trans (congrArg₂ BIBase.sep (win1_0_eq V c _) (congrArg₂ BIBase.sep (win1_1_eq V c _) (congrArg₂ BIBase.sep (win1_2_eq V c _) (congrArg₂ BIBase.sep (win1_3_eq V c _) (congrArg₂ BIBase.sep (win1_4_eq V c _) (congrArg₂ BIBase.sep (win1_5_eq V c _) (congrArg₂ BIBase.sep (win1_6_eq V c _) (congrArg₂ BIBase.sep (win1_7_eq V c _) (congrArg₂ BIBase.sep (win1_8_eq V c _) (win1_9_eq V c _))))))))))

/-- ENTRY: the core's unscoped buffers at contents `V c` are region 1's arrays at the proof data's entry contents
    (the two tables' buffers cut in half shares) and the unscoped rest. -/
theorem arrays1_of_unscopedBufs (c : Dev nD) :
    (unscopedBufs c (V c) : sProp 𝕄) ⊢ iprop((dat1 V c).arrays (dat1 V c).A ∗ Pipeline.unscopedRest spec1 c (V c)) := by
  rw [show (unscopedBufs c (V c) : sProp 𝕄) = iprop(Pipeline.arrBufs spec1 c (V c) ∗ Pipeline.unscopedRest spec1 c (V c)) from
    Pipeline.unscopedBufs_split₀ cfgs 1 winFacts₀1.arr_unscoped c (V c)]
  refine sep_mono ?_ .rfl
  rw [arrBufs1_eq, arrays1_eq]
  iintro ⟨H7, H9, H11, H14, H12, H13, H150, H151⟩
  ihave H12 := (pointsTo_share (PosShare.mem_left_op_right fullShare)).1 $$ H12
  icases H12 with ⟨H12l, H12r⟩
  ihave H13 := (pointsTo_share (PosShare.mem_left_op_right fullShare)).1 $$ H13
  icases H13 with ⟨H13l, H13r⟩
  isplitl [H7]; · iexact H7
  isplitl [H9]; · iexact H9
  isplitl [H11]; · iexact H11
  isplitl [H14]; · iexact H14
  isplitl [H12l]; · iexact H12l
  isplitl [H13l]; · iexact H13l
  isplitl [H12r]; · iexact H12r
  isplitl [H13r]; · iexact H13r
  isplitl [H150]; · iexact H150
  iexact H151

/-- EXIT: region 1's arrays at contents `F` — the inputs' as entered, the outputs' anything — and the unscoped rest are
    the core's unscoped buffers at any valuation that has the two output arrays at `F` and agrees with `V c` elsewhere. -/
theorem unscopedBufs_of_arrays1 (c : Dev nD) (V' : (b : Ref sig .tc) → Buf (Elt F) ((c : Thread nD τ).loc b))
    (Fa : (w : Fin cfg1.W) → Buf (Elt F) ((cfg1.win w).arr.view.loc (c.tc : Thread nD τ)))
    (h8 : Fa 8 = V' main_v15_0) (h9 : Fa 9 = V' main_v15_1)
    (hin : ∀ w : Fin cfg1.W, w.val < 8 → Fa w = V c (Pipeline.arrRef spec1 w))
    (hrest : ∀ b : Ref sig .tc, b ≠ main_v15_0 → b ≠ main_v15_1 → V' b = V c b) :
    iprop((dat1 V c).arrays Fa ∗ Pipeline.unscopedRest spec1 c (V c)) ⊢ (unscopedBufs c V' : sProp 𝕄) := by
  rw [show (unscopedBufs c V' : sProp 𝕄) = iprop(Pipeline.arrBufs spec1 c V' ∗ Pipeline.unscopedRest spec1 c V') from
    Pipeline.unscopedBufs_split₀ cfgs 1 winFacts₀1.arr_unscoped c V']
  refine sep_mono ?_ (Entails.of_eq ?_)
  · have e0 : Fa 0 = V c main_v7 := hin 0 (by decide)
    have e1 : Fa 1 = V c main_v9 := hin 1 (by decide)
    have e2 : Fa 2 = V c main_v11 := hin 2 (by decide)
    have e3 : Fa 3 = V c main_v14 := hin 3 (by decide)
    have e4 : Fa 4 = V c main_v12 := hin 4 (by decide)
    have e5 : Fa 5 = V c main_v13 := hin 5 (by decide)
    have e6 : Fa 6 = V c main_v12 := hin 6 (by decide)
    have e7 : Fa 7 = V c main_v13 := hin 7 (by decide)
    rw [arrBufs1_eq, arrays1_eq, e0, e1, e2, e3, e4, e5, e6, e7, h8, h9,
      hrest main_v7 (by decide) (by decide), hrest main_v9 (by decide) (by decide), hrest main_v11 (by decide) (by decide),
      hrest main_v14 (by decide) (by decide), hrest main_v12 (by decide) (by decide), hrest main_v13 (by decide) (by decide)]
    iintro ⟨H7, H9, H11, H14, H12l, H13l, H12r, H13r, H150, H151⟩
    ihave H12 := (pointsTo_share (PosShare.mem_left_op_right fullShare)).2 $$ [H12l H12r]
    · isplitl [H12l] <;> iassumption
    ihave H13 := (pointsTo_share (PosShare.mem_left_op_right fullShare)).2 $$ [H13l H13r]
    · isplitl [H13l] <;> iassumption
    isplitl [H7]; · iexact H7
    isplitl [H9]; · iexact H9
    isplitl [H11]; · iexact H11
    isplitl [H14]; · iexact H14
    isplitl [H12]; · iexact H12
    isplitl [H13]; · iexact H13
    isplitl [H150]; · iexact H150
    iexact H151
  · unfold Pipeline.unscopedRest
    exact bigSep_congr fun b hb => by
      rw [hrest b (fun h => (Finset.mem_sdiff.mp hb).2 (h ▸ Finset.mem_image.mpr ⟨8, Finset.mem_univ _, rfl⟩))
        (fun h => (Finset.mem_sdiff.mp hb).2 (h ▸ Finset.mem_image.mpr ⟨9, Finset.mem_univ _, rfl⟩))]

end Cert.KernelIdeal.Hand

end
-- ==== Proof.KI.Run.lean ====
/-
  The run of @main: the contents of every unscoped buffer at each boundary between a host stretch and a kernel region,
  folded from the launch memory; the three regions as segments over the thread state "every unscoped buffer at the
  boundary's contents, the generator register at some state, nothing owed"; and the launch: every weakly fair execution
  terminates with every unscoped buffer at the last boundary's contents. The frame follows because no host operation
  and no region writes an argument. Stated at any float family.
-/
import proofs.«169794_j16423954940491_1_alg».proof.Proof.KI.Body0
import proofs.«169794_j16423954940491_1_alg».proof.Proof.KI.Body1
import proofs.«169794_j16423954940491_1_alg».proof.Proof.KI.Body2
import proofs.«169794_j16423954940491_1_alg».proof.Proof.KI.Shared1
import proofs.«169794_j16423954940491_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit: its two output arrays at what the pipeline leaves, every other buffer as entered. -/
def W4 (c : Dev nD) : Valuation τ sig (Elt F) :=
  Function.update (Function.update (W3 m ρ c) main_v15_0 ((dat1 (E3 m ρ) c).arrAt 8 cfg1.N)) main_v15_1 ((dat1 (E3 m ρ) c).arrAt 9 cfg1.N)
theorem W4_out0 (c : Dev nD) : W4 m ρ c main_v15_0 = (dat1 (E3 m ρ) c).arrAt 8 cfg1.N := by
  unfold W4
  rw [Function.update_of_ne (StableHlo.devRef_ne_of_ne (by decide) : (Proc.devRef .tc main_v15_0 : DevRef τ sig) ≠ Proc.devRef .tc main_v15_1), Function.update_self]
theorem W4_out1 (c : Dev nD) : W4 m ρ c main_v15_1 = (dat1 (E3 m ρ) c).arrAt 9 cfg1.N := by
  unfold W4; rw [Function.update_self]
theorem W4_of_ne (c : Dev nD) (b : Ref sig .tc) (h0 : b ≠ main_v15_0) (h1 : b ≠ main_v15_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v15_1),
    Function.update_of_ne (StableHlo.devRef_ne_of_ne h0 : (Proc.devRef .tc b : DevRef τ sig) ≠ Proc.devRef .tc main_v15_0)]
abbrev X4 : (c : Dev nD) → (b : Ref sig .tc) → Buf (Elt F) ((c : Thread nD τ).loc b) := fun c b => W4 m ρ c b

/-- After the third host stretch (region 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After the last host stretch: the contents the program ends with. -/
abbrev W7 : Dev nD → Valuation τ sig (Elt F) := fun c => StableHlo.after hostOps3 (W6 m ρ c)

/-! ## A buffer no host stretch writes keeps its contents across the stretch -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- An argument that no region has as an output array and no host stretch writes ends as launched. -/
theorem W7_arg (c : Dev nD) (r : Ref sig .tc) (h0 : r ∉ hostOps0_W) (h1 : r ∉ hostOps1_W) (h2 : r ∉ hostOps2_W) (h3 : r ∉ hostOps3_W)
    (hs0 : ∀ w, Pipeline.arrRef spec0 w ≠ r) (hs2 : ∀ w, Pipeline.arrRef spec2 w ≠ r) (ho0 : r ≠ main_v15_0) (ho1 : r ≠ main_v15_1) :
    W7 m ρ c r = m ((c : Thread nD τ).loc r) :=
  (W7_of m ρ c r h3).trans <| (W6_of_ne m ρ c r hs2).trans <| (W5_of m ρ c r h2).trans <| (W4_of_ne m ρ c r ho0 ho1).trans <|
    (W3_of m ρ c r h1).trans <| (W2_of_ne m ρ c r hs0).trans <| (W1_of m ρ c r h0).trans rfl

theorem W7_main_arg0 (c : Dev nD) : W7 m ρ c main_arg0 = m ((c : Thread nD τ).loc main_arg0) :=
  W7_arg m ρ c main_arg0 (by decide) (by decide) (by decide) (by decide) (by decide) (by decide) (by decide) (by decide)
theorem W7_main_arg1 (c : Dev nD) : W7 m ρ c main_arg1 = m ((c : Thread nD τ).loc main_arg1) :=
  W7_arg m ρ c main_arg1 (by decide) (by decide) (by decide) (by decide) (by decide) (by decide) (by decide) (by decide)
theorem W7_main_arg2 (c : Dev nD) : W7 m ρ c main_arg2 = m ((c : Thread nD τ).loc main_arg2) :=
  W7_arg m ρ c main_arg2 (by decide) (by decide) (by decide) (by decide) (by decide) (by decide) (by decide) (by decide)
theorem W7_main_arg3 (c : Dev nD) : W7 m ρ c main_arg3 = m ((c : Thread nD τ).loc main_arg3) :=
  W7_arg m ρ c main_arg3 (by decide) (by decide) (by decide) (by decide) (by decide) (by decide) (by decide) (by decide)
theorem W7_main_arg4 (c : Dev nD) : W7 m ρ c main_arg4 = m ((c : Thread nD τ).loc main_arg4) :=
  W7_arg m ρ c main_arg4 (by decide) (by decide) (by decide) (by decide) (by decide) (by decide) (by decide) (by decide)
theorem W7_main_arg5 (c : Dev nD) : W7 m ρ c main_arg5 = m ((c : Thread nD τ).loc main_arg5) :=
  W7_arg m ρ c main_arg5 (by decide) (by decide) (by decide) (by decide) (by decide) (by decide) (by decide) (by decide)
theorem W7_main_arg6 (c : Dev nD) : W7 m ρ c main_arg6 = m ((c : Thread nD τ).loc main_arg6) :=
  W7_arg m ρ c main_arg6 (by decide) (by decide) (by decide) (by decide) (by decide) (by decide) (by decide) (by decide)
/-- The output weights are an input array of region 2: the pipeline leaves an input array as it found it. -/
theorem W7_main_arg7 (c : Dev nD) : W7 m ρ c main_arg7 = m ((c : Thread nD τ).loc main_arg7) :=
  (W7_of m ρ c main_arg7 (by decide)).trans <| ((W6_arr m ρ c 1).trans (((dat2 (E5 m ρ) c).arrAt_in 1 rfl _).trans (A_eq2 (E5 m ρ) c 1))).trans <|
    (W5_of m ρ c main_arg7 (by decide)).trans <| (W4_of_ne m ρ c main_arg7 (by decide) (by decide)).trans <|
    (W3_of m ρ c main_arg7 (by decide)).trans <| (W2_of_ne m ρ c main_arg7 (by decide)).trans <| (W1_of m ρ c main_arg7 (by decide)).trans rfl

/-! ## The proof data family and the thread state -/

abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. The two tables' arrays
    are each dealt half and half to the two windows that read them, and joined again at the exit. -/
def reg1 : Pipeline.RegionSeg (pcfgs (F := F)) padm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := arrays1_of_unscopedBufs (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E3 m ρ c))
        ⊢ (unscopedBufs c (X4 m ρ c) : sProp 𝕄) :=
      unscopedBufs_of_arrays1 (E3 m ρ) c (X4 m ρ c) ((dat1 (E3 m ρ) c).arrAt · cfg1.N)
      (W4_out0 m ρ c).symm (W4_out1 m ρ c).symm
      (fun w hw => ((dat1 (E3 m ρ) c).arrAt_in w (isIn1 w hw) _).trans (A_eq1 (E3 m ρ) c w))
      (fun b h0 h1 => W4_of_ne m ρ c b h0 h1)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 2 over the thread state: entered from every unscoped buffer at `W5`, left at `W6`. Its arrays are
    split out of the unscoped buffers and put back at the exit contents; the generator register goes into the
    pipeline's invariant and comes out; nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (psegs m ρ) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.KernelIdeal.Hand

end
-- ==== Proof.Spec.lean ====
/-
  The mathematics both programs compute, over the extended reals, index by index.

  From hidden states hs[s, k], weights Wq[j, k], Wk[j, k], Wv[j, k], Wo[j, c], rotary tables cos[s, d], sin[s, d] and an
  additive mask[q, k]:  head `h` of the queries is  Q[h, s, d] = ∑ₖ hs[s, k] · Wq[64 h + d, k]  (keys and values
  likewise, eight heads of them, query head `h` using key/value head `h / 4`);  the rotary embedding sends a row
  x[d] to  x[d] · cos[s, d] + rot(x)[d] · sin[s, d]  with  rot(x)[d] = −x[d + 32]  for d < 32  and  x[d − 32]  else;
  the score row is  (∑_d Qr[h, q, d] · Kr[h/4, k, d]) · (1/8) + mask[q, k];  a row R becomes probabilities
  exp(R[k] − M) / ∑ₖ' exp(R[k'] − M)  with M the row's maximum (folded from −∞);  the attention output is
  ∑ₖ P[h, q, k] · V[h/4, k, d], laid out as O[s, 64 h + d], and the result is  ∑_c O[s, c] · Wo[j, c].
  The two literals (1/8 and −∞) are kept as their binary words. Intermediate arrays are functions of their coordinates.
-/
import Idealize.ShloMosaic.PureOps.Ideal
import Idealize.ShloMosaic.Lib.ValueIdx

noncomputable section

namespace Cert.Spec

open Idealize.ShloMosaic Idealize.ShloMosaic.ValueIdx

/-- An array of extended reals of a literal shape. -/
abbrev Arr2 (a b : Nat) := (⟨2, ![a, b]⟩ : Shape).Idx → EReal
abbrev Arr3 (a b c : Nat) := (⟨3, ![a, b, c]⟩ : Shape).Idx → EReal
abbrev Arr4 (a b c d : Nat) := (⟨4, ![a, b, c, d]⟩ : Shape).Idx → EReal

/-- The scale 1/8 and the reductions' start −∞, as the programs spell them. -/
abbrev scale : EReal := Ideal.ofBits .f32 0x3E000000#32
abbrev negInf : EReal := Ideal.ofBits .f32 0xFF800000#32

/-- Channel `64 h + d` of the 32 query heads, and of the 8 key/value heads. -/
abbrev chq (h : Fin 32) (d : Fin 64) : Fin 2048 := ⟨h.val * 64 + d.val, by omega⟩
abbrev chk (g : Fin 8) (d : Fin 64) : Fin 512 := ⟨g.val * 64 + d.val, by omega⟩
/-- The key/value head a query head reads: four query heads to one. -/
abbrev kvOf (h : Fin 32) : Fin 8 := ⟨h.val / 4, by omega⟩
/-- Head and inner coordinate of a channel of the concatenated heads. -/
abbrev hdOf (c : Fin 2048) : Fin 32 := ⟨c.val / 64, by omega⟩
abbrev dmOf (c : Fin 2048) : Fin 64 := ⟨c.val % 64, by omega⟩

/-- Row `i` of `A` against row `j` of `B`: the product A·Bᵀ over a contraction of length 2048. -/
def mm {a b : Nat} (A : Fin a → Fin 2048 → EReal) (B : Fin b → Fin 2048 → EReal) (i : Fin a) (j : Fin b) : EReal :=
  ∑ k : Fin 2048, A i k * B j k

/-- Rotate-half of a 64-vector: the upper half negated in front of the lower half. -/
def rotHalf (x : Fin 64 → EReal) (d : Fin 64) : EReal :=
  if h : d.val < 32 then -(x ⟨d.val + 32, by omega⟩) else x ⟨d.val - 32, by omega⟩

/-- The rotary embedding of a 64-vector at position `s`. -/
def rope (cs sn : Fin 2048 → Fin 64 → EReal) (x : Fin 64 → EReal) (s : Fin 2048) (d : Fin 64) : EReal :=
  x d * cs s d + rotHalf x d * sn s d

/-- A score: the rotated query against the rotated key of the query head's key head, scaled, plus the mask. -/
def scoreOf (Q : Fin 32 → Fin 2048 → Fin 64 → EReal) (K : Fin 8 → Fin 2048 → Fin 64 → EReal) (cs sn : Fin 2048 → Fin 64 → EReal)
    (mk : Fin 2048 → Fin 2048 → EReal) (h : Fin 32) (q k : Fin 2048) : EReal :=
  (∑ d : Fin 64, rope cs sn (Q h q) q d * rope cs sn (K (kvOf h) k) k d) * scale + mk q k

/-- A row's maximum: `max` folded over the row from −∞, and once more against −∞. -/
def rowMax (R : Fin 2048 → EReal) : EReal := max negInf ((Finset.univ : Finset (Fin 2048)).fold max negInf R)

/-- The shifted exponentials of a row, and the row's probabilities. -/
def expo (R : Fin 2048 → EReal) (k : Fin 2048) : EReal := Ideal.exp (R k - rowMax R)
def prob (R : Fin 2048 → EReal) (k : Fin 2048) : EReal := Ideal.div (expo R k) (∑ k' : Fin 2048, expo R k')

/-- Attention probabilities of head `h`, query `q`. -/
def probOf (Q : Fin 32 → Fin 2048 → Fin 64 → EReal) (K : Fin 8 → Fin 2048 → Fin 64 → EReal) (cs sn : Fin 2048 → Fin 64 → EReal)
    (mk : Fin 2048 → Fin 2048 → EReal) (h : Fin 32) (q k : Fin 2048) : EReal :=
  prob (scoreOf Q K cs sn mk h q) k

/-- Attention output of head `h` at token `q`. -/
def attnOf (Q : Fin 32 → Fin 2048 → Fin 64 → EReal) (K Vv : Fin 8 → Fin 2048 → Fin 64 → EReal) (cs sn : Fin 2048 → Fin 64 → EReal)
    (mk : Fin 2048 → Fin 2048 → EReal) (h : Fin 32) (q : Fin 2048) (d : Fin 64) : EReal :=
  ∑ k : Fin 2048, probOf Q K cs sn mk h q k * Vv (kvOf h) k d

section Whole

variable (hs : Arr3 1 2048 2048) (cs sn : Arr3 1 2048 64) (mask : Arr4 1 1 2048 2048) (Wq : Arr2 2048 2048) (Wk Wv : Arr2 512 2048)
  (Wo : Arr2 2048 2048)

/-- The projected queries, keys and values by head, and the tables and the mask by coordinates. -/
def qOf (h : Fin 32) (s : Fin 2048) (d : Fin 64) : EReal := mm (fun s k => hs (ix3 0 s k)) (fun j k => Wq (ix2 j k)) s (chq h d)
def kOf (g : Fin 8) (s : Fin 2048) (d : Fin 64) : EReal := mm (fun s k => hs (ix3 0 s k)) (fun j k => Wk (ix2 j k)) s (chk g d)
def vOf (g : Fin 8) (s : Fin 2048) (d : Fin 64) : EReal := mm (fun s k => hs (ix3 0 s k)) (fun j k => Wv (ix2 j k)) s (chk g d)
def csOf (s : Fin 2048) (d : Fin 64) : EReal := cs (ix3 0 s d)
def snOf (s : Fin 2048) (d : Fin 64) : EReal := sn (ix3 0 s d)
def mkOf (q k : Fin 2048) : EReal := mask (ix4 0 0 q k)

/-- The attention weights, as the whole result array. -/
def resW : Arr4 1 32 2048 2048 :=
  fun i => probOf (qOf hs Wq) (kOf hs Wk) (csOf cs) (snOf sn) (mkOf mask) (i 1) (i 2) (i 3)

/-- The heads' outputs side by side: column `64 h + d` holds head `h`'s coordinate `d`. -/
def headsOf (s c : Fin 2048) : EReal :=
  attnOf (qOf hs Wq) (kOf hs Wk) (vOf hs Wv) (csOf cs) (snOf sn) (mkOf mask) (hdOf c) s (dmOf c)

/-- The attention output after the output projection, as the whole result array. -/
def resOut : Arr3 1 2048 2048 :=
  fun i => mm (headsOf hs cs sn mask Wq Wk Wv) (fun j c => Wo (ix2 j c)) (i 1) (i 2)

end Whole

end Cert.Spec

end
-- ==== Proof.HostK.lean ====
/-
  The idealized kernel's host operations read at an index: what each kernel region finds in its input arrays, in terms
  of the program's arguments and of the arrays the region before it left, and what the two results hold in terms of
  the last two regions' outputs. The host operations only re-lay data: a reshape that drops or adds a unit axis, the
  three weight matrices stacked by rows, column slices of the stacked projection, the split of a channel `64 h + d`
  into head and coordinate with the head axis moved to the front (and back), and two leading unit axes added.
-/
import proofs.«169794_j16423954940491_1_alg».proof.Proof.KI.Run
import proofs.«169794_j16423954940491_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! The regions' input arrays as each region finds them, by coordinates (`V` the contents at the region's entry). -/
section In
variable (V : (c : Dev nD) → (b : Ref sig .tc) → Buf (Elt Ideal) ((c : Thread nD τ).loc b))
abbrev lhsIn0 (c : Dev nD) (s k : Fin 2048) : EReal := (V c main_v0 : (⟨2, ![2048, 2048]⟩ : Shape).Idx → EReal) (ix2 s k)
abbrev rhsIn0 (c : Dev nD) (j : Fin 3072) (k : Fin 2048) : EReal := (V c main_v1 : (⟨2, ![3072, 2048]⟩ : Shape).Idx → EReal) (ix2 j k)
abbrev qIn1 (c : Dev nD) (h : Fin 32) (s : Fin 2048) (d : Fin 64) : EReal := (V c main_v7 : (⟨3, ![32, 2048, 64]⟩ : Shape).Idx → EReal) (ix3 h s d)
abbrev kIn1 (c : Dev nD) (g : Fin 8) (s : Fin 2048) (d : Fin 64) : EReal := (V c main_v9 : (⟨3, ![8, 2048, 64]⟩ : Shape).Idx → EReal) (ix3 g s d)
abbrev vIn1 (c : Dev nD) (g : Fin 8) (s : Fin 2048) (d : Fin 64) : EReal := (V c main_v11 : (⟨3, ![8, 2048, 64]⟩ : Shape).Idx → EReal) (ix3 g s d)
abbrev mIn1 (c : Dev nD) (q k : Fin 2048) : EReal := (V c main_v14 : (⟨2, ![2048, 2048]⟩ : Shape).Idx → EReal) (ix2 q k)
abbrev cIn1 (c : Dev nD) (s : Fin 2048) (d : Fin 64) : EReal := (V c main_v12 : (⟨2, ![2048, 64]⟩ : Shape).Idx → EReal) (ix2 s d)
abbrev sIn1 (c : Dev nD) (s : Fin 2048) (d : Fin 64) : EReal := (V c main_v13 : (⟨2, ![2048, 64]⟩ : Shape).Idx → EReal) (ix2 s d)
abbrev lhsIn2 (c : Dev nD) (s k : Fin 2048) : EReal := (V c main_v17 : (⟨2, ![2048, 2048]⟩ : Shape).Idx → EReal) (ix2 s k)
abbrev rhsIn2 (c : Dev nD) (j : Fin 2048) (k : Fin 2048) : EReal := (V c main_arg7 : (⟨2, ![2048, 2048]⟩ : Shape).Idx → EReal) (ix2 j k)
end In

variable (m : (ℓ : Loc nD τ sig) → Buf (Elt Ideal) ℓ) (ρ : Dev nD → PrngReg) (c : Dev nD)

/-- The eight arguments as launched, by literal type. -/
abbrev a0 : Spec.Arr3 1 2048 2048 := m ((c.tc : Thread nD τ).loc main_arg0)
abbrev a1 : Spec.Arr3 1 2048 64 := m ((c.tc : Thread nD τ).loc main_arg1)
abbrev a2 : Spec.Arr3 1 2048 64 := m ((c.tc : Thread nD τ).loc main_arg2)
abbrev a3 : Spec.Arr4 1 1 2048 2048 := m ((c.tc : Thread nD τ).loc main_arg3)
abbrev a4 : Spec.Arr2 2048 2048 := m ((c.tc : Thread nD τ).loc main_arg4)
abbrev a5 : Spec.Arr2 512 2048 := m ((c.tc : Thread nD τ).loc main_arg5)
abbrev a6 : Spec.Arr2 512 2048 := m ((c.tc : Thread nD τ).loc main_arg6)
abbrev a7 : Spec.Arr2 2048 2048 := m ((c.tc : Thread nD τ).loc main_arg7)

/-- What the regions leave, by literal type: the stacked projection, the probabilities, the heads' outputs, the result
    of the output projection. -/
abbrev proj0 : Spec.Arr2 2048 3072 := X2 m ρ c main_v2
abbrev probs1 : Spec.Arr3 32 2048 2048 := X4 m ρ c main_v15_0
abbrev heads1 : Spec.Arr3 32 2048 64 := X4 m ρ c main_v15_1
abbrev outp2 : Spec.Arr2 2048 2048 := X6 m ρ c main_v18

/-! ## Region 0's inputs -/

/-- The left factor is the hidden states with the leading unit axis dropped. -/
theorem lhs0_eq (s k : Fin 2048) : lhsIn0 (E1 m ρ) c s k = a0 m c (ix3 0 s k) := by
  have e : (W1 m ρ c main_v0 : (⟨2, ![2048, 2048]⟩ : Shape).Idx → EReal)
      = shapeCast S2048x2048 (W0 m ρ c main_arg0 : (⟨3, ![1, 2048, 2048]⟩ : Shape).Idx → EReal) shapeCasts_S1x2048x2048_S2048x2048 := by
    show StableHlo.after hostOps0 _ (Proc.devRef .tc main_v0) = _
    after_results
    rfl
  show (W1 m ρ c main_v0 : (⟨2, ![2048, 2048]⟩ : Shape).Idx → EReal) (ix2 s k) = _
  rw [e]
  refine (shapeCast_apply _ shapeCasts_S1x2048x2048_S2048x2048 (ix2 s k) (ix3 0 s k) ?_).trans rfl
  rw [Shape.rowMajor_val_three, Shape.rowMajor_val_two]
  show (0 * 2048 + s.val) * 2048 + k.val = s.val * 2048 + k.val
  omega

/-- The stacked weights as the three-piece concatenation of the launched weight matrices. -/
private theorem rhs0_cat :
    (W1 m ρ c main_v1 : (⟨2, ![3072, 2048]⟩ : Shape).Idx → EReal)
      = concatenate S3072x2048 0 [⟨S2048x2048, (a4 m c : S2048x2048.Idx → EReal)⟩, ⟨S512x2048, (a5 m c : S512x2048.Idx → EReal)⟩,
          ⟨S512x2048, (a6 m c : S512x2048.Idx → EReal)⟩] concatenates_S2048x2048_S512x2048_S512x2048_S3072x2048_d0 := by
  show StableHlo.after hostOps0 _ (Proc.devRef .tc main_v1) = _
  after_results
  rfl

/-- The right factor is the three weight matrices stacked by rows: rows 0–2047 the query weights, -/
theorem rhs0_q (h : Fin 32) (d : Fin 64) (k : Fin 2048) :
    rhsIn0 (E1 m ρ) c ⟨h.val * 64 + d.val, by omega⟩ k = a4 m c (ix2 (Spec.chq h d) k) := by
  show (W1 m ρ c main_v1 : (⟨2, ![3072, 2048]⟩ : Shape).Idx → EReal) (ix2 ⟨h.val * 64 + d.val, by omega⟩ k) = _
  rw [rhs0_cat]
  exact concatenate_apply_piece (t := S3072x2048) (0 : Fin 2)
    [⟨S2048x2048, (a4 m c : S2048x2048.Idx → EReal)⟩, ⟨S512x2048, (a5 m c : S512x2048.Idx → EReal)⟩, ⟨S512x2048, (a6 m c : S512x2048.Idx → EReal)⟩]
    concatenates_S2048x2048_S512x2048_S512x2048_S3072x2048_d0
    (ix2 ⟨h.val * 64 + d.val, by omega⟩ k) 0 (by show 0 < 3; omega) S2048x2048 (a4 m c) rfl rfl 0 rfl (ix2 (Spec.chq h d) k)
    (fun b => match b with
      | ⟨0, _⟩ => fun hb => absurd rfl hb
      | ⟨1, _⟩ => fun _ => rfl)
    (by show 0 + (h.val * 64 + d.val) = h.val * 64 + d.val; omega)
/-- rows 2048–2559 the key weights, -/
theorem rhs0_k (g : Fin 8) (d : Fin 64) (k : Fin 2048) :
    rhsIn0 (E1 m ρ) c ⟨2048 + (g.val * 64 + d.val), by omega⟩ k = a5 m c (ix2 (Spec.chk g d) k) := by
  show (W1 m ρ c main_v1 : (⟨2, ![3072, 2048]⟩ : Shape).Idx → EReal) (ix2 ⟨2048 + (g.val * 64 + d.val), by omega⟩ k) = _
  rw [rhs0_cat]
  exact concatenate_apply_piece (t := S3072x2048) (0 : Fin 2)
    [⟨S2048x2048, (a4 m c : S2048x2048.Idx → EReal)⟩, ⟨S512x2048, (a5 m c : S512x2048.Idx → EReal)⟩, ⟨S512x2048, (a6 m c : S512x2048.Idx → EReal)⟩]
    concatenates_S2048x2048_S512x2048_S512x2048_S3072x2048_d0
    (ix2 ⟨2048 + (g.val * 64 + d.val), by omega⟩ k) 1 (by show 1 < 3; omega) S512x2048 (a5 m c) rfl rfl 2048 rfl (ix2 (Spec.chk g d) k)
    (fun b => match b with
      | ⟨0, _⟩ => fun hb => absurd rfl hb
      | ⟨1, _⟩ => fun _ => rfl)
    (by show 2048 + (g.val * 64 + d.val) = 2048 + (g.val * 64 + d.val); rfl)
/-- rows 2560–3071 the value weights. -/
theorem rhs0_v (g : Fin 8) (d : Fin 64) (k : Fin 2048) :
    rhsIn0 (E1 m ρ) c ⟨2560 + (g.val * 64 + d.val), by omega⟩ k = a6 m c (ix2 (Spec.chk g d) k) := by
  show (W1 m ρ c main_v1 : (⟨2, ![3072, 2048]⟩ : Shape).Idx → EReal) (ix2 ⟨2560 + (g.val * 64 + d.val), by omega⟩ k) = _
  rw [rhs0_cat]
  exact concatenate_apply_piece (t := S3072x2048) (0 : Fin 2)
    [⟨S2048x2048, (a4 m c : S2048x2048.Idx → EReal)⟩, ⟨S512x2048, (a5 m c : S512x2048.Idx → EReal)⟩, ⟨S512x2048, (a6 m c : S512x2048.Idx → EReal)⟩]
    concatenates_S2048x2048_S512x2048_S512x2048_S3072x2048_d0
    (ix2 ⟨2560 + (g.val * 64 + d.val), by omega⟩ k) 2 (by show 2 < 3; omega) S512x2048 (a6 m c) rfl rfl 2560 rfl (ix2 (Spec.chk g d) k)
    (fun b => match b with
      | ⟨0, _⟩ => fun hb => absurd rfl hb
      | ⟨1, _⟩ => fun _ => rfl)
    (by show 2560 + (g.val * 64 + d.val) = 2560 + (g.val * 64 + d.val); rfl)

/-! ## Region 1's inputs -/

/-- Head `h` of the queries is columns `64 h + d` of the stacked projection, -/
theorem q1_eq (h : Fin 32) (s : Fin 2048) (d : Fin 64) :
    qIn1 (E3 m ρ) c h s d = proj0 m ρ c (ix2 s ⟨h.val * 64 + d.val, by omega⟩) := by
  have e : (W3 m ρ c main_v7 : (⟨3, ![32, 2048, 64]⟩ : Shape).Idx → EReal)
      = transpose S32x2048x64 [1, 0, 2] (shapeCast S2048x32x64 (extractStridedSlice S2048x2048 ![0, 0]
          (W2 m ρ c main_v2 : (⟨2, ![2048, 3072]⟩ : Shape).Idx → EReal) slices_S2048x3072_S2048x2048_0_0)
          shapeCasts_S2048x2048_S2048x32x64) transposes_S2048x32x64_S32x2048x64_1_0_2 := by
    show StableHlo.after hostOps1 _ (Proc.devRef .tc main_v7) = _
    after_results
    rfl
  show (W3 m ρ c main_v7 : (⟨3, ![32, 2048, 64]⟩ : Shape).Idx → EReal) (ix3 h s d) = _
  rw [e]
  refine (transpose_apply [1, 0, 2] _ transposes_S2048x32x64_S32x2048x64_1_0_2 (ix3 h s d) (ix3 s h d) (fun b => match b with
    | ⟨0, _⟩ => rfl
    | ⟨1, _⟩ => rfl
    | ⟨2, _⟩ => rfl)).trans ?_
  refine (shapeCast_apply _ shapeCasts_S2048x2048_S2048x32x64 (ix3 s h d) (ix2 s ⟨h.val * 64 + d.val, by omega⟩) ?_).trans ?_
  · rw [Shape.rowMajor_val_three, Shape.rowMajor_val_two]
    show s.val * 2048 + (h.val * 64 + d.val) = (s.val * 32 + h.val) * 64 + d.val
    omega
  refine (extractStridedSlice_apply ![0, 0] _ slices_S2048x3072_S2048x2048_0_0 (ix2 s ⟨h.val * 64 + d.val, by omega⟩)
    (ix2 s ⟨h.val * 64 + d.val, by omega⟩) (fun a => match a with
    | ⟨0, _⟩ => by show s.val = 0 + s.val; omega
    | ⟨1, _⟩ => by show h.val * 64 + d.val = 0 + (h.val * 64 + d.val); omega)).trans rfl
/-- head `g` of the keys columns `2048 + 64 g + d`, -/
theorem k1_eq (g : Fin 8) (s : Fin 2048) (d : Fin 64) :
    kIn1 (E3 m ρ) c g s d = proj0 m ρ c (ix2 s ⟨2048 + (g.val * 64 + d.val), by omega⟩) := by
  have e : (W3 m ρ c main_v9 : (⟨3, ![8, 2048, 64]⟩ : Shape).Idx → EReal)
      = transpose S8x2048x64 [1, 0, 2] (shapeCast S2048x8x64 (extractStridedSlice S2048x512 ![0, 2048]
          (W2 m ρ c main_v2 : (⟨2, ![2048, 3072]⟩ : Shape).Idx → EReal) slices_S2048x3072_S2048x512_0_2048)
          shapeCasts_S2048x512_S2048x8x64) transposes_S2048x8x64_S8x2048x64_1_0_2 := by
    show StableHlo.after hostOps1 _ (Proc.devRef .tc main_v9) = _
    after_results
    rfl
  show (W3 m ρ c main_v9 : (⟨3, ![8, 2048, 64]⟩ : Shape).Idx → EReal) (ix3 g s d) = _
  rw [e]
  refine (transpose_apply [1, 0, 2] _ transposes_S2048x8x64_S8x2048x64_1_0_2 (ix3 g s d) (ix3 s g d) (fun b => match b with
    | ⟨0, _⟩ => rfl
    | ⟨1, _⟩ => rfl
    | ⟨2, _⟩ => rfl)).trans ?_
  refine (shapeCast_apply _ shapeCasts_S2048x512_S2048x8x64 (ix3 s g d) (ix2 s ⟨g.val * 64 + d.val, by omega⟩) ?_).trans ?_
  · rw [Shape.rowMajor_val_three, Shape.rowMajor_val_two]
    show s.val * 512 + (g.val * 64 + d.val) = (s.val * 8 + g.val) * 64 + d.val
    omega
  refine (extractStridedSlice_apply ![0, 2048] _ slices_S2048x3072_S2048x512_0_2048 (ix2 s ⟨g.val * 64 + d.val, by omega⟩)
    (ix2 s ⟨2048 + (g.val * 64 + d.val), by omega⟩) (fun a => match a with
    | ⟨0, _⟩ => by show s.val = 0 + s.val; omega
    | ⟨1, _⟩ => by show 2048 + (g.val * 64 + d.val) = 2048 + (g.val * 64 + d.val); rfl)).trans rfl
/-- and head `g` of the values columns `2560 + 64 g + d`. -/
theorem v1_eq (g : Fin 8) (s : Fin 2048) (d : Fin 64) :
    vIn1 (E3 m ρ) c g s d = proj0 m ρ c (ix2 s ⟨2560 + (g.val * 64 + d.val), by omega⟩) := by
  have e : (W3 m ρ c main_v11 : (⟨3, ![8, 2048, 64]⟩ : Shape).Idx → EReal)
      = transpose S8x2048x64 [1, 0, 2] (shapeCast S2048x8x64 (extractStridedSlice S2048x512 ![0, 2560]
          (W2 m ρ c main_v2 : (⟨2, ![2048, 3072]⟩ : Shape).Idx → EReal) slices_S2048x3072_S2048x512_0_2560)
          shapeCasts_S2048x512_S2048x8x64) transposes_S2048x8x64_S8x2048x64_1_0_2 := by
    show StableHlo.after hostOps1 _ (Proc.devRef .tc main_v11) = _
    after_results
    rfl
  show (W3 m ρ c main_v11 : (⟨3, ![8, 2048, 64]⟩ : Shape).Idx → EReal) (ix3 g s d) = _
  rw [e]
  refine (transpose_apply [1, 0, 2] _ transposes_S2048x8x64_S8x2048x64_1_0_2 (ix3 g s d) (ix3 s g d) (fun b => match b with
    | ⟨0, _⟩ => rfl
    | ⟨1, _⟩ => rfl
    | ⟨2, _⟩ => rfl)).trans ?_
  refine (shapeCast_apply _ shapeCasts_S2048x512_S2048x8x64 (ix3 s g d) (ix2 s ⟨g.val * 64 + d.val, by omega⟩) ?_).trans ?_
  · rw [Shape.rowMajor_val_three, Shape.rowMajor_val_two]
    show s.val * 512 + (g.val * 64 + d.val) = (s.val * 8 + g.val) * 64 + d.val
    omega
  refine (extractStridedSlice_apply ![0, 2560] _ slices_S2048x3072_S2048x512_0_2560 (ix2 s ⟨g.val * 64 + d.val, by omega⟩)
    (ix2 s ⟨2560 + (g.val * 64 + d.val), by omega⟩) (fun a => match a with
    | ⟨0, _⟩ => by show s.val = 0 + s.val; omega
    | ⟨1, _⟩ => by show 2560 + (g.val * 64 + d.val) = 2560 + (g.val * 64 + d.val); rfl)).trans rfl
/-- The mask and the two tables with their leading unit axes dropped. -/
theorem m1_eq (q k : Fin 2048) : mIn1 (E3 m ρ) c q k = a3 m c (ix4 0 0 q k) := by
  have e : (W3 m ρ c main_v14 : (⟨2, ![2048, 2048]⟩ : Shape).Idx → EReal)
      = shapeCast S2048x2048 (W2 m ρ c main_arg3 : (⟨4, ![1, 1, 2048, 2048]⟩ : Shape).Idx → EReal) shapeCasts_S1x1x2048x2048_S2048x2048 := by
    show StableHlo.after hostOps1 _ (Proc.devRef .tc main_v14) = _
    after_results
    rfl
  have e0 : W2 m ρ c main_arg3 = m ((c.tc : Thread nD τ).loc main_arg3) :=
    (W2_of_ne m ρ c main_arg3 (by decide)).trans ((W1_of m ρ c main_arg3 (by decide)).trans rfl)
  show (W3 m ρ c main_v14 : (⟨2, ![2048, 2048]⟩ : Shape).Idx → EReal) (ix2 q k) = _
  rw [e, e0]
  refine (shapeCast_apply _ shapeCasts_S1x1x2048x2048_S2048x2048 (ix2 q k) (ix4 0 0 q k) ?_).trans rfl
  rw [Shape.rowMajor_val_four, Shape.rowMajor_val_two]
  show ((0 * 1 + 0) * 2048 + q.val) * 2048 + k.val = q.val * 2048 + k.val
  omega
theorem c1_eq (s : Fin 2048) (d : Fin 64) : cIn1 (E3 m ρ) c s d = a1 m c (ix3 0 s d) := by
  have e : (W3 m ρ c main_v12 : (⟨2, ![2048, 64]⟩ : Shape).Idx → EReal)
      = shapeCast S2048x64 (W2 m ρ c main_arg1 : (⟨3, ![1, 2048, 64]⟩ : Shape).Idx → EReal) shapeCasts_S1x2048x64_S2048x64 := by
    show StableHlo.after hostOps1 _ (Proc.devRef .tc main_v12) = _
    after_results
    rfl
  have e0 : W2 m ρ c main_arg1 = m ((c.tc : Thread nD τ).loc main_arg1) :=
    (W2_of_ne m ρ c main_arg1 (by decide)).trans ((W1_of m ρ c main_arg1 (by decide)).trans rfl)
  show (W3 m ρ c main_v12 : (⟨2, ![2048, 64]⟩ : Shape).Idx → EReal) (ix2 s d) = _
  rw [e, e0]
  refine (shapeCast_apply _ shapeCasts_S1x2048x64_S2048x64 (ix2 s d) (ix3 0 s d) ?_).trans rfl
  rw [Shape.rowMajor_val_three, Shape.rowMajor_val_two]
  show (0 * 2048 + s.val) * 64 + d.val = s.val * 64 + d.val
  omega
theorem s1_eq (s : Fin 2048) (d : Fin 64) : sIn1 (E3 m ρ) c s d = a2 m c (ix3 0 s d) := by
  have e : (W3 m ρ c main_v13 : (⟨2, ![2048, 64]⟩ : Shape).Idx → EReal)
      = shapeCast S2048x64 (W2 m ρ c main_arg2 : (⟨3, ![1, 2048, 64]⟩ : Shape).Idx → EReal) shapeCasts_S1x2048x64_S2048x64 := by
    show StableHlo.after hostOps1 _ (Proc.devRef .tc main_v13) = _
    after_results
    rfl
  have e0 : W2 m ρ c main_arg2 = m ((c.tc : Thread nD τ).loc main_arg2) :=
    (W2_of_ne m ρ c main_arg2 (by decide)).trans ((W1_of m ρ c main_arg2 (by decide)).trans rfl)
  show (W3 m ρ c main_v13 : (⟨2, ![2048, 64]⟩ : Shape).Idx → EReal) (ix2 s d) = _
  rw [e, e0]
  refine (shapeCast_apply _ shapeCasts_S1x2048x64_S2048x64 (ix2 s d) (ix3 0 s d) ?_).trans rfl
  rw [Shape.rowMajor_val_three, Shape.rowMajor_val_two]
  show (0 * 2048 + s.val) * 64 + d.val = s.val * 64 + d.val
  omega

end Cert.KernelIdeal.Hand

end
-- ==== Proof.HostK2.lean ====
/-
  The idealized kernel's host operations read at an index, second half: what the last region finds in its input arrays
  (the heads' outputs laid side by side, the output weights) and what the two results hold (the last region's output
  and the attention region's probabilities, each with a leading unit axis).
-/
import proofs.«169794_j16423954940491_1_alg».proof.Proof.HostK

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## Region 2's inputs -/

/-- The left factor is the heads' outputs side by side: column `cc` is head `cc / 64`, coordinate `cc % 64`. -/
theorem lhs2_eq (s cc : Fin 2048) : lhsIn2 (E5 m ρ) c s cc = heads1 m ρ c (ix3 (Spec.hdOf cc) s (Spec.dmOf cc)) := by
  -- the array is the heads' outputs with the head axis moved behind the token axis, then flattened over (head, coordinate)
  have e : (W5 m ρ c main_v17 : Spec.Arr2 2048 2048)
      = shapeCast S2048x2048 (transpose S2048x32x64 [1, 0, 2] (W4 m ρ c main_v15_1 : Spec.Arr3 32 2048 64) transposes_S32x2048x64_S2048x32x64_1_0_2)
          shapeCasts_S2048x32x64_S2048x2048 := by
    show StableHlo.after hostOps2 _ (Proc.devRef .tc main_v17) = _
    after_results
    rfl
  show (W5 m ρ c main_v17 : Spec.Arr2 2048 2048) (ix2 s cc) = _
  rw [e]
  -- position (s, cc) of the flat array is position (s, cc / 64, cc % 64) before flattening: 64 · (32 s + cc / 64) + cc % 64 = 2048 s + cc
  refine (shapeCast_apply _ shapeCasts_S2048x32x64_S2048x2048 (ix2 s cc) (ix3 s (Spec.hdOf cc) (Spec.dmOf cc)) ?_).trans ?_
  · rw [Shape.rowMajor_val_three, Shape.rowMajor_val_two]
    show (s.val * 32 + cc.val / 64) * 64 + cc.val % 64 = s.val * 2048 + cc.val
    omega
  -- and the exchange of the first two axes reads (head, token, coordinate)
  · exact transpose_apply [1, 0, 2] _ transposes_S32x2048x64_S2048x32x64_1_0_2 _ (ix3 (Spec.hdOf cc) s (Spec.dmOf cc))
      fun b => match b with | ⟨0, _⟩ => rfl | ⟨1, _⟩ => rfl | ⟨2, _⟩ => rfl
/-- The right factor is the output weights. -/
theorem rhs2_eq (j k : Fin 2048) : rhsIn2 (E5 m ρ) c j k = a7 m c (ix2 j k) := by
  -- no host operation and no earlier region writes the output weights: they are as launched
  have e : W5 m ρ c main_arg7 = m ((c.tc : Thread nD τ).loc main_arg7) :=
    (W5_of m ρ c main_arg7 (by decide)).trans <| (W4_of_ne m ρ c main_arg7 (by decide) (by decide)).trans <|
    (W3_of m ρ c main_arg7 (by decide)).trans <| (W2_of_ne m ρ c main_arg7 (by decide)).trans <| (W1_of m ρ c main_arg7 (by decide)).trans rfl
  exact congrFun e (ix2 j k)

/-! ## The two results -/

/-- The first result is the output projection with a leading unit axis. -/
theorem out19_eq (s j : Fin 2048) : (W7 m ρ c main_v19 : Spec.Arr3 1 2048 2048) (ix3 0 s j) = outp2 m ρ c (ix2 s j) := by
  have e : (W7 m ρ c main_v19 : Spec.Arr3 1 2048 2048)
      = broadcastInDim S1x2048x2048 ![1, 2] bcast_S2048x2048_S1x2048x2048_1_2 (W6 m ρ c main_v18 : Spec.Arr2 2048 2048) := by
    show StableHlo.after hostOps3 _ (Proc.devRef .tc main_v19) = _
    after_results
  rw [e]
  -- neither axis of the operand has size one: the read keeps both coordinates
  exact broadcastInDim_apply _ bcast_S2048x2048_S1x2048x2048_1_2 _ (ix3 0 s j) (ix2 s j) fun a => match a with
    | ⟨0, _⟩ => by show s.val = if (2048 : Nat) = 1 then 0 else s.val; rw [if_neg (by decide)]
    | ⟨1, _⟩ => by show j.val = if (2048 : Nat) = 1 then 0 else j.val; rw [if_neg (by decide)]
/-- The second result is the probabilities with a leading unit axis. -/
theorem out20_eq (h : Fin 32) (q k : Fin 2048) : (W7 m ρ c main_v20 : Spec.Arr4 1 32 2048 2048) (ix4 0 h q k) = probs1 m ρ c (ix3 h q k) := by
  have e : (W7 m ρ c main_v20 : Spec.Arr4 1 32 2048 2048)
      = broadcastInDim S1x32x2048x2048 ![1, 2, 3] bcast_S32x2048x2048_S1x32x2048x2048_1_2_3 (W6 m ρ c main_v15_0 : Spec.Arr3 32 2048 2048) := by
    show StableHlo.after hostOps3 _ (Proc.devRef .tc main_v20) = _
    after_results
  -- the last region and the host operations before it leave the probabilities as the attention region left them
  have e' : W6 m ρ c main_v15_0 = W4 m ρ c main_v15_0 :=
    (W6_of_ne m ρ c main_v15_0 (by decide)).trans (W5_of m ρ c main_v15_0 (by decide))
  rw [e, e']
  -- no axis of the operand has size one: the read keeps the three coordinates
  exact broadcastInDim_apply _ bcast_S32x2048x2048_S1x32x2048x2048_1_2_3 _ (ix4 0 h q k) (ix3 h q k) fun a => match a with
    | ⟨0, _⟩ => by show h.val = if (32 : Nat) = 1 then 0 else h.val; rw [if_neg (by decide)]
    | ⟨1, _⟩ => by show q.val = if (2048 : Nat) = 1 then 0 else q.val; rw [if_neg (by decide)]
    | ⟨2, _⟩ => by show k.val = if (2048 : Nat) = 1 then 0 else k.val; rw [if_neg (by decide)]

end Cert.KernelIdeal.Hand

end
-- ==== Proof.Val0.lean ====
/-
  Region 0 as a value: after all its grid points the output array holds, at (s, j), row s of the left array against
  row j of the right array — the sum over the 2048 contraction coordinates of the products, at the extended reals.
-/
import proofs.«169794_j16423954940491_1_alg».proof.Proof.KI.Body0
import proofs.«169794_j16423954940491_1_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two input arrays as the region finds them, by coordinates. -/
abbrev lhsArr0 (c : Dev nD) (s k : Fin 2048) : EReal := (V c main_v0 : (⟨2, ![2048, 2048]⟩ : Shape).Idx → EReal) (ix2 s k)
abbrev rhsArr0 (c : Dev nD) (j : Fin 3072) (k : Fin 2048) : EReal := (V c main_v1 : (⟨2, ![3072, 2048]⟩ : Shape).Idx → EReal) (ix2 j k)

/-! ## The product of two blocks at an index -/

/-- The left operand of the block product is read, on its row axis, at the output's row, -/
private theorem lhsAxis0_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- and on its column axis at the contraction coordinate; -/
private theorem lhsAxis0_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- the right operand, on its row axis, at the output's column, -/
private theorem rhsAxis0_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- and on its column axis at the contraction coordinate. -/
private theorem rhsAxis0_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The body's payload at (p, q): row p of the first block against row q of the second, summed over the 2048
    contraction coordinates (the narrowing to bf16 is the identity on extended reals, the accumulator is zero). -/
private theorem pay0_apply (x0 x1 : Vec Ideal S512x2048 .f32) (p q : Fin 512) :
    k0_pay1 (F := Ideal) x0 x1 (ix2 p q) = ∑ k : Fin 2048, x0 (ix2 p k) * x1 (ix2 q k) := by
  unfold k0_pay1
  refine (Ideal.matmul_constant_zero_apply dot_S512x2048_S512x2048_S512x512_1_1_0_0_n_n none _ _ (ix2 p q)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun a => Fin.ext (by
    match a with
    | ⟨0, _⟩ => exact lhsAxis0_0 _ _
    | ⟨1, _⟩ => exact (lhsAxis0_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun a => Fin.ext (by
    match a with
    | ⟨0, _⟩ => exact rhsAxis0_0 _ _
    | ⟨1, _⟩ => exact (rhsAxis0_1 _ _).trans hk)
  rw [el, er, shapeCast_self, shapeCast_self]
  rfl

/-! ## From the blocks to the array -/

private theorem zeroOff0 : (![0, 0] : Fin 2 → Nat) = fun _ => 0 := funext fun a => by fin_cases a <;> rfl

/-- The whole product, index by index: what the output array is to hold. -/
private abbrev prodArr0 (c : Dev nD) : (⟨2, ![2048, 3072]⟩ : Shape).Idx → EReal :=
  fun i => Spec.mm (lhsArr0 V c) (rhsArr0 V c) (i 0) (i 1)

/-- The printed index maps over the grid: the left factor's row block is the output's row block, the right factor's
    row block is the output's column block, neither input is cut along the contraction, and the output's block
    indices stay in their ranges. -/
private theorem blockIdx0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 5 :=
  (by decide +kernel : ∀ t : Fin grid0.N, _)

/-- Every block of the output is some point's. -/
private theorem blockOnto0 : ∀ (q0 : Fin 4) (q1 : Fin 6), ∃ t : Fin cfg0.N, win0_2.index t = ![q0.val, q1.val] :=
  (by decide +kernel : ∀ (q0 : Fin 4) (q1 : Fin 6), ∃ t : Fin grid0.N, win0_2.index t = ![q0.val, q1.val])

/-- What point t writes back is block t of the whole product. -/
private theorem flushed0_eq (c : Dev nD) (t : Fin cfg0.N) :
    (dat0 (F := Ideal) V c).flushed 2 t = ((cfg0.win 2).blk t).view.read (Elt Ideal) (prodArr0 V c) := by
  show (cfg0.win 2).cut (grid0.coords t) ((dat0 (F := Ideal) V c).after 2 t) = _
  rw [after0_2]
  unfold out0_2
  rw [View.canon_unit_zero zeroOff0]
  simp only [View.ld_unit_zero (S := S512x2048) zeroOff0]
  obtain ⟨e0, e1, e2, e3, e4, e5⟩ := blockIdx0 t
  funext j
  obtain ⟨p, q, rfl⟩ : ∃ (p q : Fin 512), j = ix2 p q := ⟨j 0, j 1, eq_ix2 j⟩
  show k0_pay1 (F := Ideal) (iblk0 V c 0 t) (iblk0 V c 1 t) (ix2 p q)
    = Spec.mm (lhsArr0 V c) (rhsArr0 V c) ((((cfg0.win 2).blk t).view.emb (ix2 p q)) 0) ((((cfg0.win 2).blk t).view.emb (ix2 p q)) 1)
  rw [pay0_apply]
  unfold Spec.mm
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 512 + 1 * q.val = win0_2.index t (1 : Fin 2) * 512 + 1 * q.val; omega
    | ⟨1, _⟩ => show win0_1.index t (1 : Fin 2) * 2048 + 1 * k.val = k.val; omega
  have hA : iblk0 V c 0 t (ix2 p k) = lhsArr0 V c ((((cfg0.win 2).blk t).view.emb (ix2 p q)) 0) k :=
    congrArg (V c main_v0 : (⟨2, ![2048, 2048]⟩ : Shape).Idx → EReal) h0
  have hB : iblk0 V c 1 t (ix2 q k) = rhsArr0 V c ((((cfg0.win 2).blk t).view.emb (ix2 p q)) 1) k :=
    congrArg (V c main_v1 : (⟨2, ![3072, 2048]⟩ : Shape).Idx → EReal) h1
  exact congrArg₂ (fun a b : EReal => a * b) hA hB

/-- An index of the array is in point t's block iff each coordinate is in the block's range on its axis. -/
private theorem mem_blk0 (t : Fin cfg0.N) (i : S2048x3072.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2).slice (win0_2.rect t)).set ↔ _
  rw [View.set_slice_whole, Rect.mem_set_unit]
  exact Iff.rfl

/-- The output's blocks tile the array: (r, j) is in the block of the point with block indices (r / 512, j / 512). -/
private theorem cover0 (i : S2048x3072.Idx) :
    ∃ t : Fin cfg0.N, (cfg0.win 2).flush t = true ∧ i ∈ ((cfg0.win 2).blk t).view.set := by
  have hi0 : (i 0).val < 2048 := (i 0).isLt
  have hi1 : (i 1).val < 3072 := (i 1).isLt
  obtain ⟨t, ht⟩ := blockOnto0 ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The output array after the region: the product of the left array with the transposed right array. -/
theorem final0 (c : Dev nD) :
    ((dat0 (F := Ideal) V c).arrAt 2 cfg0.N : (⟨2, ![2048, 3072]⟩ : Shape).Idx → EReal)
      = fun i => Spec.mm (lhsArr0 V c) (rhsArr0 V c) (i 0) (i 1) :=
  (dat0 (F := Ideal) V c).arrAt_eq_of_cover 2 (prodArr0 V c) (fun t _ => flushed0_eq V c t) (cover0)

end Cert.KernelIdeal.Hand

end
-- ==== Proof.Val1Pay.lean ====
/-
  The arithmetic of region 1's body at an index, at the extended reals: from the eight loaded blocks (a query tile of
  one head, the keys and the values of its key head, the mask rows of the tile, the two tables whole and their rows of
  the tile), the stored probabilities at (r, k) and the stored output at (r, d), as the specification's row functions.
-/
import proofs.«169794_j16423954940491_1_alg».proof.Proof.KI.Body1
import proofs.«169794_j16423954940491_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

section Aux

variable {α : Type}

/-- A vector `[a]` cast to a column `[a, 1]` reads, at `(p, q)`, the vector at `p`. -/
private theorem shapeCast_a_a1_apply {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) :=
  shapeCast_apply x h _ _ (by
    have hq : q.val = 0 := by omega
    rw [Shape.rowMajor_val_one, Shape.rowMajor_val_two]
    show p.val = p.val * 1 + q.val
    rw [hq, Nat.mul_one, Nat.add_zero])

/-- A column `[a, 1]` broadcast to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Aux

section Rot

/-- The upper half negated (spelt `0 − x`) in front of the lower half, along the 64-lane axis: rotate-half of the row. -/
private theorem rot_apply {n : ℕ} (v : (⟨2, ![n, 64]⟩ : Shape).Idx → EReal)
    (hs1 : (⟨2, ![n, 64]⟩ : Shape).Slices ![0, 32] ⟨2, ![n, 32]⟩)
    (hs0 : (⟨2, ![n, 64]⟩ : Shape).Slices ![0, 0] ⟨2, ![n, 32]⟩)
    (hc : Shape.Concatenates [(⟨2, ![n, 32]⟩ : Shape), ⟨2, ![n, 32]⟩] ⟨2, ![n, 64]⟩ 1)
    (r : Fin n) (d : Fin 64) :
    concatenate (⟨2, ![n, 64]⟩ : Shape) 1
        [⟨(⟨2, ![n, 32]⟩ : Shape), subf (F := Ideal) (φ := .f32) (broadcast ⟨2, ![n, 32]⟩ (Scalar.ofBits (F := Ideal) .f32 0x00000000#32))
            (extractStridedSlice ⟨2, ![n, 32]⟩ ![0, 32] v hs1)⟩,
         ⟨(⟨2, ![n, 32]⟩ : Shape), extractStridedSlice ⟨2, ![n, 32]⟩ ![0, 0] v hs0⟩] hc (ix2 r d)
      = Spec.rotHalf (fun d' : Fin 64 => v (ix2 r d')) d := by
  unfold Spec.rotHalf
  by_cases hd : d.val < 32
  · rw [dif_pos hd]
    refine (concatenate_pair_apply_left (t := ⟨2, ![n, 64]⟩) (s₁ := ⟨2, ![n, 32]⟩) (s₂ := ⟨2, ![n, 32]⟩) (1 : Fin 2) _ _ hc (ix2 r d) rfl (ix2 r (⟨d.val, hd⟩ : Fin 32))
      (fun b => match b with | ⟨0, _⟩ => rfl | ⟨1, _⟩ => rfl)).trans ?_
    rw [subf_apply, broadcast_apply, slice2_axis1_apply 32 v hs1 r ⟨d.val, hd⟩ ⟨d.val + 32, by omega⟩ (Nat.add_comm _ _)]
    show Ideal.ofBits .f32 0x00000000#32 - _ = _
    rw [Ideal.ofBits_zero_f32, zero_sub]
  · rw [dif_neg hd]
    refine (concatenate_pair_apply_right (t := ⟨2, ![n, 64]⟩) (s₁ := ⟨2, ![n, 32]⟩) (s₂ := ⟨2, ![n, 32]⟩) (1 : Fin 2) _ _ hc (ix2 r d) rfl rfl (ix2 r (⟨d.val - 32, by omega⟩ : Fin 32))
      (fun b hb => match b, hb with | ⟨0, _⟩, _ => rfl | ⟨1, _⟩, hb => absurd rfl hb) ?_).trans ?_
    · show d.val - 32 + 32 = d.val
      omega
    · exact slice2_axis1_apply 0 v hs0 r ⟨d.val - 32, by omega⟩ ⟨d.val - 32, by omega⟩ (Nat.zero_add _).symm

end Rot

section Reduce

/-- The lane maximum of a tile's row: `max` folded over the row from −∞. -/
private theorem rowMax_apply (src : FVec Ideal S256x2048 .f32) (hφ : FKind.Formats .f32)
    (hacc : (0xFF800000#32 : BitVec 32) = FKind.maximumf.neutral .f32 hφ) (r : Fin 256) :
    multiReduction (F := Ideal) .maximumf [1] S256 src 0xFF800000#32 reduces_S256x2048_S256 hφ hacc (ix1 r)
      = (Finset.univ : Finset (Fin 2048)).fold max Spec.negInf (fun k : Fin 2048 => src (ix2 r k)) := by
  refine (Ideal.multiReduction_maximumf_single src _ reduces_S256x2048_S256 hφ hacc (ix1 r)).trans ?_
  have e : (src ∘ reduces_S256x2048_S256.lift (ix1 r)) = (fun k : Fin 2048 => src (ix2 r k)) :=
    funext fun k => congrArg src (funext fun c => Fin.ext (match c with | ⟨0, _⟩ => rfl | ⟨1, _⟩ => rfl))
  rw [e]
  rfl

/-- The lane sum of a tile's row. -/
private theorem rowSum_apply (src : FVec Ideal S256x2048 .f32) (hφ : FKind.Formats .f32)
    (hacc : (0x00000000#32 : BitVec 32) = FKind.add.neutral .f32 hφ) (r : Fin 256) :
    multiReduction (F := Ideal) .add [1] S256 src 0x00000000#32 reduces_S256x2048_S256 hφ hacc (ix1 r)
      = ∑ k : Fin 2048, src (ix2 r k) := by
  refine (Ideal.multiReduction_add_single src _ reduces_S256x2048_S256 hφ hacc (ix1 r)).trans ?_
  exact Finset.sum_congr rfl fun k _ =>
    congrArg src (funext fun c => Fin.ext (match c with | ⟨0, _⟩ => rfl | ⟨1, _⟩ => rfl))

end Reduce

section Dots

/-! The scores' product contracts the 64-lane axis of both operands. -/
private theorem mm1_lhs0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
private theorem mm1_lhs1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
private theorem mm1_rhs0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
private theorem mm1_rhs1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The scores' product at (r, k): row `r` of the left operand against row `k` of the right. -/
private theorem mm1_apply (A : FVec Ideal S256x64 .bf16) (B : FVec Ideal S2048x64 .bf16) (r : Fin 256) (k : Fin 2048) :
    matmul dot_S256x64_S2048x64_S256x2048_1_1_0_0_n_n none A B (constant (F := Ideal) S256x2048 .f32 0x00000000#32) (ix2 r k)
      = ∑ d : Fin 64, A (ix2 r d) * B (ix2 k d) := by
  simp only [matmul]
  rw [Ideal.matmul_constant_zero_apply, ← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 r k) ((contrEquiv1 dot_S256x64_S2048x64_S256x2048_1_1_0_0_n_n 64 rfl rfl).symm d) = ix2 r d := funext fun a => Fin.ext (by
    match a with
    | ⟨0, _⟩ => exact mm1_lhs0 _ _
    | ⟨1, _⟩ => exact (mm1_lhs1 _ _).trans hk)
  have er : dot_S256x64_S2048x64_S256x2048_1_1_0_0_n_n.rhsIdx (ix2 r k) ((contrEquiv1 dot_S256x64_S2048x64_S256x2048_1_1_0_0_n_n 64 rfl rfl).symm d) = ix2 k d := funext fun a => Fin.ext (by
    match a with
    | ⟨0, _⟩ => exact mm1_rhs0 _ _
    | ⟨1, _⟩ => exact (mm1_rhs1 _ _).trans hk)
  rw [el, er]

/-! The output's product contracts the 2048 axis: the left operand's lanes against the right operand's rows. -/
private theorem mm2_lhs0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
private theorem mm2_lhs1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
private theorem mm2_rhs0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
private theorem mm2_rhs1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The output's product at (r, d): row `r` of the left operand against column `d` of the right. -/
private theorem mm2_apply (A : FVec Ideal S256x2048 .bf16) (B : FVec Ideal S2048x64 .bf16) (r : Fin 256) (d : Fin 64) :
    matmul dot_S256x2048_S2048x64_S256x64_1_0_0_1_n_n none A B (constant (F := Ideal) S256x64 .f32 0x00000000#32) (ix2 r d)
      = ∑ k : Fin 2048, A (ix2 r k) * B (ix2 k d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact mm2_lhs0 _ _
    | ⟨1, _⟩ => exact (mm2_lhs1 _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (mm2_rhs0 _ _).trans hk
    | ⟨1, _⟩ => exact mm2_rhs1 _ _)
  rw [el, er]

end Dots

section Pointwise

variable {s : Shape} {φ : FTy}

/-- An exponential at an index is the exponential of the element. -/
private theorem exp_apply (a : FVec Ideal s φ) (i : s.Idx) : exp a i = Ideal.exp (a i) := rfl

end Pointwise

section Softmax

/-- The row softmax of a tile at (r, k): the shifted exponential over the row's sum of them, the shift the row's maximum. -/
private theorem softmax_apply (T : FVec Ideal S256x2048 .f32) (hφ : FKind.Formats .f32)
    (hm : (0xFF800000#32 : BitVec 32) = FKind.maximumf.neutral .f32 hφ)
    (ha : (0x00000000#32 : BitVec 32) = FKind.add.neutral .f32 hφ) (r : Fin 256) (k : Fin 2048) :
    divf
      (exp (subf T (broadcastTo S256x2048 (shapeCast S256x1 (maximumf (broadcast S256 (Scalar.ofBits (F := Ideal) .f32 0xFF800000#32))
        (multiReduction (F := Ideal) .maximumf [1] S256 T 0xFF800000#32 reduces_S256x2048_S256 hφ hm)) shapeCasts_S256_S256x1) broadcasts_S256x1_S256x2048)))
      (broadcastTo S256x2048 (shapeCast S256x1
        (multiReduction (F := Ideal) .add [1] S256
          (exp (subf T (broadcastTo S256x2048 (shapeCast S256x1 (maximumf (broadcast S256 (Scalar.ofBits (F := Ideal) .f32 0xFF800000#32))
            (multiReduction (F := Ideal) .maximumf [1] S256 T 0xFF800000#32 reduces_S256x2048_S256 hφ hm)) shapeCasts_S256_S256x1) broadcasts_S256x1_S256x2048)))
          0x00000000#32 reduces_S256x2048_S256 hφ ha) shapeCasts_S256_S256x1) broadcasts_S256x1_S256x2048)
      (ix2 r k)
      = Spec.prob (fun k' : Fin 2048 => T (ix2 r k')) k := by
  have hmax : ∀ k' : Fin 2048,
      (broadcastTo S256x2048 (shapeCast S256x1 (maximumf (broadcast S256 (Scalar.ofBits (F := Ideal) .f32 0xFF800000#32))
        (multiReduction (F := Ideal) .maximumf [1] S256 T 0xFF800000#32 reduces_S256x2048_S256 hφ hm)) shapeCasts_S256_S256x1) broadcasts_S256x1_S256x2048)
        (ix2 r k') = Spec.rowMax (fun k'' : Fin 2048 => T (ix2 r k'')) := fun k' => by
    refine (broadcastTo_a1_ab_apply _ _ r k').trans ?_
    refine (shapeCast_a_a1_apply _ _ r 0).trans ?_
    rw [maximumf_apply, broadcast_apply, rowMax_apply]
    rfl
  have hexp : ∀ k' : Fin 2048,
      (exp (subf T (broadcastTo S256x2048 (shapeCast S256x1 (maximumf (broadcast S256 (Scalar.ofBits (F := Ideal) .f32 0xFF800000#32))
        (multiReduction (F := Ideal) .maximumf [1] S256 T 0xFF800000#32 reduces_S256x2048_S256 hφ hm)) shapeCasts_S256_S256x1) broadcasts_S256x1_S256x2048)))
        (ix2 r k') = Spec.expo (fun k'' : Fin 2048 => T (ix2 r k'')) k' := fun k' => by
    rw [exp_apply, subf_apply, hmax k']
    rfl
  rw [divf_apply, hexp k]
  refine congrArg (Ideal.div _) ?_
  refine (broadcastTo_a1_ab_apply _ _ r k).trans ?_
  refine (shapeCast_a_a1_apply _ _ r 0).trans ?_
  rw [rowSum_apply]
  exact Finset.sum_congr rfl fun k' _ => hexp k'

end Softmax

section Payloads

/-- The probabilities' tile at (r, k): the row softmax of scores plus mask. -/
private theorem pay1_apply (S : FVec Ideal S256x2048 .f32) (M : Vec Ideal S256x2048 .f32) (r : Fin 256) (k : Fin 2048) :
    k1_pay1 (F := Ideal) S M (ix2 r k) = Spec.prob (fun k' : Fin 2048 => S (ix2 r k') + M (ix2 r k')) k := by
  unfold k1_pay1
  rw [shapeCast_self]
  exact softmax_apply (addf S M) _ _ _ r k

/-- The values' block with its unit axis dropped, at (k, d). -/
private theorem pay4_apply (v4 : Vec Ideal S1x2048x64 .f32) (k : Fin 2048) (d : Fin 64) :
    k1_pay4 (F := Ideal) v4 (ix2 k d) = v4 (ix3 0 k d) := by
  unfold k1_pay4
  rw [truncf_apply]
  exact shapeCast_1ab_ab_apply v4 _ k d

/-- The output tile at (0, r, d): the probabilities' row against column `d` of the values. -/
private theorem pay3_apply (V : FVec Ideal S2048x64 .bf16) (S : FVec Ideal S256x2048 .f32) (M : Vec Ideal S256x2048 .f32)
    (r : Fin 256) (d : Fin 64) :
    k1_pay3 (F := Ideal) V S M (ix3 0 r d) = ∑ k : Fin 2048, k1_pay1 (F := Ideal) S M (ix2 r k) * V (ix2 k d) := by
  unfold k1_pay3
  refine (shapeCast_ab_1ab_apply _ _ 0 r d).trans ?_
  refine (mm2_apply _ _ r d).trans ?_
  rfl

end Payloads

section Pay

variable (x0 : Vec Ideal S1x256x64 .f32) (x1 x2 : Vec Ideal S1x2048x64 .f32) (x3 : Vec Ideal S256x2048 .f32)
  (x4 x5 : Vec Ideal S2048x64 .f32) (x6 x7 : Vec Ideal S256x64 .f32)

/-- The rotary embedding of row `r` of the query tile, with the tile's rows of the tables. -/
abbrev qRot (r : Fin 256) (d : Fin 64) : EReal :=
  (fun d' : Fin 64 => x0 (ix3 0 r d')) d * x6 (ix2 r d) + Spec.rotHalf (fun d' : Fin 64 => x0 (ix3 0 r d')) d * x7 (ix2 r d)
/-- The rotary embedding of row `k` of the keys, with the whole tables. -/
abbrev kRot (k : Fin 2048) (d : Fin 64) : EReal :=
  (fun d' : Fin 64 => x1 (ix3 0 k d')) d * x4 (ix2 k d) + Spec.rotHalf (fun d' : Fin 64 => x1 (ix3 0 k d')) d * x5 (ix2 k d)
/-- Row `r` of the tile's scores plus mask. -/
abbrev sRow (r : Fin 256) (k : Fin 2048) : EReal :=
  (∑ d : Fin 64, qRot x0 x6 x7 r d * kRot x1 x4 x5 k d) * Spec.scale + x3 (ix2 r k)

/-- The scaled scores at (r, k): the rotated query row against the rotated key row, times the scale. -/
private theorem pay5_apply (v0 : Vec Ideal S1x256x64 .f32) (v2 : Vec Ideal S1x2048x64 .f32) (v6 v8 : Vec Ideal S256x64 .f32)
    (v10 v12 : Vec Ideal S2048x64 .f32) (r : Fin 256) (k : Fin 2048) :
    k1_pay5 (F := Ideal) v0 v2 v6 v8 v10 v12 (ix2 r k)
      = (∑ d : Fin 64, qRot v0 v6 v8 r d * kRot v2 v10 v12 k d) * Spec.scale := by
  unfold k1_pay5
  simp only [shapeCast_self]
  rw [mulf_apply, broadcast_apply]
  refine congrArg₂ (· * ·) ?_ rfl
  refine (mm1_apply _ _ r k).trans ?_
  refine Finset.sum_congr rfl fun d _ => ?_
  refine congrArg₂ (· * ·) ?_ ?_
  · rw [truncf_apply, addf_apply, mulf_apply, mulf_apply, rot_apply, shapeCast_1ab_ab_apply]
    simp only [shapeCast_1ab_ab_apply]
  · rw [truncf_apply, addf_apply, mulf_apply, mulf_apply, rot_apply, shapeCast_1ab_ab_apply]
    simp only [shapeCast_1ab_ab_apply]

/-- The zero offsets of a whole block, of rank 3 and of rank 2, as constant functions. -/
private theorem zero3 : (![0, 0, 0] : Fin 3 → Nat) = fun _ => 0 := by
  funext a; match a with | ⟨0, _⟩ => rfl | ⟨1, _⟩ => rfl | ⟨2, _⟩ => rfl
private theorem zero2 : (![0, 0] : Fin 2 → Nat) = fun _ => 0 := by
  funext a; match a with | ⟨0, _⟩ => rfl | ⟨1, _⟩ => rfl

/-- The tile's scaled scores are the score row without its mask. -/
private theorem scores1_apply (r : Fin 256) (k : Fin 2048) :
    scores1 (F := Ideal) x0 x1 x2 x3 x4 x5 x6 x7 (ix2 r k)
      = (∑ d : Fin 64, qRot x0 x6 x7 r d * kRot x1 x4 x5 k d) * Spec.scale := by
  have e0 : View.ld x0 r_S1x256x64 = x0 := View.ld_unit_zero zero3 _ x0
  have e1 : View.ld x1 r_S1x2048x64 = x1 := View.ld_unit_zero zero3 _ x1
  have e4 : View.ld x4 r_S2048x64 = x4 := View.ld_unit_zero zero2 _ x4
  have e5 : View.ld x5 r_S2048x64 = x5 := View.ld_unit_zero zero2 _ x5
  have e6 : View.ld x6 r_S256x64 = x6 := View.ld_unit_zero zero2 _ x6
  have e7 : View.ld x7 r_S256x64 = x7 := View.ld_unit_zero zero2 _ x7
  show k1_pay5 (F := Ideal) (View.ld x0 r_S1x256x64) (View.ld x1 r_S1x2048x64) (View.ld x6 r_S256x64) (View.ld x7 r_S256x64)
    (View.ld x4 r_S2048x64) (View.ld x5 r_S2048x64) (ix2 r k) = _
  rw [e0, e1, e4, e5, e6, e7]
  exact pay5_apply x0 x1 x6 x7 x4 x5 r k

/-- The stored probabilities' block at (0, r, k): the row softmax of the tile's scores plus mask. -/
theorem out1_8_apply (r : Fin 256) (k : Fin 2048) :
    out1_8 (F := Ideal) x0 x1 x2 x3 x4 x5 x6 x7 (ix3 0 r k) = Spec.prob (sRow x0 x1 x3 x4 x5 x6 x7 r) k := by
  unfold out1_8
  rw [View.canon_unit_zero zero3]
  unfold k1_pay2
  refine (shapeCast_ab_1ab_apply _ _ 0 r k).trans ?_
  rw [pay1_apply, View.ld_unit_zero (S := S256x2048) zero2]
  refine congrArg (fun R : Fin 2048 → EReal => Spec.prob R k) (funext fun k' => ?_)
  rw [scores1_apply]

/-- The stored output block at (0, r, d): the probabilities' row against column `d` of the values. -/
theorem out1_9_apply (r : Fin 256) (d : Fin 64) :
    out1_9 (F := Ideal) x0 x1 x2 x3 x4 x5 x6 x7 (ix3 0 r d)
      = ∑ k : Fin 2048, Spec.prob (sRow x0 x1 x3 x4 x5 x6 x7 r) k * x2 (ix3 0 k d) := by
  unfold out1_9
  rw [View.canon_unit_zero zero3, pay3_apply]
  refine Finset.sum_congr rfl fun k _ => ?_
  rw [pay1_apply, pay4_apply, View.ld_unit_zero (S := S256x2048) zero2, View.ld_unit_zero (S := S1x2048x64) zero3]
  refine congrArg (fun R : Fin 2048 → EReal => Spec.prob R k * x2 (ix3 0 k d)) (funext fun k' => ?_)
  rw [scores1_apply]

end Pay

end Cert.KernelIdeal.Hand

end
-- ==== Proof.Val1.lean ====
/-
  Region 1 as a value: after all its grid points the first output array holds the attention probabilities of every
  head and query, and the second the probabilities' product with the head's values — both as functions of the
  region's six input arrays read by coordinates.
-/
import proofs.«169794_j16423954940491_1_alg».proof.Proof.KI.Body1
import proofs.«169794_j16423954940491_1_alg».proof.Proof.Val1Pay
import proofs.«169794_j16423954940491_1_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's input arrays as it finds them, by coordinates: queries, keys, values by head; mask; the two tables. -/
abbrev qArr1 (c : Dev nD) (h : Fin 32) (s : Fin 2048) (d : Fin 64) : EReal := (V c main_v7 : (⟨3, ![32, 2048, 64]⟩ : Shape).Idx → EReal) (ix3 h s d)
abbrev kArr1 (c : Dev nD) (g : Fin 8) (s : Fin 2048) (d : Fin 64) : EReal := (V c main_v9 : (⟨3, ![8, 2048, 64]⟩ : Shape).Idx → EReal) (ix3 g s d)
abbrev vArr1 (c : Dev nD) (g : Fin 8) (s : Fin 2048) (d : Fin 64) : EReal := (V c main_v11 : (⟨3, ![8, 2048, 64]⟩ : Shape).Idx → EReal) (ix3 g s d)
abbrev mArr1 (c : Dev nD) (q k : Fin 2048) : EReal := (V c main_v14 : (⟨2, ![2048, 2048]⟩ : Shape).Idx → EReal) (ix2 q k)
abbrev cArr1 (c : Dev nD) (s : Fin 2048) (d : Fin 64) : EReal := (V c main_v12 : (⟨2, ![2048, 64]⟩ : Shape).Idx → EReal) (ix2 s d)
abbrev sArr1 (c : Dev nD) (s : Fin 2048) (d : Fin 64) : EReal := (V c main_v13 : (⟨2, ![2048, 64]⟩ : Shape).Idx → EReal) (ix2 s d)

/-! ## The grid point's head and query tile, and the windows' block indices there -/

/-- The region runs 256 points. -/
private theorem N1 : cfg1.N = 256 := by decide

/-- The head of grid point `t` (the fast coordinate). -/
private abbrev hd1 (t : Fin cfg1.N) : Fin 32 := ⟨t.val % 32, Nat.mod_lt _ (by decide)⟩
/-- The array's row that row `r` of point `t`'s query tile is: the tile is the slow coordinate. -/
private abbrev row1 (t : Fin cfg1.N) (r : Fin 256) : Fin 2048 :=
  ⟨t.val / 32 * 256 + r.val, by have h := lt_of_lt_of_eq t.isLt N1; have := r.isLt; omega⟩

/-- The query window's block index: (head, tile, 0). -/
private theorem idx1_0 : ∀ t : Fin cfg1.N,
    win1_0.index t (0 : Fin 3) = t.val % 32 ∧ win1_0.index t (1 : Fin 3) = t.val / 32 ∧ win1_0.index t (2 : Fin 3) = 0 :=
  (by decide +kernel : ∀ t : Fin grid1.N, _)
/-- The key window's: (head / 4, 0, 0). -/
private theorem idx1_1 : ∀ t : Fin cfg1.N,
    win1_1.index t (0 : Fin 3) = t.val % 32 / 4 ∧ win1_1.index t (1 : Fin 3) = 0 ∧ win1_1.index t (2 : Fin 3) = 0 :=
  (by decide +kernel : ∀ t : Fin grid1.N, _)
/-- The value window's: (head / 4, 0, 0). -/
private theorem idx1_2 : ∀ t : Fin cfg1.N,
    win1_2.index t (0 : Fin 3) = t.val % 32 / 4 ∧ win1_2.index t (1 : Fin 3) = 0 ∧ win1_2.index t (2 : Fin 3) = 0 :=
  (by decide +kernel : ∀ t : Fin grid1.N, _)
/-- The mask window's: (tile, 0). -/
private theorem idx1_3 : ∀ t : Fin cfg1.N, win1_3.index t (0 : Fin 2) = t.val / 32 ∧ win1_3.index t (1 : Fin 2) = 0 :=
  (by decide +kernel : ∀ t : Fin grid1.N, _)
/-- The whole-table windows': (0, 0). -/
private theorem idx1_4 : ∀ t : Fin cfg1.N, win1_4.index t (0 : Fin 2) = 0 ∧ win1_4.index t (1 : Fin 2) = 0 :=
  (by decide +kernel : ∀ t : Fin grid1.N, _)
private theorem idx1_5 : ∀ t : Fin cfg1.N, win1_5.index t (0 : Fin 2) = 0 ∧ win1_5.index t (1 : Fin 2) = 0 :=
  (by decide +kernel : ∀ t : Fin grid1.N, _)
/-- The tile's table windows': (tile, 0). -/
private theorem idx1_6 : ∀ t : Fin cfg1.N, win1_6.index t (0 : Fin 2) = t.val / 32 ∧ win1_6.index t (1 : Fin 2) = 0 :=
  (by decide +kernel : ∀ t : Fin grid1.N, _)
private theorem idx1_7 : ∀ t : Fin cfg1.N, win1_7.index t (0 : Fin 2) = t.val / 32 ∧ win1_7.index t (1 : Fin 2) = 0 :=
  (by decide +kernel : ∀ t : Fin grid1.N, _)
/-- The two output windows': (head, tile, 0). -/
private theorem idx1_8 : ∀ t : Fin cfg1.N,
    win1_8.index t (0 : Fin 3) = t.val % 32 ∧ win1_8.index t (1 : Fin 3) = t.val / 32 ∧ win1_8.index t (2 : Fin 3) = 0 :=
  (by decide +kernel : ∀ t : Fin grid1.N, _)
private theorem idx1_9 : ∀ t : Fin cfg1.N,
    win1_9.index t (0 : Fin 3) = t.val % 32 ∧ win1_9.index t (1 : Fin 3) = t.val / 32 ∧ win1_9.index t (2 : Fin 3) = 0 :=
  (by decide +kernel : ∀ t : Fin grid1.N, _)

/-! ## Each input block, read inside, is its array at the block's place -/

/-- The query tile of point `t`: head `t % 32`, rows `256 (t / 32) + r`. -/
private theorem blk1_0 (c : Dev nD) (t : Fin cfg1.N) (r : Fin 256) (d : Fin 64) :
    (iblk1 V c 0 t : Vec Ideal S1x256x64 .f32) (ix3 0 r d) = qArr1 V c (hd1 t) (row1 t r) d := by
  obtain ⟨e0, e1, e2⟩ := idx1_0 t
  unfold iblk1
  rw [View.read_apply]
  show V c main_v7 _ = V c main_v7 _
  congr 1
  funext a
  apply Fin.ext
  match a with
  | ⟨0, _⟩ => show win1_0.index t (0 : Fin 3) * 1 + 1 * (0 : Fin 1).val = t.val % 32; rw [e0]; simp
  | ⟨1, _⟩ => show win1_0.index t (1 : Fin 3) * 256 + 1 * r.val = t.val / 32 * 256 + r.val; rw [e1]; omega
  | ⟨2, _⟩ => show win1_0.index t (2 : Fin 3) * 64 + 1 * d.val = d.val; rw [e2]; omega

/-- The keys of point `t`: all rows of key head `(t % 32) / 4`. -/
private theorem blk1_1 (c : Dev nD) (t : Fin cfg1.N) (k : Fin 2048) (d : Fin 64) :
    (iblk1 V c 1 t : Vec Ideal S1x2048x64 .f32) (ix3 0 k d) = kArr1 V c (Spec.kvOf (hd1 t)) k d := by
  obtain ⟨e0, e1, e2⟩ := idx1_1 t
  unfold iblk1
  rw [View.read_apply]
  show V c main_v9 _ = V c main_v9 _
  congr 1
  funext a
  apply Fin.ext
  match a with
  | ⟨0, _⟩ => show win1_1.index t (0 : Fin 3) * 1 + 1 * (0 : Fin 1).val = t.val % 32 / 4; rw [e0]; simp
  | ⟨1, _⟩ => show win1_1.index t (1 : Fin 3) * 2048 + 1 * k.val = k.val; rw [e1]; omega
  | ⟨2, _⟩ => show win1_1.index t (2 : Fin 3) * 64 + 1 * d.val = d.val; rw [e2]; omega

/-- The values of point `t`: all rows of the same key head. -/
private theorem blk1_2 (c : Dev nD) (t : Fin cfg1.N) (k : Fin 2048) (d : Fin 64) :
    (iblk1 V c 2 t : Vec Ideal S1x2048x64 .f32) (ix3 0 k d) = vArr1 V c (Spec.kvOf (hd1 t)) k d := by
  obtain ⟨e0, e1, e2⟩ := idx1_2 t
  unfold iblk1
  rw [View.read_apply]
  show V c main_v11 _ = V c main_v11 _
  congr 1
  funext a
  apply Fin.ext
  match a with
  | ⟨0, _⟩ => show win1_2.index t (0 : Fin 3) * 1 + 1 * (0 : Fin 1).val = t.val % 32 / 4; rw [e0]; simp
  | ⟨1, _⟩ => show win1_2.index t (1 : Fin 3) * 2048 + 1 * k.val = k.val; rw [e1]; omega
  | ⟨2, _⟩ => show win1_2.index t (2 : Fin 3) * 64 + 1 * d.val = d.val; rw [e2]; omega

/-- The mask rows of point `t`'s tile. -/
private theorem blk1_3 (c : Dev nD) (t : Fin cfg1.N) (r : Fin 256) (k : Fin 2048) :
    (iblk1 V c 3 t : Vec Ideal S256x2048 .f32) (ix2 r k) = mArr1 V c (row1 t r) k := by
  obtain ⟨e0, e1⟩ := idx1_3 t
  unfold iblk1
  rw [View.read_apply]
  show V c main_v14 _ = V c main_v14 _
  congr 1
  funext a
  apply Fin.ext
  match a with
  | ⟨0, _⟩ => show win1_3.index t (0 : Fin 2) * 256 + 1 * r.val = t.val / 32 * 256 + r.val; rw [e0]; omega
  | ⟨1, _⟩ => show win1_3.index t (1 : Fin 2) * 2048 + 1 * k.val = k.val; rw [e1]; omega

/-- The cosine table, whole. -/
private theorem blk1_4 (c : Dev nD) (t : Fin cfg1.N) (k : Fin 2048) (d : Fin 64) :
    (iblk1 V c 4 t : Vec Ideal S2048x64 .f32) (ix2 k d) = cArr1 V c k d := by
  obtain ⟨e0, e1⟩ := idx1_4 t
  unfold iblk1
  rw [View.read_apply]
  show V c main_v12 _ = V c main_v12 _
  congr 1
  funext a
  apply Fin.ext
  match a with
  | ⟨0, _⟩ => show win1_4.index t (0 : Fin 2) * 2048 + 1 * k.val = k.val; rw [e0]; omega
  | ⟨1, _⟩ => show win1_4.index t (1 : Fin 2) * 64 + 1 * d.val = d.val; rw [e1]; omega

/-- The sine table, whole. -/
private theorem blk1_5 (c : Dev nD) (t : Fin cfg1.N) (k : Fin 2048) (d : Fin 64) :
    (iblk1 V c 5 t : Vec Ideal S2048x64 .f32) (ix2 k d) = sArr1 V c k d := by
  obtain ⟨e0, e1⟩ := idx1_5 t
  unfold iblk1
  rw [View.read_apply]
  show V c main_v13 _ = V c main_v13 _
  congr 1
  funext a
  apply Fin.ext
  match a with
  | ⟨0, _⟩ => show win1_5.index t (0 : Fin 2) * 2048 + 1 * k.val = k.val; rw [e0]; omega
  | ⟨1, _⟩ => show win1_5.index t (1 : Fin 2) * 64 + 1 * d.val = d.val; rw [e1]; omega

/-- The cosine table's rows of point `t`'s tile. -/
private theorem blk1_6 (c : Dev nD) (t : Fin cfg1.N) (r : Fin 256) (d : Fin 64) :
    (iblk1 V c 6 t : Vec Ideal S256x64 .f32) (ix2 r d) = cArr1 V c (row1 t r) d := by
  obtain ⟨e0, e1⟩ := idx1_6 t
  unfold iblk1
  rw [View.read_apply]
  show V c main_v12 _ = V c main_v12 _
  congr 1
  funext a
  apply Fin.ext
  match a with
  | ⟨0, _⟩ => show win1_6.index t (0 : Fin 2) * 256 + 1 * r.val = t.val / 32 * 256 + r.val; rw [e0]; omega
  | ⟨1, _⟩ => show win1_6.index t (1 : Fin 2) * 64 + 1 * d.val = d.val; rw [e1]; omega

/-- The sine table's rows of point `t`'s tile. -/
private theorem blk1_7 (c : Dev nD) (t : Fin cfg1.N) (r : Fin 256) (d : Fin 64) :
    (iblk1 V c 7 t : Vec Ideal S256x64 .f32) (ix2 r d) = sArr1 V c (row1 t r) d := by
  obtain ⟨e0, e1⟩ := idx1_7 t
  unfold iblk1
  rw [View.read_apply]
  show V c main_v13 _ = V c main_v13 _
  congr 1
  funext a
  apply Fin.ext
  match a with
  | ⟨0, _⟩ => show win1_7.index t (0 : Fin 2) * 256 + 1 * r.val = t.val / 32 * 256 + r.val; rw [e0]; omega
  | ⟨1, _⟩ => show win1_7.index t (1 : Fin 2) * 64 + 1 * d.val = d.val; rw [e1]; omega

/-! ## The body's two results at a point whose blocks are pieces of arrays given by coordinates -/

section Point

variable (x0 : Vec Ideal S1x256x64 .f32) (x1 x2 : Vec Ideal S1x2048x64 .f32) (x3 : Vec Ideal S256x2048 .f32)
  (x4 x5 : Vec Ideal S2048x64 .f32) (x6 x7 : Vec Ideal S256x64 .f32)
  (Q : Fin 32 → Fin 2048 → Fin 64 → EReal) (K Vv : Fin 8 → Fin 2048 → Fin 64 → EReal) (cs sn : Fin 2048 → Fin 64 → EReal)
  (mq : Fin 2048 → Fin 2048 → EReal) (h : Fin 32) (row : Fin 256 → Fin 2048)

/-- The tile's score row `r` is the specification's score row of head `h` at the array's row. -/
private theorem sRow_eq_scoreOf
    (h0 : ∀ r d, x0 (ix3 0 r d) = Q h (row r) d) (h1 : ∀ k d, x1 (ix3 0 k d) = K (Spec.kvOf h) k d)
    (h3 : ∀ r k, x3 (ix2 r k) = mq (row r) k) (h4 : ∀ k d, x4 (ix2 k d) = cs k d) (h5 : ∀ k d, x5 (ix2 k d) = sn k d)
    (h6 : ∀ r d, x6 (ix2 r d) = cs (row r) d) (h7 : ∀ r d, x7 (ix2 r d) = sn (row r) d) (r : Fin 256) :
    sRow x0 x1 x3 x4 x5 x6 x7 r = Spec.scoreOf Q K cs sn mq h (row r) := by
  funext k
  simp only [sRow, qRot, kRot, Spec.scoreOf, Spec.rope, h0, h1, h3, h4, h5, h6, h7]

/-- The stored probabilities are the specification's. -/
private theorem point1_8
    (h0 : ∀ r d, x0 (ix3 0 r d) = Q h (row r) d) (h1 : ∀ k d, x1 (ix3 0 k d) = K (Spec.kvOf h) k d)
    (h3 : ∀ r k, x3 (ix2 r k) = mq (row r) k) (h4 : ∀ k d, x4 (ix2 k d) = cs k d) (h5 : ∀ k d, x5 (ix2 k d) = sn k d)
    (h6 : ∀ r d, x6 (ix2 r d) = cs (row r) d) (h7 : ∀ r d, x7 (ix2 r d) = sn (row r) d) (r : Fin 256) (k : Fin 2048) :
    out1_8 (F := Ideal) x0 x1 x2 x3 x4 x5 x6 x7 (ix3 0 r k) = Spec.probOf Q K cs sn mq h (row r) k := by
  rw [out1_8_apply, sRow_eq_scoreOf x0 x1 x3 x4 x5 x6 x7 Q K cs sn mq h row h0 h1 h3 h4 h5 h6 h7 r]
  rfl

/-- The stored output is the specification's. -/
private theorem point1_9
    (h0 : ∀ r d, x0 (ix3 0 r d) = Q h (row r) d) (h1 : ∀ k d, x1 (ix3 0 k d) = K (Spec.kvOf h) k d)
    (h2 : ∀ k d, x2 (ix3 0 k d) = Vv (Spec.kvOf h) k d)
    (h3 : ∀ r k, x3 (ix2 r k) = mq (row r) k) (h4 : ∀ k d, x4 (ix2 k d) = cs k d) (h5 : ∀ k d, x5 (ix2 k d) = sn k d)
    (h6 : ∀ r d, x6 (ix2 r d) = cs (row r) d) (h7 : ∀ r d, x7 (ix2 r d) = sn (row r) d) (r : Fin 256) (d : Fin 64) :
    out1_9 (F := Ideal) x0 x1 x2 x3 x4 x5 x6 x7 (ix3 0 r d) = Spec.attnOf Q K Vv cs sn mq h (row r) d := by
  rw [out1_9_apply, sRow_eq_scoreOf x0 x1 x3 x4 x5 x6 x7 Q K cs sn mq h row h0 h1 h3 h4 h5 h6 h7 r]
  simp only [Spec.attnOf, Spec.probOf, h2]

end Point

/-! ## What each point writes back is its block of one function of the arrays -/

/-- The probabilities as one array of the six input arrays, and the outputs. -/
private abbrev G1_8 (c : Dev nD) : (⟨3, ![32, 2048, 2048]⟩ : Shape).Idx → EReal :=
  fun i => Spec.probOf (qArr1 V c) (kArr1 V c) (cArr1 V c) (sArr1 V c) (mArr1 V c) (i 0) (i 1) (i 2)
private abbrev G1_9 (c : Dev nD) : (⟨3, ![32, 2048, 64]⟩ : Shape).Idx → EReal :=
  fun i => Spec.attnOf (qArr1 V c) (kArr1 V c) (vArr1 V c) (cArr1 V c) (sArr1 V c) (mArr1 V c) (i 0) (i 1) (i 2)

/-- Where (0, r, k) of point `t`'s probabilities block sits in the array. -/
private theorem emb1_8 (t : Fin cfg1.N) (r : Fin 256) (k : Fin 2048) :
    ((cfg1.win 8).blk t).view.emb (ix3 0 r k) = (ix3 (hd1 t) (row1 t r) k : (⟨3, ![32, 2048, 2048]⟩ : Shape).Idx) := by
  obtain ⟨e0, e1, e2⟩ := idx1_8 t
  funext a
  apply Fin.ext
  match a with
  | ⟨0, _⟩ => show win1_8.index t (0 : Fin 3) * 1 + 1 * (0 : Fin 1).val = t.val % 32; rw [e0]; simp
  | ⟨1, _⟩ => show win1_8.index t (1 : Fin 3) * 256 + 1 * r.val = t.val / 32 * 256 + r.val; rw [e1]; omega
  | ⟨2, _⟩ => show win1_8.index t (2 : Fin 3) * 2048 + 1 * k.val = k.val; rw [e2]; omega

/-- Where (0, r, d) of point `t`'s output block sits in the array. -/
private theorem emb1_9 (t : Fin cfg1.N) (r : Fin 256) (d : Fin 64) :
    ((cfg1.win 9).blk t).view.emb (ix3 0 r d) = (ix3 (hd1 t) (row1 t r) d : (⟨3, ![32, 2048, 64]⟩ : Shape).Idx) := by
  obtain ⟨e0, e1, e2⟩ := idx1_9 t
  funext a
  apply Fin.ext
  match a with
  | ⟨0, _⟩ => show win1_9.index t (0 : Fin 3) * 1 + 1 * (0 : Fin 1).val = t.val % 32; rw [e0]; simp
  | ⟨1, _⟩ => show win1_9.index t (1 : Fin 3) * 256 + 1 * r.val = t.val / 32 * 256 + r.val; rw [e1]; omega
  | ⟨2, _⟩ => show win1_9.index t (2 : Fin 3) * 64 + 1 * d.val = d.val; rw [e2]; omega

/-- Point `t` writes back its block of the probabilities' array. -/
private theorem flushed1_8 (c : Dev nD) (t : Fin cfg1.N) :
    (dat1 (F := Ideal) V c).flushed 8 t = ((cfg1.win 8).blk t).view.read (Elt Ideal) (G1_8 V c) := by
  show (cfg1.win 8).cut (grid1.coords t) ((dat1 V c).after 8 t) = _
  rw [after1_8]
  refine funext fun (j : (⟨3, ![1, 256, 2048]⟩ : Shape).Idx) => ?_
  obtain ⟨a, r, k, rfl⟩ : ∃ (a : Fin 1) (r : Fin 256) (k : Fin 2048), j = ix3 a r k := ⟨j 0, j 1, j 2, eq_ix3 j⟩
  obtain rfl : a = 0 := Subsingleton.elim _ _
  show out1_8 (F := Ideal) (iblk1 V c 0 t) (iblk1 V c 1 t) (iblk1 V c 2 t) (iblk1 V c 3 t) (iblk1 V c 4 t) (iblk1 V c 5 t) (iblk1 V c 6 t) (iblk1 V c 7 t) (ix3 0 r k)
    = G1_8 V c (((cfg1.win 8).blk t).view.emb (ix3 0 r k))
  rw [emb1_8]
  exact point1_8 (iblk1 V c 0 t) (iblk1 V c 1 t) (iblk1 V c 2 t) (iblk1 V c 3 t) (iblk1 V c 4 t) (iblk1 V c 5 t) (iblk1 V c 6 t) (iblk1 V c 7 t)
    (qArr1 V c) (kArr1 V c) (cArr1 V c) (sArr1 V c) (mArr1 V c) (hd1 t) (row1 t)
    (fun r d => blk1_0 V c t r d) (fun k d => blk1_1 V c t k d) (fun r k => blk1_3 V c t r k) (fun k d => blk1_4 V c t k d)
    (fun k d => blk1_5 V c t k d) (fun r d => blk1_6 V c t r d) (fun r d => blk1_7 V c t r d) r k

/-- Point `t` writes back its block of the outputs' array. -/
private theorem flushed1_9 (c : Dev nD) (t : Fin cfg1.N) :
    (dat1 (F := Ideal) V c).flushed 9 t = ((cfg1.win 9).blk t).view.read (Elt Ideal) (G1_9 V c) := by
  show (cfg1.win 9).cut (grid1.coords t) ((dat1 V c).after 9 t) = _
  rw [after1_9]
  refine funext fun (j : (⟨3, ![1, 256, 64]⟩ : Shape).Idx) => ?_
  obtain ⟨a, r, d, rfl⟩ : ∃ (a : Fin 1) (r : Fin 256) (d : Fin 64), j = ix3 a r d := ⟨j 0, j 1, j 2, eq_ix3 j⟩
  obtain rfl : a = 0 := Subsingleton.elim _ _
  show out1_9 (F := Ideal) (iblk1 V c 0 t) (iblk1 V c 1 t) (iblk1 V c 2 t) (iblk1 V c 3 t) (iblk1 V c 4 t) (iblk1 V c 5 t) (iblk1 V c 6 t) (iblk1 V c 7 t) (ix3 0 r d)
    = G1_9 V c (((cfg1.win 9).blk t).view.emb (ix3 0 r d))
  rw [emb1_9]
  exact point1_9 (iblk1 V c 0 t) (iblk1 V c 1 t) (iblk1 V c 2 t) (iblk1 V c 3 t) (iblk1 V c 4 t) (iblk1 V c 5 t) (iblk1 V c 6 t) (iblk1 V c 7 t)
    (qArr1 V c) (kArr1 V c) (vArr1 V c) (cArr1 V c) (sArr1 V c) (mArr1 V c) (hd1 t) (row1 t)
    (fun r d => blk1_0 V c t r d) (fun k d => blk1_1 V c t k d) (fun k d => blk1_2 V c t k d) (fun r k => blk1_3 V c t r k)
    (fun k d => blk1_4 V c t k d) (fun k d => blk1_5 V c t k d) (fun r d => blk1_6 V c t r d) (fun r d => blk1_7 V c t r d) r d

/-! ## The blocks cover the arrays -/

/-- An index is in point `t`'s probabilities block iff each coordinate is in the block's range. -/
private theorem mem_blk1_8 (t : Fin cfg1.N) (i : (⟨3, ![32, 2048, 2048]⟩ : Shape).Idx) :
    i ∈ ((cfg1.win 8).blk t).view.set ↔ ∀ a : Fin 3, win1_8.index t a * S1x256x2048.size a ≤ (i a).val
      ∧ (i a).val < win1_8.index t a * S1x256x2048.size a + S1x256x2048.size a := by
  show i ∈ ((View.whole main_v15_0).slice (win1_8.rect t)).set ↔ _
  rw [View.set_slice_whole, Rect.mem_set_unit]
  exact Iff.rfl

/-- An index is in point `t`'s output block iff each coordinate is in the block's range. -/
private theorem mem_blk1_9 (t : Fin cfg1.N) (i : (⟨3, ![32, 2048, 64]⟩ : Shape).Idx) :
    i ∈ ((cfg1.win 9).blk t).view.set ↔ ∀ a : Fin 3, win1_9.index t a * S1x256x64.size a ≤ (i a).val
      ∧ (i a).val < win1_9.index t a * S1x256x64.size a + S1x256x64.size a := by
  show i ∈ ((View.whole main_v15_1).slice (win1_9.rect t)).set ↔ _
  rw [View.set_slice_whole, Rect.mem_set_unit]
  exact Iff.rfl

/-- Head `h`, row `s` is written by the point of tile `s / 256` and head `h`. -/
private theorem covered1_8 (i : (⟨3, ![32, 2048, 2048]⟩ : Shape).Idx) :
    ∃ t : Fin cfg1.N, (cfg1.win 8).flush t = true ∧ i ∈ ((cfg1.win 8).blk t).view.set := by
  have h0 : (i 0).val < 32 := (i 0).isLt
  have h1 : (i 1).val < 2048 := (i 1).isLt
  have h2 : (i 2).val < 2048 := (i 2).isLt
  have ht : (i 1).val / 256 * 32 + (i 0).val < cfg1.N := by rw [N1]; omega
  obtain ⟨e0, e1, e2⟩ := idx1_8 ⟨(i 1).val / 256 * 32 + (i 0).val, ht⟩
  refine ⟨⟨(i 1).val / 256 * 32 + (i 0).val, ht⟩, flush1_8 _, ?_⟩
  rw [mem_blk1_8]
  intro a
  match a with
  | ⟨0, _⟩ =>
    show win1_8.index ⟨(i 1).val / 256 * 32 + (i 0).val, ht⟩ (0 : Fin 3) * 1 ≤ (i 0).val
      ∧ (i 0).val < win1_8.index ⟨(i 1).val / 256 * 32 + (i 0).val, ht⟩ (0 : Fin 3) * 1 + 1
    rw [e0]; show ((i 1).val / 256 * 32 + (i 0).val) % 32 * 1 ≤ (i 0).val ∧ (i 0).val < ((i 1).val / 256 * 32 + (i 0).val) % 32 * 1 + 1; omega
  | ⟨1, _⟩ =>
    show win1_8.index ⟨(i 1).val / 256 * 32 + (i 0).val, ht⟩ (1 : Fin 3) * 256 ≤ (i 1).val
      ∧ (i 1).val < win1_8.index ⟨(i 1).val / 256 * 32 + (i 0).val, ht⟩ (1 : Fin 3) * 256 + 256
    rw [e1]; show ((i 1).val / 256 * 32 + (i 0).val) / 32 * 256 ≤ (i 1).val ∧ (i 1).val < ((i 1).val / 256 * 32 + (i 0).val) / 32 * 256 + 256; omega
  | ⟨2, _⟩ =>
    show win1_8.index ⟨(i 1).val / 256 * 32 + (i 0).val, ht⟩ (2 : Fin 3) * 2048 ≤ (i 2).val
      ∧ (i 2).val < win1_8.index ⟨(i 1).val / 256 * 32 + (i 0).val, ht⟩ (2 : Fin 3) * 2048 + 2048
    rw [e2]; omega

private theorem covered1_9 (i : (⟨3, ![32, 2048, 64]⟩ : Shape).Idx) :
    ∃ t : Fin cfg1.N, (cfg1.win 9).flush t = true ∧ i ∈ ((cfg1.win 9).blk t).view.set := by
  have h0 : (i 0).val < 32 := (i 0).isLt
  have h1 : (i 1).val < 2048 := (i 1).isLt
  have h2 : (i 2).val < 64 := (i 2).isLt
  have ht : (i 1).val / 256 * 32 + (i 0).val < cfg1.N := by rw [N1]; omega
  obtain ⟨e0, e1, e2⟩ := idx1_9 ⟨(i 1).val / 256 * 32 + (i 0).val, ht⟩
  refine ⟨⟨(i 1).val / 256 * 32 + (i 0).val, ht⟩, flush1_9 _, ?_⟩
  rw [mem_blk1_9]
  intro a
  match a with
  | ⟨0, _⟩ =>
    show win1_9.index ⟨(i 1).val / 256 * 32 + (i 0).val, ht⟩ (0 : Fin 3) * 1 ≤ (i 0).val
      ∧ (i 0).val < win1_9.index ⟨(i 1).val / 256 * 32 + (i 0).val, ht⟩ (0 : Fin 3) * 1 + 1
    rw [e0]; show ((i 1).val / 256 * 32 + (i 0).val) % 32 * 1 ≤ (i 0).val ∧ (i 0).val < ((i 1).val / 256 * 32 + (i 0).val) % 32 * 1 + 1; omega
  | ⟨1, _⟩ =>
    show win1_9.index ⟨(i 1).val / 256 * 32 + (i 0).val, ht⟩ (1 : Fin 3) * 256 ≤ (i 1).val
      ∧ (i 1).val < win1_9.index ⟨(i 1).val / 256 * 32 + (i 0).val, ht⟩ (1 : Fin 3) * 256 + 256
    rw [e1]; show ((i 1).val / 256 * 32 + (i 0).val) / 32 * 256 ≤ (i 1).val ∧ (i 1).val < ((i 1).val / 256 * 32 + (i 0).val) / 32 * 256 + 256; omega
  | ⟨2, _⟩ =>
    show win1_9.index ⟨(i 1).val / 256 * 32 + (i 0).val, ht⟩ (2 : Fin 3) * 64 ≤ (i 2).val
      ∧ (i 2).val < win1_9.index ⟨(i 1).val / 256 * 32 + (i 0).val, ht⟩ (2 : Fin 3) * 64 + 64
    rw [e2]; omega

/-! ## The two arrays after the region -/

/-- The probabilities' array after the region. -/
theorem final1_8 (c : Dev nD) :
    ((dat1 (F := Ideal) V c).arrAt 8 cfg1.N : (⟨3, ![32, 2048, 2048]⟩ : Shape).Idx → EReal)
      = fun i => Spec.probOf (qArr1 V c) (kArr1 V c) (cArr1 V c) (sArr1 V c) (mArr1 V c) (i 0) (i 1) (i 2) :=
  (dat1 (F := Ideal) V c).arrAt_eq_of_cover 8 (G1_8 V c) (fun t _ => flushed1_8 V c t) covered1_8

/-- The attention output's array after the region. -/
theorem final1_9 (c : Dev nD) :
    ((dat1 (F := Ideal) V c).arrAt 9 cfg1.N : (⟨3, ![32, 2048, 64]⟩ : Shape).Idx → EReal)
      = fun i => Spec.attnOf (qArr1 V c) (kArr1 V c) (vArr1 V c) (cArr1 V c) (sArr1 V c) (mArr1 V c) (i 0) (i 1) (i 2) :=
  (dat1 (F := Ideal) V c).arrAt_eq_of_cover 9 (G1_9 V c) (fun t _ => flushed1_9 V c t) covered1_9

end Cert.KernelIdeal.Hand

end
-- ==== Proof.Val2.lean ====
/-
  Region 2 as a value: after all its grid points the output array holds, at (s, j), row s of the concatenated heads
  against row j of the output weights — the sum over the 2048 contraction coordinates of the products.
-/
import proofs.«169794_j16423954940491_1_alg».proof.Proof.KI.Body2
import proofs.«169794_j16423954940491_1_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two input arrays as the region finds them, by coordinates. -/
abbrev lhsArr2 (c : Dev nD) (s k : Fin 2048) : EReal := (V c main_v17 : (⟨2, ![2048, 2048]⟩ : Shape).Idx → EReal) (ix2 s k)
abbrev rhsArr2 (c : Dev nD) (j : Fin 2048) (k : Fin 2048) : EReal := (V c main_arg7 : (⟨2, ![2048, 2048]⟩ : Shape).Idx → EReal) (ix2 j k)

/-! ## The product of two blocks at an index -/

/-- The left operand of the block product is read, on its row axis, at the output's row, -/
private theorem lhsAxis2_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- and on its column axis at the contraction coordinate; -/
private theorem lhsAxis2_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- the right operand, on its row axis, at the output's column, -/
private theorem rhsAxis2_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- and on its column axis at the contraction coordinate. -/
private theorem rhsAxis2_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The body's payload at (p, q): row p of the first block against row q of the second, summed over the 2048
    contraction coordinates (the narrowing to bf16 is the identity on extended reals, the accumulator is zero). -/
private theorem pay2_apply (x0 x1 : Vec Ideal S512x2048 .f32) (p q : Fin 512) :
    k2_pay1 (F := Ideal) x0 x1 (ix2 p q) = ∑ k : Fin 2048, x0 (ix2 p k) * x1 (ix2 q k) := by
  unfold k2_pay1
  refine (Ideal.matmul_constant_zero_apply dot_S512x2048_S512x2048_S512x512_1_1_0_0_n_n none _ _ (ix2 p q)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun a => Fin.ext (by
    match a with
    | ⟨0, _⟩ => exact lhsAxis2_0 _ _
    | ⟨1, _⟩ => exact (lhsAxis2_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun a => Fin.ext (by
    match a with
    | ⟨0, _⟩ => exact rhsAxis2_0 _ _
    | ⟨1, _⟩ => exact (rhsAxis2_1 _ _).trans hk)
  rw [el, er, shapeCast_self]
  rfl

/-! ## From the blocks to the array -/

private theorem zeroOff2 : (![0, 0] : Fin 2 → Nat) = fun _ => 0 := funext fun a => by fin_cases a <;> rfl

/-- The whole product, index by index: what the output array is to hold. -/
private abbrev prodArr2 (c : Dev nD) : (⟨2, ![2048, 2048]⟩ : Shape).Idx → EReal :=
  fun i => Spec.mm (lhsArr2 V c) (rhsArr2 V c) (i 0) (i 1)

/-- The printed index maps over the grid: the left factor's row block is the output's row block, the right factor's
    row block is the output's column block, neither input is cut along the contraction, and the output's block
    indices stay in their ranges. -/
private theorem blockIdx2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 3 ∧ win2_2.index t (1 : Fin 2) ≤ 3 :=
  (by decide +kernel : ∀ t : Fin grid2.N, _)

/-- Every block of the output is some point's. -/
private theorem blockOnto2 : ∀ (q0 : Fin 4) (q1 : Fin 4), ∃ t : Fin cfg2.N, win2_2.index t = ![q0.val, q1.val] :=
  (by decide +kernel : ∀ (q0 : Fin 4) (q1 : Fin 4), ∃ t : Fin grid2.N, win2_2.index t = ![q0.val, q1.val])

/-- What point t writes back is block t of the whole product. -/
private theorem flushed2_eq (c : Dev nD) (t : Fin cfg2.N) :
    (dat2 (F := Ideal) V c).flushed 2 t = ((cfg2.win 2).blk t).view.read (Elt Ideal) (prodArr2 V c) := by
  show (cfg2.win 2).cut (grid2.coords t) ((dat2 (F := Ideal) V c).after 2 t) = _
  rw [after2_2]
  unfold out2_2
  rw [View.canon_unit_zero zeroOff2]
  simp only [View.ld_unit_zero (S := S512x2048) zeroOff2]
  obtain ⟨e0, e1, e2, e3, e4, e5⟩ := blockIdx2 t
  funext j
  obtain ⟨p, q, rfl⟩ : ∃ (p q : Fin 512), j = ix2 p q := ⟨j 0, j 1, eq_ix2 j⟩
  show k2_pay1 (F := Ideal) (iblk2 V c 0 t) (iblk2 V c 1 t) (ix2 p q)
    = Spec.mm (lhsArr2 V c) (rhsArr2 V c) ((((cfg2.win 2).blk t).view.emb (ix2 p q)) 0) ((((cfg2.win 2).blk t).view.emb (ix2 p q)) 1)
  rw [pay2_apply]
  unfold Spec.mm
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 2048 + 1 * k.val = k.val; omega
  have h1 : ((cfg2.win 1).blk t).view.emb (ix2 q k) = ix2 ((((cfg2.win 2).blk t).view.emb (ix2 p q)) 1) k := by
    funext a; apply Fin.ext
    match a with
    | ⟨0, _⟩ => show win2_1.index t (0 : Fin 2) * 512 + 1 * q.val = win2_2.index t (1 : Fin 2) * 512 + 1 * q.val; omega
    | ⟨1, _⟩ => show win2_1.index t (1 : Fin 2) * 2048 + 1 * k.val = k.val; omega
  have hA : iblk2 V c 0 t (ix2 p k) = lhsArr2 V c ((((cfg2.win 2).blk t).view.emb (ix2 p q)) 0) k :=
    congrArg (V c main_v17 : (⟨2, ![2048, 2048]⟩ : Shape).Idx → EReal) h0
  have hB : iblk2 V c 1 t (ix2 q k) = rhsArr2 V c ((((cfg2.win 2).blk t).view.emb (ix2 p q)) 1) k :=
    congrArg (V c main_arg7 : (⟨2, ![2048, 2048]⟩ : Shape).Idx → EReal) h1
  exact congrArg₂ (fun a b : EReal => a * b) hA hB

/-- An index of the array is in point t's block iff each coordinate is in the block's range on its axis. -/
private theorem mem_blk2 (t : Fin cfg2.N) (i : S2048x2048.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v18).slice (win2_2.rect t)).set ↔ _
  rw [View.set_slice_whole, Rect.mem_set_unit]
  exact Iff.rfl

/-- The output's blocks tile the array: (r, j) is in the block of the point with block indices (r / 512, j / 512). -/
private theorem cover2 (i : S2048x2048.Idx) :
    ∃ t : Fin cfg2.N, (cfg2.win 2).flush t = true ∧ i ∈ ((cfg2.win 2).blk t).view.set := by
  have hi0 : (i 0).val < 2048 := (i 0).isLt
  have hi1 : (i 1).val < 2048 := (i 1).isLt
  obtain ⟨t, ht⟩ := blockOnto2 ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- The output array after the region: the product of the left array with the transposed right array. -/
theorem final2 (c : Dev nD) :
    ((dat2 (F := Ideal) V c).arrAt 2 cfg2.N : (⟨2, ![2048, 2048]⟩ : Shape).Idx → EReal)
      = fun i => Spec.mm (lhsArr2 V c) (rhsArr2 V c) (i 0) (i 1) :=
  (dat2 (F := Ideal) V c).arrAt_eq_of_cover 2 (prodArr2 V c) (fun t _ => flushed2_eq V c t) (cover2)

end Cert.KernelIdeal.Hand

end
-- ==== Proof.KerVal.lean ====
/-
  The idealized kernel's two results as functions of its arguments: the three regions' values (two products A·Bᵀ and
  the attention region) composed through the host operations' re-layings are the specification's two arrays.
-/
import proofs.«169794_j16423954940491_1_alg».proof.Proof.HostK
import proofs.«169794_j16423954940491_1_alg».proof.Proof.HostK2
import proofs.«169794_j16423954940491_1_alg».proof.Proof.Val0
import proofs.«169794_j16423954940491_1_alg».proof.Proof.Val1
import proofs.«169794_j16423954940491_1_alg».proof.Proof.Val2

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The stacked projection is the hidden states against the stacked weights. -/
theorem proj0_eq : proj0 m ρ c = fun i => Spec.mm (lhsIn0 (E1 m ρ) c) (rhsIn0 (E1 m ρ) c) (i 0) (i 1) :=
  (W2_arr m ρ c 2).trans (final0 (E1 m ρ) c)

/-- Its columns `64 h + d` are the projected queries, -/
theorem proj0_q (h : Fin 32) (s : Fin 2048) (d : Fin 64) :
    proj0 m ρ c (ix2 s ⟨h.val * 64 + d.val, by omega⟩) = Spec.qOf (a0 m c) (a4 m c) h s d := by
  rw [proj0_eq]
  show Spec.mm (lhsIn0 (E1 m ρ) c) (rhsIn0 (E1 m ρ) c) s ⟨h.val * 64 + d.val, _⟩ = _
  unfold Spec.qOf Spec.mm
  exact Finset.sum_congr rfl fun k _ => by rw [lhs0_eq, rhs0_q]
/-- its columns `2048 + 64 g + d` the projected keys, -/
theorem proj0_k (g : Fin 8) (s : Fin 2048) (d : Fin 64) :
    proj0 m ρ c (ix2 s ⟨2048 + (g.val * 64 + d.val), by omega⟩) = Spec.kOf (a0 m c) (a5 m c) g s d := by
  rw [proj0_eq]
  show Spec.mm (lhsIn0 (E1 m ρ) c) (rhsIn0 (E1 m ρ) c) s ⟨2048 + (g.val * 64 + d.val), _⟩ = _
  unfold Spec.kOf Spec.mm
  exact Finset.sum_congr rfl fun k _ => by rw [lhs0_eq, rhs0_k]
/-- and its columns `2560 + 64 g + d` the projected values. -/
theorem proj0_v (g : Fin 8) (s : Fin 2048) (d : Fin 64) :
    proj0 m ρ c (ix2 s ⟨2560 + (g.val * 64 + d.val), by omega⟩) = Spec.vOf (a0 m c) (a6 m c) g s d := by
  rw [proj0_eq]
  show Spec.mm (lhsIn0 (E1 m ρ) c) (rhsIn0 (E1 m ρ) c) s ⟨2560 + (g.val * 64 + d.val), _⟩ = _
  unfold Spec.vOf Spec.mm
  exact Finset.sum_congr rfl fun k _ => by rw [lhs0_eq, rhs0_v]

/-- So the attention region finds the specification's queries, keys, values, tables and mask. -/
theorem qIn1_eq : qIn1 (E3 m ρ) c = Spec.qOf (a0 m c) (a4 m c) := by
  funext h s d; rw [q1_eq, proj0_q]
theorem kIn1_eq : kIn1 (E3 m ρ) c = Spec.kOf (a0 m c) (a5 m c) := by
  funext g s d; rw [k1_eq, proj0_k]
theorem vIn1_eq : vIn1 (E3 m ρ) c = Spec.vOf (a0 m c) (a6 m c) := by
  funext g s d; rw [v1_eq, proj0_v]
theorem cIn1_eq : cIn1 (E3 m ρ) c = Spec.csOf (a1 m c) := by
  funext s d; rw [c1_eq]; rfl
theorem sIn1_eq : sIn1 (E3 m ρ) c = Spec.snOf (a2 m c) := by
  funext s d; rw [s1_eq]; rfl
theorem mIn1_eq : mIn1 (E3 m ρ) c = Spec.mkOf (a3 m c) := by
  funext q k; rw [m1_eq]; rfl

/-- The probabilities the attention region leaves. -/
theorem probs1_eq (h : Fin 32) (q k : Fin 2048) :
    probs1 m ρ c (ix3 h q k)
      = Spec.probOf (Spec.qOf (a0 m c) (a4 m c)) (Spec.kOf (a0 m c) (a5 m c)) (Spec.csOf (a1 m c)) (Spec.snOf (a2 m c)) (Spec.mkOf (a3 m c)) h q k := by
  have e : probs1 m ρ c = fun i => Spec.probOf (qIn1 (E3 m ρ) c) (kIn1 (E3 m ρ) c) (cIn1 (E3 m ρ) c) (sIn1 (E3 m ρ) c) (mIn1 (E3 m ρ) c) (i 0) (i 1) (i 2) :=
    (W4_out0 m ρ c).trans (final1_8 (E3 m ρ) c)
  rw [e, qIn1_eq, kIn1_eq, cIn1_eq, sIn1_eq, mIn1_eq]

/-- The heads' outputs the attention region leaves. -/
theorem heads1_eq (h : Fin 32) (s : Fin 2048) (d : Fin 64) :
    heads1 m ρ c (ix3 h s d)
      = Spec.attnOf (Spec.qOf (a0 m c) (a4 m c)) (Spec.kOf (a0 m c) (a5 m c)) (Spec.vOf (a0 m c) (a6 m c)) (Spec.csOf (a1 m c)) (Spec.snOf (a2 m c)) (Spec.mkOf (a3 m c)) h s d := by
  have e : heads1 m ρ c = fun i => Spec.attnOf (qIn1 (E3 m ρ) c) (kIn1 (E3 m ρ) c) (vIn1 (E3 m ρ) c) (cIn1 (E3 m ρ) c) (sIn1 (E3 m ρ) c) (mIn1 (E3 m ρ) c) (i 0) (i 1) (i 2) :=
    (W4_out1 m ρ c).trans (final1_9 (E3 m ρ) c)
  rw [e, qIn1_eq, kIn1_eq, vIn1_eq, cIn1_eq, sIn1_eq, mIn1_eq]

/-- The second result is the specification's attention weights. -/
theorem resW_eq : (W7 m ρ c main_v20 : Spec.Arr4 1 32 2048 2048) = Spec.resW (a0 m c) (a1 m c) (a2 m c) (a3 m c) (a4 m c) (a5 m c) := by
  funext i
  obtain ⟨z, h, q, k, rfl⟩ : ∃ (z : Fin 1) (h : Fin 32) (q k : Fin 2048), i = ix4 z h q k := ⟨i 0, i 1, i 2, i 3, eq_ix4 i⟩
  obtain rfl : z = 0 := Subsingleton.elim _ _
  rw [out20_eq, probs1_eq]
  rfl

/-- The first result is the specification's projected attention output. -/
theorem resOut_eq : (W7 m ρ c main_v19 : Spec.Arr3 1 2048 2048)
    = Spec.resOut (a0 m c) (a1 m c) (a2 m c) (a3 m c) (a4 m c) (a5 m c) (a6 m c) (a7 m c) := by
  funext i
  obtain ⟨z, s, j, rfl⟩ : ∃ (z : Fin 1) (s j : Fin 2048), i = ix3 z s j := ⟨i 0, i 1, i 2, eq_ix3 i⟩
  obtain rfl : z = 0 := Subsingleton.elim _ _
  rw [out19_eq]
  have e : outp2 m ρ c = fun i => Spec.mm (lhsIn2 (E5 m ρ) c) (rhsIn2 (E5 m ρ) c) (i 0) (i 1) :=
    (W6_arr m ρ c 2).trans (final2 (E5 m ρ) c)
  rw [e]
  show Spec.mm (lhsIn2 (E5 m ρ) c) (rhsIn2 (E5 m ρ) c) s j = Spec.mm _ _ s j
  unfold Spec.mm
  refine Finset.sum_congr rfl fun cc _ => ?_
  rw [lhs2_eq, rhs2_eq, heads1_eq]
  rfl

end Cert.KernelIdeal.Hand

end
-- ==== Proof.RefA.lean ====
/-
  The reference's stages up to the scores, read at an index: the scaled product of the rotated queries with the
  rotated keys (each key head repeated for its four query heads) plus the mask is the specification's score, and the
  repeated values are the specification's values.
-/
import proofs.«169794_j16423954940491_1_alg».proof.Proof.Gen.ReferenceIdeal.Read
import proofs.«169794_j16423954940491_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

variable (x0 : (⟨S1x2048x2048, .f32⟩ : BufTy).Contents (Elt Ideal)) (x1 x2 : (⟨S1x2048x64, .f32⟩ : BufTy).Contents (Elt Ideal))
  (x3 : (⟨S1x1x2048x2048, .f32⟩ : BufTy).Contents (Elt Ideal)) (x4 : (⟨S2048x2048, .f32⟩ : BufTy).Contents (Elt Ideal))
  (x5 x6 : (⟨S512x2048, .f32⟩ : BufTy).Contents (Elt Ideal)) (x7 : (⟨S2048x2048, .f32⟩ : BufTy).Contents (Elt Ideal))

/-! ### The three projections by head

  A projection is a product over the 2048 input channels; the reshape splits its channel axis as 64 * head + inner and
  the transpose puts the head in front, so head h, token s, inner d reads row s against weight row 64 h + d. -/

/-- Head h, token s, inner d of the reshaped and transposed query projection is (row s, channel 64 h + d). -/
private theorem idx_q (h : Fin 32) (s : Fin 2048) (d : Fin 64) :
    idx_main_v1 (idx_main_v2 (ix4 0 h s d)) = ix3 0 s (Spec.chq h d) := by
  funext a
  match a with
  | ⟨0, _⟩ => rfl
  | ⟨1, _⟩ =>
    apply Fin.ext
    show ((((0 : Fin 1).val * 2048 + s.val) * 32 + h.val) * 64 + d.val) / 2048 % 2048 = s.val
    have := h.isLt; have := s.isLt; have := d.isLt
    simp only [Fin.val_zero]; omega
  | ⟨2, _⟩ =>
    apply Fin.ext
    show ((((0 : Fin 1).val * 2048 + s.val) * 32 + h.val) * 64 + d.val) % 2048 = h.val * 64 + d.val
    have := h.isLt; have := s.isLt; have := d.isLt
    simp only [Fin.val_zero]; omega

/-- The same for the key projection's eight heads: (row s, channel 64 g + d) of 512. -/
private theorem idx_k (g : Fin 8) (s : Fin 2048) (d : Fin 64) :
    idx_main_v4 (idx_main_v5 (ix4 0 g s d)) = ix3 0 s (Spec.chk g d) := by
  funext a
  match a with
  | ⟨0, _⟩ => rfl
  | ⟨1, _⟩ =>
    apply Fin.ext
    show ((((0 : Fin 1).val * 2048 + s.val) * 8 + g.val) * 64 + d.val) / 512 % 2048 = s.val
    have := g.isLt; have := s.isLt; have := d.isLt
    simp only [Fin.val_zero]; omega
  | ⟨2, _⟩ =>
    apply Fin.ext
    show ((((0 : Fin 1).val * 2048 + s.val) * 8 + g.val) * 64 + d.val) % 512 = g.val * 64 + d.val
    have := g.isLt; have := s.isLt; have := d.isLt
    simp only [Fin.val_zero]; omega

/-- The same for the value projection. -/
private theorem idx_v (g : Fin 8) (s : Fin 2048) (d : Fin 64) :
    idx_main_v7 (idx_main_v8 (ix4 0 g s d)) = ix3 0 s (Spec.chk g d) := by
  funext a
  match a with
  | ⟨0, _⟩ => rfl
  | ⟨1, _⟩ =>
    apply Fin.ext
    show ((((0 : Fin 1).val * 2048 + s.val) * 8 + g.val) * 64 + d.val) / 512 % 2048 = s.val
    have := g.isLt; have := s.isLt; have := d.isLt
    simp only [Fin.val_zero]; omega
  | ⟨2, _⟩ =>
    apply Fin.ext
    show ((((0 : Fin 1).val * 2048 + s.val) * 8 + g.val) * 64 + d.val) % 512 = g.val * 64 + d.val
    have := g.isLt; have := s.isLt; have := d.isLt
    simp only [Fin.val_zero]; omega

private theorem lidx0 (s c k : Fin 2048) : lidx_main_v0 (ix3 0 s c) k = ix3 0 s k := by
  funext a
  match a with
  | ⟨0, _⟩ => rfl
  | ⟨1, _⟩ => rfl
  | ⟨2, _⟩ => rfl

private theorem ridx0 (s c k : Fin 2048) : ridx_main_v0 (ix3 0 s c) k = ix2 c k := by
  funext a
  match a with
  | ⟨0, _⟩ => rfl
  | ⟨1, _⟩ => rfl

private theorem lidx3 (s : Fin 2048) (c : Fin 512) (k : Fin 2048) : lidx_main_v3 (ix3 0 s c) k = ix3 0 s k := by
  funext a
  match a with
  | ⟨0, _⟩ => rfl
  | ⟨1, _⟩ => rfl
  | ⟨2, _⟩ => rfl

private theorem ridx3 (s : Fin 2048) (c : Fin 512) (k : Fin 2048) : ridx_main_v3 (ix3 0 s c) k = ix2 c k := by
  funext a
  match a with
  | ⟨0, _⟩ => rfl
  | ⟨1, _⟩ => rfl

private theorem lidx6 (s : Fin 2048) (c : Fin 512) (k : Fin 2048) : lidx_main_v6 (ix3 0 s c) k = ix3 0 s k := by
  funext a
  match a with
  | ⟨0, _⟩ => rfl
  | ⟨1, _⟩ => rfl
  | ⟨2, _⟩ => rfl

private theorem ridx6 (s : Fin 2048) (c : Fin 512) (k : Fin 2048) : ridx_main_v6 (ix3 0 s c) k = ix2 c k := by
  funext a
  match a with
  | ⟨0, _⟩ => rfl
  | ⟨1, _⟩ => rfl

/-- The queries by head. -/
private theorem ref_q (h : Fin 32) (s : Fin 2048) (d : Fin 64) :
    val_main_v2 (F := Ideal) x0 x4 (ix4 0 h s d) = Spec.qOf x0 x4 h s d := by
  rw [val_main_v2_apply, val_main_v1_apply, idx_q, val_main_v0_apply]
  unfold Spec.qOf Spec.mm
  refine Finset.sum_congr rfl fun k _ => ?_
  rw [lidx0, ridx0]

/-- The keys by head. -/
private theorem ref_k (g : Fin 8) (s : Fin 2048) (d : Fin 64) :
    val_main_v5 (F := Ideal) x0 x5 (ix4 0 g s d) = Spec.kOf x0 x5 g s d := by
  rw [val_main_v5_apply, val_main_v4_apply, idx_k, val_main_v3_apply]
  unfold Spec.kOf Spec.mm
  refine Finset.sum_congr rfl fun k _ => ?_
  rw [lidx3, ridx3]

/-- The values by head. -/
private theorem ref_v (g : Fin 8) (s : Fin 2048) (d : Fin 64) :
    val_main_v8 (F := Ideal) x0 x6 (ix4 0 g s d) = Spec.vOf x0 x6 g s d := by
  rw [val_main_v8_apply, val_main_v7_apply, idx_v, val_main_v6_apply]
  unfold Spec.vOf Spec.mm
  refine Finset.sum_congr rfl fun k _ => ?_
  rw [lidx6, ridx6]

/-! ### The rotary tables, broadcast over the heads -/

private theorem ref_cos_q (h : Fin 32) (s : Fin 2048) (d : Fin 64) :
    val_main_v11 (F := Ideal) x1 (ix4 0 h s d) = Spec.csOf x1 s d := by
  rw [val_main_v11_apply, val_main_v9_apply]
  exact congrArg x1 (funext fun a => match a with | ⟨0, _⟩ => rfl | ⟨1, _⟩ => rfl | ⟨2, _⟩ => rfl)

private theorem ref_sin_q (h : Fin 32) (s : Fin 2048) (d : Fin 64) :
    val_main_v17 (F := Ideal) x2 (ix4 0 h s d) = Spec.snOf x2 s d := by
  rw [val_main_v17_apply, val_main_v10_apply]
  exact congrArg x2 (funext fun a => match a with | ⟨0, _⟩ => rfl | ⟨1, _⟩ => rfl | ⟨2, _⟩ => rfl)

private theorem ref_cos_k (g : Fin 8) (s : Fin 2048) (d : Fin 64) :
    val_main_v20 (F := Ideal) x1 (ix4 0 g s d) = Spec.csOf x1 s d := by
  rw [val_main_v20_apply, val_main_v9_apply]
  exact congrArg x1 (funext fun a => match a with | ⟨0, _⟩ => rfl | ⟨1, _⟩ => rfl | ⟨2, _⟩ => rfl)

private theorem ref_sin_k (g : Fin 8) (s : Fin 2048) (d : Fin 64) :
    val_main_v26 (F := Ideal) x2 (ix4 0 g s d) = Spec.snOf x2 s d := by
  rw [val_main_v26_apply, val_main_v10_apply]
  exact congrArg x2 (funext fun a => match a with | ⟨0, _⟩ => rfl | ⟨1, _⟩ => rfl | ⟨2, _⟩ => rfl)

/-! ### Rotate-half: the negated upper half joined in front of the lower half -/

private theorem ref_rot_q (h : Fin 32) (s : Fin 2048) (d : Fin 64) :
    val_main_v16 (F := Ideal) x0 x4 (ix4 0 h s d) = Spec.rotHalf (Spec.qOf x0 x4 h s) d := by
  unfold val_main_v16 Spec.rotHalf
  by_cases hd : d.val < 32
  · rw [dif_pos hd]
    rw [concatenate_pair_apply_left (t := S1x32x2048x64) (s₁ := S1x32x2048x32) (s₂ := S1x32x2048x32) (3 : Fin 4) _ _ _ (ix4 0 h s d) rfl (ix4 0 h s (⟨d.val, hd⟩ : Fin 32))
      (fun b => match b with | ⟨0, _⟩ => rfl | ⟨1, _⟩ => rfl | ⟨2, _⟩ => rfl | ⟨3, _⟩ => rfl)]
    rw [val_main_v14_apply, val_main_v13_apply, Ideal.hostNegf_def, Ideal.negf_def]
    have e : idx_main_v13 (ix4 0 h s (⟨d.val, hd⟩ : Fin 32)) = ix4 0 h s (⟨d.val + 32, by omega⟩ : Fin 64) := by
      funext a
      match a with
      | ⟨0, _⟩ => rfl
      | ⟨1, _⟩ => rfl
      | ⟨2, _⟩ => rfl
      | ⟨3, _⟩ => apply Fin.ext; show 32 + d.val = d.val + 32; omega
    rw [e, ref_q]
  · rw [dif_neg hd]
    have hd' : d.val - 32 < 32 := by have := d.isLt; omega
    rw [concatenate_pair_apply_right (t := S1x32x2048x64) (s₁ := S1x32x2048x32) (s₂ := S1x32x2048x32) (3 : Fin 4) _ _ _ (ix4 0 h s d) rfl rfl (ix4 0 h s (⟨d.val - 32, hd'⟩ : Fin 32))
      (fun b => match b with | ⟨0, _⟩ => fun _ => rfl | ⟨1, _⟩ => fun _ => rfl | ⟨2, _⟩ => fun _ => rfl | ⟨3, _⟩ => fun hb => absurd rfl hb)
      (by show d.val - 32 + 32 = d.val; omega)]
    rw [val_main_v15_apply]
    have e : idx_main_v15 (ix4 0 h s (⟨d.val - 32, hd'⟩ : Fin 32)) = ix4 0 h s (⟨d.val - 32, by omega⟩ : Fin 64) := by
      funext a
      match a with
      | ⟨0, _⟩ => rfl
      | ⟨1, _⟩ => rfl
      | ⟨2, _⟩ => rfl
      | ⟨3, _⟩ => rfl
    rw [e, ref_q]

private theorem ref_rot_k (g : Fin 8) (s : Fin 2048) (d : Fin 64) :
    val_main_v25 (F := Ideal) x0 x5 (ix4 0 g s d) = Spec.rotHalf (Spec.kOf x0 x5 g s) d := by
  unfold val_main_v25 Spec.rotHalf
  by_cases hd : d.val < 32
  · rw [dif_pos hd]
    rw [concatenate_pair_apply_left (t := S1x8x2048x64) (s₁ := S1x8x2048x32) (s₂ := S1x8x2048x32) (3 : Fin 4) _ _ _ (ix4 0 g s d) rfl (ix4 0 g s (⟨d.val, hd⟩ : Fin 32))
      (fun b => match b with | ⟨0, _⟩ => rfl | ⟨1, _⟩ => rfl | ⟨2, _⟩ => rfl | ⟨3, _⟩ => rfl)]
    rw [val_main_v23_apply, val_main_v22_apply, Ideal.hostNegf_def, Ideal.negf_def]
    have e : idx_main_v22 (ix4 0 g s (⟨d.val, hd⟩ : Fin 32)) = ix4 0 g s (⟨d.val + 32, by omega⟩ : Fin 64) := by
      funext a
      match a with
      | ⟨0, _⟩ => rfl
      | ⟨1, _⟩ => rfl
      | ⟨2, _⟩ => rfl
      | ⟨3, _⟩ => apply Fin.ext; show 32 + d.val = d.val + 32; omega
    rw [e, ref_k]
  · rw [dif_neg hd]
    have hd' : d.val - 32 < 32 := by have := d.isLt; omega
    rw [concatenate_pair_apply_right (t := S1x8x2048x64) (s₁ := S1x8x2048x32) (s₂ := S1x8x2048x32) (3 : Fin 4) _ _ _ (ix4 0 g s d) rfl rfl (ix4 0 g s (⟨d.val - 32, hd'⟩ : Fin 32))
      (fun b => match b with | ⟨0, _⟩ => fun _ => rfl | ⟨1, _⟩ => fun _ => rfl | ⟨2, _⟩ => fun _ => rfl | ⟨3, _⟩ => fun hb => absurd rfl hb)
      (by show d.val - 32 + 32 = d.val; omega)]
    rw [val_main_v24_apply]
    have e : idx_main_v24 (ix4 0 g s (⟨d.val - 32, hd'⟩ : Fin 32)) = ix4 0 g s (⟨d.val - 32, by omega⟩ : Fin 64) := by
      funext a
      match a with
      | ⟨0, _⟩ => rfl
      | ⟨1, _⟩ => rfl
      | ⟨2, _⟩ => rfl
      | ⟨3, _⟩ => rfl
    rw [e, ref_k]

/-! ### The rotary embedding of the queries and of the keys -/

private theorem ref_rope_q (h : Fin 32) (s : Fin 2048) (d : Fin 64) :
    val_main_v19 (F := Ideal) x0 x1 x2 x4 (ix4 0 h s d)
      = Spec.rope (Spec.csOf x1) (Spec.snOf x2) (Spec.qOf x0 x4 h s) s d := by
  rw [val_main_v19_apply, val_main_v12_apply, val_main_v18_apply, ref_q, ref_cos_q, ref_rot_q, ref_sin_q]
  rfl

private theorem ref_rope_k (g : Fin 8) (s : Fin 2048) (d : Fin 64) :
    val_main_v28 (F := Ideal) x0 x1 x2 x5 (ix4 0 g s d)
      = Spec.rope (Spec.csOf x1) (Spec.snOf x2) (Spec.kOf x0 x5 g s) s d := by
  rw [val_main_v28_apply, val_main_v21_apply, val_main_v27_apply, ref_k, ref_cos_k, ref_rot_k, ref_sin_k]
  rfl

/-! ### Each key/value head repeated for its four query heads -/

/-- Query head h of the repeated array is key/value head h / 4 of the original. -/
private theorem idx_rep (h : Fin 32) (s : Fin 2048) (d : Fin 64) :
    idx_main_v29 (idx_main_v30 (ix4 0 h s d)) = ix4 0 (Spec.kvOf h) s d := by
  funext a
  match a with
  | ⟨0, _⟩ => rfl
  | ⟨1, _⟩ =>
    apply Fin.ext
    show ((((0 : Fin 1).val * 32 + h.val) * 2048 + s.val) * 64 + d.val) / 524288 % 8 = h.val / 4
    have := h.isLt; have := s.isLt; have := d.isLt
    simp only [Fin.val_zero]; omega
  | ⟨2, _⟩ =>
    apply Fin.ext
    show ((((0 : Fin 1).val * 32 + h.val) * 2048 + s.val) * 64 + d.val) / 64 % 2048 = s.val
    have := h.isLt; have := s.isLt; have := d.isLt
    simp only [Fin.val_zero]; omega
  | ⟨3, _⟩ =>
    apply Fin.ext
    show ((((0 : Fin 1).val * 32 + h.val) * 2048 + s.val) * 64 + d.val) % 64 = d.val
    have := h.isLt; have := s.isLt; have := d.isLt
    simp only [Fin.val_zero]; omega

private theorem idx_rep_v (h : Fin 32) (s : Fin 2048) (d : Fin 64) :
    idx_main_v31 (idx_main_v32 (ix4 0 h s d)) = ix4 0 (Spec.kvOf h) s d := by
  funext a
  match a with
  | ⟨0, _⟩ => rfl
  | ⟨1, _⟩ =>
    apply Fin.ext
    show ((((0 : Fin 1).val * 32 + h.val) * 2048 + s.val) * 64 + d.val) / 524288 % 8 = h.val / 4
    have := h.isLt; have := s.isLt; have := d.isLt
    simp only [Fin.val_zero]; omega
  | ⟨2, _⟩ =>
    apply Fin.ext
    show ((((0 : Fin 1).val * 32 + h.val) * 2048 + s.val) * 64 + d.val) / 64 % 2048 = s.val
    have := h.isLt; have := s.isLt; have := d.isLt
    simp only [Fin.val_zero]; omega
  | ⟨3, _⟩ =>
    apply Fin.ext
    show ((((0 : Fin 1).val * 32 + h.val) * 2048 + s.val) * 64 + d.val) % 64 = d.val
    have := h.isLt; have := s.isLt; have := d.isLt
    simp only [Fin.val_zero]; omega

private theorem ref_rep_k (h : Fin 32) (s : Fin 2048) (d : Fin 64) :
    val_main_v30 (F := Ideal) x0 x1 x2 x5 (ix4 0 h s d)
      = Spec.rope (Spec.csOf x1) (Spec.snOf x2) (Spec.kOf x0 x5 (Spec.kvOf h) s) s d := by
  rw [val_main_v30_apply, val_main_v29_apply, idx_rep, ref_rope_k]

/-! ### The scores -/

private theorem lidx33 (h : Fin 32) (q k : Fin 2048) (d : Fin 64) :
    lidx_main_v33 (ix4 0 h q k) d = ix4 0 h q d := by
  funext a
  match a with
  | ⟨0, _⟩ => rfl
  | ⟨1, _⟩ => rfl
  | ⟨2, _⟩ => rfl
  | ⟨3, _⟩ => rfl

private theorem ridx33 (h : Fin 32) (q k : Fin 2048) (d : Fin 64) :
    ridx_main_v33 (ix4 0 h q k) d = ix4 0 h k d := by
  funext a
  match a with
  | ⟨0, _⟩ => rfl
  | ⟨1, _⟩ => rfl
  | ⟨2, _⟩ => rfl
  | ⟨3, _⟩ => rfl

/-- The scores plus mask (the stage before the softmax) at (0, h, q, k). -/
theorem ref_score (h : Fin 32) (q k : Fin 2048) :
    val_main_v37 (F := Ideal) x0 x1 x2 x3 x4 x5 (ix4 0 h q k)
      = Spec.scoreOf (Spec.qOf x0 x4) (Spec.kOf x0 x5) (Spec.csOf x1) (Spec.snOf x2) (Spec.mkOf x3) h q k := by
  rw [val_main_v37_apply, val_main_v35_apply, val_main_v36_apply, val_main_v34_apply, val_main_cst_apply,
    val_main_v33_apply]
  unfold Spec.scoreOf Spec.mkOf
  rw [Ideal.addf_def, Ideal.mulf_def, Ideal.ofBits_def]
  have es : (∑ d : Fin 64, val_main_v19 (F := Ideal) x0 x1 x2 x4 (lidx_main_v33 (ix4 0 h q k) d)
        * val_main_v30 (F := Ideal) x0 x1 x2 x5 (ridx_main_v33 (ix4 0 h q k) d))
      = ∑ d : Fin 64, Spec.rope (Spec.csOf x1) (Spec.snOf x2) (Spec.qOf x0 x4 h q) q d
        * Spec.rope (Spec.csOf x1) (Spec.snOf x2) (Spec.kOf x0 x5 (Spec.kvOf h) k) k d :=
    Finset.sum_congr rfl fun d _ => by rw [lidx33, ridx33, ref_rope_q, ref_rep_k]
  rw [es]
  exact congrArg _ (congrArg x3 (funext fun a => match a with | ⟨0, _⟩ => rfl | ⟨1, _⟩ => rfl | ⟨2, _⟩ => rfl | ⟨3, _⟩ => rfl))

/-- The values repeated over the query heads at (0, h, s, d). -/
theorem ref_vals (h : Fin 32) (s : Fin 2048) (d : Fin 64) :
    val_main_v32 (F := Ideal) x0 x6 (ix4 0 h s d) = Spec.vOf x0 x6 (Spec.kvOf h) s d := by
  rw [val_main_v32_apply, val_main_v31_apply, idx_rep_v, ref_v]

end Cert.ReferenceIdeal.RefValue

end
-- ==== Proof.RefB.lean ====
/-
  The reference's softmax and what follows it, read at an index: the probabilities are the specification's row
  softmax of the scores, the heads' outputs are laid side by side, and the last product is the output projection. So
  the reference's two results are the specification's two arrays.
-/
import proofs.«169794_j16423954940491_1_alg».proof.Proof.RefA
import Idealize.ShloMosaic.Lib.ReduceAll

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

variable (x0 : (⟨S1x2048x2048, .f32⟩ : BufTy).Contents (Elt Ideal)) (x1 x2 : (⟨S1x2048x64, .f32⟩ : BufTy).Contents (Elt Ideal))
  (x3 : (⟨S1x1x2048x2048, .f32⟩ : BufTy).Contents (Elt Ideal)) (x4 : (⟨S2048x2048, .f32⟩ : BufTy).Contents (Elt Ideal))
  (x5 x6 : (⟨S512x2048, .f32⟩ : BufTy).Contents (Elt Ideal)) (x7 : (⟨S2048x2048, .f32⟩ : BufTy).Contents (Elt Ideal))

/-- The reduction witness at the same shapes as the reference's shape fact. -/
private theorem red3 : S1x32x2048x2048.Reduces [3] S1x32x2048 := by decide

/-- The row's index with the key coordinate inserted. -/
private theorem lift_red3 (h : Fin 32) (q k : Fin 2048) :
    red3.lift (ix3 0 h q) k = ix4 0 h q k := by
  funext a
  apply Fin.ext
  match a with
  | ⟨0, _⟩ => rfl
  | ⟨1, _⟩ => rfl
  | ⟨2, _⟩ => rfl
  | ⟨3, _⟩ => rfl

/-- The row maximum at (0, h, q). -/
private theorem ref_max (h : Fin 32) (q : Fin 2048) :
    val_main_v40 (F := Ideal) x0 x1 x2 x3 x4 x5 (ix3 0 h q)
      = Spec.rowMax (fun k' => val_main_v37 (F := Ideal) x0 x1 x2 x3 x4 x5 (ix4 0 h q k')) := by
  rw [val_main_v40_apply, val_main_v39_apply, val_main_cst_1_apply]
  unfold val_main_v38
  rw [Host.reduce_eq_fold_single (FloatOps.maximumf (F := Ideal) (φ := .f32)) _ _ reducesTo_S1x32x2048x2048_S1x32x2048_d3 red3 h_S_ (ix3 0 h q)]
  rw [val_main_cst_0_apply]
  have e : (val_main_v37 (F := Ideal) x0 x1 x2 x3 x4 x5 ∘ red3.lift (ix3 0 h q))
      = fun k' => val_main_v37 (F := Ideal) x0 x1 x2 x3 x4 x5 (ix4 0 h q k') :=
    funext fun k' => congrArg (val_main_v37 (F := Ideal) x0 x1 x2 x3 x4 x5) (lift_red3 h q k')
  rw [e]
  rfl

/-- The row's index behind the two broadcasts back over the keys. -/
private theorem idx_bcast (h : Fin 32) (q k : Fin 2048) :
    idx_main_v41 (idx_main_v42 (ix4 0 h q k)) = ix3 0 h q := by
  funext a
  match a with
  | ⟨0, _⟩ => rfl
  | ⟨1, _⟩ => rfl
  | ⟨2, _⟩ => rfl

private theorem idx_bcast' (h : Fin 32) (q k : Fin 2048) :
    idx_main_v46 (idx_main_v47 (ix4 0 h q k)) = ix3 0 h q := by
  funext a
  match a with
  | ⟨0, _⟩ => rfl
  | ⟨1, _⟩ => rfl
  | ⟨2, _⟩ => rfl

/-- The shifted exponential at (0, h, q, k). -/
private theorem ref_exp (h : Fin 32) (q k : Fin 2048) :
    val_main_v44 (F := Ideal) x0 x1 x2 x3 x4 x5 (ix4 0 h q k)
      = Spec.expo (fun k' => val_main_v37 (F := Ideal) x0 x1 x2 x3 x4 x5 (ix4 0 h q k')) k := by
  rw [val_main_v44_apply, val_main_v43_apply, val_main_v42_apply, val_main_v41_apply, idx_bcast, ref_max]
  rfl

/-- The sum of the row's shifted exponentials at (0, h, q). -/
private theorem ref_sum (h : Fin 32) (q : Fin 2048) :
    val_main_v45 (F := Ideal) x0 x1 x2 x3 x4 x5 (ix3 0 h q)
      = ∑ k' : Fin 2048, Spec.expo (fun k' => val_main_v37 (F := Ideal) x0 x1 x2 x3 x4 x5 (ix4 0 h q k')) k' := by
  rw [val_main_v45_apply, val_main_cst_2_apply]
  show Ideal.ofBits .f32 0x00000000#32 + _ = _
  rw [Ideal.ofBits_zero_f32, zero_add]
  refine Finset.sum_congr rfl fun k' _ => ?_
  have e : idx_main_v45 (ix3 0 h q) k' = ix4 0 h q k' := by
    funext a
    match a with
    | ⟨0, _⟩ => rfl
    | ⟨1, _⟩ => rfl
    | ⟨2, _⟩ => rfl
    | ⟨3, _⟩ => rfl
  rw [e, ref_exp]

/-- The attention weights at (0, h, q, k): the row softmax of the scores. -/
theorem ref_prob (h : Fin 32) (q k : Fin 2048) :
    val_main_v48 (F := Ideal) x0 x1 x2 x3 x4 x5 (ix4 0 h q k)
      = Spec.prob (fun k' => val_main_v37 (F := Ideal) x0 x1 x2 x3 x4 x5 (ix4 0 h q k')) k := by
  rw [val_main_v48_apply, val_main_v47_apply, val_main_v46_apply, idx_bcast', ref_exp, ref_sum]
  rfl

/-- The attention weights at (0, h, q, k) are the specification's probabilities. -/
private theorem ref_probOf (h : Fin 32) (q k : Fin 2048) :
    val_main_v48 (F := Ideal) x0 x1 x2 x3 x4 x5 (ix4 0 h q k)
      = Spec.probOf (Spec.qOf x0 x4) (Spec.kOf x0 x5) (Spec.csOf x1) (Spec.snOf x2) (Spec.mkOf x3) h q k := by
  rw [ref_prob]
  have e : (fun k' => val_main_v37 (F := Ideal) x0 x1 x2 x3 x4 x5 (ix4 0 h q k'))
      = Spec.scoreOf (Spec.qOf x0 x4) (Spec.kOf x0 x5) (Spec.csOf x1) (Spec.snOf x2) (Spec.mkOf x3) h q :=
    funext fun k' => ref_score x0 x1 x2 x3 x4 x5 h q k'
  rw [e]
  rfl

/-- The reference's second result is the specification's attention weights. -/
theorem ref_w : val_main_v48 (F := Ideal) x0 x1 x2 x3 x4 x5 = Spec.resW x0 x1 x2 x3 x4 x5 := by
  funext i
  obtain ⟨a, h, q, k, rfl⟩ : ∃ a h q k, i = ix4 a h q k := ⟨i 0, i 1, i 2, i 3, eq_ix4 i⟩
  obtain rfl : a = 0 := Subsingleton.elim _ _
  exact ref_probOf x0 x1 x2 x3 x4 x5 h q k

/-- One head's attention output at (0, h, s, d). -/
private theorem ref_attn (h : Fin 32) (s : Fin 2048) (d : Fin 64) :
    val_main_v49 (F := Ideal) x0 x1 x2 x3 x4 x5 x6 (ix4 0 h s d)
      = Spec.attnOf (Spec.qOf x0 x4) (Spec.kOf x0 x5) (Spec.vOf x0 x6) (Spec.csOf x1) (Spec.snOf x2) (Spec.mkOf x3) h s d := by
  rw [val_main_v49_apply]
  unfold Spec.attnOf
  refine Finset.sum_congr rfl fun k _ => ?_
  have el : lidx_main_v49 (ix4 0 h s d) k = ix4 0 h s k := by
    funext a
    match a with
    | ⟨0, _⟩ => rfl
    | ⟨1, _⟩ => rfl
    | ⟨2, _⟩ => rfl
    | ⟨3, _⟩ => rfl
  have er : ridx_main_v49 (ix4 0 h s d) k = ix4 0 h k d := by
    funext a
    match a with
    | ⟨0, _⟩ => rfl
    | ⟨1, _⟩ => rfl
    | ⟨2, _⟩ => rfl
    | ⟨3, _⟩ => rfl
  rw [el, er, ref_probOf, ref_vals]

/-- The heads side by side at (0, s, c): column c holds head c / 64's coordinate c % 64. -/
private theorem ref_heads (s c : Fin 2048) :
    val_main_v51 (F := Ideal) x0 x1 x2 x3 x4 x5 x6 (ix3 0 s c)
      = Spec.headsOf x0 x1 x2 x3 x4 x5 x6 s c := by
  rw [val_main_v51_apply, val_main_v50_apply]
  have e : idx_main_v50 (idx_main_v51 (ix3 0 s c)) = ix4 0 (Spec.hdOf c) s (Spec.dmOf c) := by
    funext a
    apply Fin.ext
    have hs : s.val < 2048 := s.isLt
    have hc : c.val < 2048 := c.isLt
    match a with
    | ⟨0, _⟩ => rfl
    | ⟨1, _⟩ =>
      show ((0 * 2048 + s.val) * 2048 + c.val) / 64 % 32 = c.val / 64
      omega
    | ⟨2, _⟩ =>
      show ((0 * 2048 + s.val) * 2048 + c.val) / 2048 % 2048 = s.val
      omega
    | ⟨3, _⟩ =>
      show ((0 * 2048 + s.val) * 2048 + c.val) % 64 = c.val % 64
      omega
  rw [e, ref_attn]
  rfl

/-- The reference's first result is the specification's projected attention output. -/
theorem ref_out : val_main_v52 (F := Ideal) x0 x1 x2 x3 x4 x5 x6 x7 = Spec.resOut x0 x1 x2 x3 x4 x5 x6 x7 := by
  funext i
  obtain ⟨a, s, j, rfl⟩ : ∃ a s j, i = ix3 a s j := ⟨i 0, i 1, i 2, eq_ix3 i⟩
  obtain rfl : a = 0 := Subsingleton.elim _ _
  rw [val_main_v52_apply]
  show _ = Spec.mm (Spec.headsOf x0 x1 x2 x3 x4 x5 x6) (fun j c => x7 (ix2 j c)) s j
  unfold Spec.mm
  refine Finset.sum_congr rfl fun c _ => ?_
  have el : lidx_main_v52 (ix3 0 s j) c = ix3 0 s c := by
    funext a
    match a with
    | ⟨0, _⟩ => rfl
    | ⟨1, _⟩ => rfl
    | ⟨2, _⟩ => rfl
  have er : ridx_main_v52 (ix3 0 s j) c = ix2 j c := by
    funext a
    match a with
    | ⟨0, _⟩ => rfl
    | ⟨1, _⟩ => rfl
  rw [el, er, ref_heads]

end Cert.ReferenceIdeal.RefValue

end
-- ==== Proof.lean ====
/-
  The certificate of the fused attention layer against its reference.

  The three frames: the word-level kernel and the idealized kernel run their three regions between host stretches
  (every weakly fair execution ends, nothing faults) and no host operation or region writes an argument; the reference
  is a straight line of host operations. The idealization changed no operation, so there is nothing to preserve. And at
  the extended reals both programs' results are the specification's two arrays (the attention weights, and the
  attention output after the output projection) of the arguments, which the two runs are given equal.
-/
import proofs.«169794_j16423954940491_1_alg».proof.Defs
import proofs.«169794_j16423954940491_1_alg».proof.Proof.Gen.Kernel
import proofs.«169794_j16423954940491_1_alg».proof.Proof.Gen.KernelIdeal
import proofs.«169794_j16423954940491_1_alg».proof.Proof.Gen.ReferenceIdeal
import proofs.«169794_j16423954940491_1_alg».proof.Proof.Gen.Pre_finite_inputs
import proofs.«169794_j16423954940491_1_alg».proof.Proof.Gen.ReferenceIdeal.Run
import proofs.«169794_j16423954940491_1_alg».proof.Proof.Gen.ReferenceIdeal.Read
import proofs.«169794_j16423954940491_1_alg».proof.Proof.K.Run
import proofs.«169794_j16423954940491_1_alg».proof.Proof.KI.Run
import proofs.«169794_j16423954940491_1_alg».proof.Proof.KerVal
import proofs.«169794_j16423954940491_1_alg».proof.Proof.RefB
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

open Cert.KernelIdeal.Hand in
/-- Both programs end with the specification's two arrays of the (equal) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Spec.resOut (a0 m c) (a1 m c) (a2 m c) (a3 m c) (a4 m c) (a5 m c) (a6 m c) (a7 m c),
    fun c => Spec.resW (a0 m c) (a1 m c) (a2 m c) (a3 m c) (a4 m c) (a5 m c), ?_, ?_⟩
  · refine (θ_run Cert.KernelIdeal.defs _ _).mono (fun r h c => ?_) (run_all (F := Ideal) m ρ)
    exact ⟨(h c _ (mem_uc Cert.KernelIdeal.main_v19 (by decide))).trans (resOut_eq m ρ c),
      (h c _ (mem_uc Cert.KernelIdeal.main_v20 (by decide))).trans (resW_eq m ρ c),
      (h c _ (mem_uc Cert.KernelIdeal.main_arg0 (by decide))).trans (W7_main_arg0 m ρ c),
      (h c _ (mem_uc Cert.KernelIdeal.main_arg1 (by decide))).trans (W7_main_arg1 m ρ c),
      (h c _ (mem_uc Cert.KernelIdeal.main_arg2 (by decide))).trans (W7_main_arg2 m ρ c),
      (h c _ (mem_uc Cert.KernelIdeal.main_arg3 (by decide))).trans (W7_main_arg3 m ρ c),
      (h c _ (mem_uc Cert.KernelIdeal.main_arg4 (by decide))).trans (W7_main_arg4 m ρ c),
      (h c _ (mem_uc Cert.KernelIdeal.main_arg5 (by decide))).trans (W7_main_arg5 m ρ c),
      (h c _ (mem_uc Cert.KernelIdeal.main_arg6 (by decide))).trans (W7_main_arg6 m ρ c),
      (h c _ (mem_uc Cert.KernelIdeal.main_arg7 (by decide))).trans (W7_main_arg7 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v52_eq, Cert.ReferenceIdeal.RefValue.ref_out,
        (hagree c).1, (hagree c).2.1, (hagree c).2.2.1, (hagree c).2.2.2.1, (hagree c).2.2.2.2.1, (hagree c).2.2.2.2.2.1,
        (hagree c).2.2.2.2.2.2.1, (hagree c).2.2.2.2.2.2.2]
    · rw [Cert.ReferenceIdeal.Read.val_main_v48_eq, Cert.ReferenceIdeal.RefValue.ref_w,
        (hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
